-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x20 : Shape := ⟨2, ![128, 20]⟩
abbrev S20 : Shape := ⟨1, ![20]⟩
abbrev S20x20 : Shape := ⟨2, ![20, 20]⟩
abbrev S20x128 : Shape := ⟨2, ![20, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x20 : S_.BroadcastsInDim S128x20 (![] : Fin 0 → Fin S128x20.rank)
  reducesTo_S128x20_S_d0_1 : S128x20.ReducesTo [0, 1] S_
  bcast_S_S20 : S_.BroadcastsInDim S20 (![] : Fin 0 → Fin S20.rank)
  reducesTo_S20_S_d0 : S20.ReducesTo [0] S_
  bcast_S_S20x20 : S_.BroadcastsInDim S20x20 (![] : Fin 0 → Fin S20x20.rank)
  reducesTo_S20x20_S_d0_1 : S20x20.ReducesTo [0, 1] S_
  bcast_S_S20x128 : S_.BroadcastsInDim S20x128 (![] : Fin 0 → Fin S20x128.rank)
  reducesTo_S20x128_S_d0_1 : S20x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S20x20 .f32) (main_arg5 : FVec F S20 .f32) (main_arg6 : FVec F S20x128 .f32) (main_arg7 : FVec F S128 .f32) (main_v13 : IVec S_ 1) (main_v16 : IVec S20 1) : IVec S_ 1 :=
  let main_c_5 : IVec S_ 1 := constantI S_ 1 1#1
  let main_v17 : IVec S_ 1 := (fun x v => Host.reduce IntOp.andi x v reducesTo_S20_S_d0 h_S_) main_v16 main_c_5
  let main_v18 : IVec S_ 1 := andi main_v13 main_v17
  let main_v19 : FVec F S20x20 .f32 := Host.absf main_arg4
  let main_cst_6 : FVec F S_ .f32 := constant S_ .f32 0x7F800000#32
  let main_v20 : FVec F S20x20 .f32 := broadcastInDim S20x20 ![] bcast_S_S20x20 main_cst_6
  let main_v21 : IVec S20x20 1 := cmpf .olt main_v19 main_v20
  let main_c_7 : IVec S_ 1 := constantI S_ 1 1#1
  let main_v22 : IVec S_ 1 := (fun x v => Host.reduce IntOp.andi x v reducesTo_S20x20_S_d0_1 h_S_) main_v21 main_c_7
  let main_v23 : IVec S_ 1 := andi main_v18 main_v22
  let main_v24 : FVec F S20 .f32 := Host.absf main_arg5
  let main_cst_8 : FVec F S_ .f32 := constant S_ .f32 0x7F800000#32
  let main_v25 : FVec F S20 .f32 := broadcastInDim S20 ![] bcast_S_S20 main_cst_8
  let main_v26 : IVec S20 1 := cmpf .olt main_v24 main_v25
  let main_c_9 : IVec S_ 1 := constantI S_ 1 1#1
  let main_v27 : IVec S_ 1 := (fun x v => Host.reduce IntOp.andi x v reducesTo_S20_S_d0 h_S_) main_v26 main_c_9
  let main_v28 : IVec S_ 1 := andi main_v23 main_v27
  let main_v29 : FVec F S20x128 .f32 := Host.absf main_arg6
  let main_cst_10 : FVec F S_ .f32 := constant S_ .f32 0x7F800000#32
  let main_v30 : FVec F S20x128 .f32 := broadcastInDim S20x128 ![] bcast_S_S20x128 main_cst_10
  let main_v31 : IVec S20x128 1 := cmpf .olt main_v29 main_v30
  let main_c_11 : IVec S_ 1 := constantI S_ 1 1#1
  let main_v32 : IVec S_ 1 := (fun x v => Host.reduce IntOp.andi x v reducesTo_S20x128_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x20 .f32) (main_arg3 : FVec F S20 .f32) (main_arg4 : FVec F S20x20 .f32) (main_arg5 : FVec F S20 .f32) (main_arg6 : FVec F S20x128 .f32) (main_arg7 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x20 .f32 := Host.absf main_arg2
  let main_cst_2 : FVec F S_ .f32 := constant S_ .f32 0x7F800000#32
  let main_v10 : FVec F S128x20 .f32 := broadcastInDim S128x20 ![] bcast_S_S128x20 main_cst_2
  let main_v11 : IVec S128x20 1 := cmpf .olt main_v9 main_v10
  let main_c_3 : IVec S_ 1 := constantI S_ 1 1#1
  let main_v12 : IVec S_ 1 := (fun x v => Host.reduce IntOp.andi x v reducesTo_S128x20_S_d0_1 h_S_) main_v11 main_c_3
  let main_v13 : IVec S_ 1 := andi main_v8 main_v12
  let main_v14 : FVec F S20 .f32 := Host.absf main_arg3
  let main_cst_4 : FVec F S_ .f32 := constant S_ .f32 0x7F800000#32
  let main_v15 : FVec F S20 .f32 := broadcastInDim S20 ![] bcast_S_S20 main_cst_4
  let main_v16 : IVec S20 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x20 : Shape := ⟨2, ![128, 20]⟩
abbrev S20 : Shape := ⟨1, ![20]⟩
abbrev S20x20 : Shape := ⟨2, ![20, 20]⟩
abbrev S20x128 : Shape := ⟨2, ![20, 128]⟩
abbrev S128 : Shape := ⟨1, ![128]⟩
abbrev S1x20 : Shape := ⟨2, ![1, 20]⟩
abbrev S1x128 : Shape := ⟨2, ![1, 128]⟩
abbrev S10000x20 : Shape := ⟨2, ![10000, 20]⟩
abbrev S400x10000 : Shape := ⟨2, ![400, 10000]⟩
abbrev S400x20 : Shape := ⟨2, ![400, 20]⟩
abbrev S1000x10000 : Shape := ⟨2, ![1000, 10000]⟩
abbrev S1000x128 : Shape := ⟨2, ![1000, 128]⟩
abbrev S1000x20 : Shape := ⟨2, ![1000, 20]⟩

abbrev nBuf : Space → Nat
  | .hbm => 14
  | .vmem => 22
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x20, .f32⟩
  | .hbm, ⟨3, _⟩ => ⟨S20, .f32⟩
  | .hbm, ⟨4, _⟩ => ⟨S20x20, .f32⟩
  | .hbm, ⟨5, _⟩ => ⟨S20, .f32⟩
  | .hbm, ⟨6, _⟩ => ⟨S20x128, .f32⟩
  | .hbm, ⟨7, _⟩ => ⟨S128, .f32⟩
  | .hbm, ⟨8, _⟩ => ⟨S1x20, .f32⟩
  | .hbm, ⟨9, _⟩ => ⟨S1x20, .f32⟩
  | .hbm, ⟨10, _⟩ => ⟨S1x128, .f32⟩
  | .hbm, ⟨11, _⟩ => ⟨S10000x10000, .bf16⟩
  | .hbm, ⟨12, _⟩ => ⟨S10000x20, .bf16⟩
  | .hbm, ⟨13, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x20, .f32⟩
  | .local _ .vmem, ⟨4, _⟩ => ⟨S1x20, .f32⟩
  | .local _ .vmem, ⟨5, _⟩ => ⟨S20x20, .f32⟩
  | .local _ .vmem, ⟨6, _⟩ => ⟨S400x10000, .bf16⟩
  | .local _ .vmem, ⟨7, _⟩ => ⟨S400x10000, .bf16⟩
  | .local _ .vmem, ⟨8, _⟩ => ⟨S400x20, .bf16⟩
  | .local _ .vmem, ⟨9, _⟩ => ⟨S400x20, .bf16⟩
  | .local _ .vmem, ⟨10, _⟩ => ⟨S10000x20, .bf16⟩
  | .local _ .vmem, ⟨11, _⟩ => ⟨S1000x10000, .bf16⟩
  | .local _ .vmem, ⟨12, _⟩ => ⟨S1000x10000, .bf16⟩
  | .local _ .vmem, ⟨13, _⟩ => ⟨S10000x20, .bf16⟩
  | .local _ .vmem, ⟨14, _⟩ => ⟨S1x20, .f32⟩
  | .local _ .vmem, ⟨15, _⟩ => ⟨S20x128, .f32⟩
  | .local _ .vmem, ⟨16, _⟩ => ⟨S1x128, .f32⟩
  | .local _ .vmem, ⟨17, _⟩ => ⟨S1000x128, .f32⟩
  | .local _ .vmem, ⟨18, _⟩ => ⟨S1000x128, .f32⟩
  | .local _ .vmem, ⟨19, _⟩ => ⟨S1000x128, .f32⟩
  | .local _ .vmem, ⟨20, _⟩ => ⟨S1000x128, .f32⟩
  | .local _ .vmem, ⟨21, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3_0 : Ref sig .tc := ⟨.hbm, 11, rfl⟩
abbrev main_call0_v3_1 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x10000 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x20 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 10], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (i : grid1.Coords) : Fin 2 → Nat :=
  let arg1 : BitVec 32 := BitVec.ofNat 32 (i 1).val
  let c1000_i32 : BitVec 32 := 1000#32
  let v20 : BitVec 32 := Scalar.muli arg1 c1000_i32
  let v21 : Index := Scalar.indexCast v20
  let c0_11 : Index := 0#32
  ![v21.toNat, 0]
def k1_cond2 (i : grid1.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

def cc1_transform_6 (i : grid1.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage1_0 : Fin 2 → Memref sig .tc .vmem S1000x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S10000x20 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x20 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S20x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S20_S1x20 : S20.ShapeCasts S1x20
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x20_S128x20_0_0 : ∀ a, (![0, 0] : Fin 2 → Nat) a + S128x20.size a ≤ S128x20.size a
  h_S128x20 : 0 < S128x20.numel
  bitsLt_bf16_f32 : FTy.bits .bf16 < FTy.bits .f32
  inb_S10000x20_S10000x20_0_0 : ∀ a, (![0, 0] : Fin 2 → Nat) a + S10000x20.size a ≤ S10000x20.size a
  h_S10000x20 : 0 < S10000x20.numel
  shapeCasts_S10000x20_S10000x20 : S10000x20.ShapeCasts S10000x20
  packedbf16_S10000x20_S10000x20_0_0 : (Rect.unit (s := S10000x20) ![0, 0] S10000x20.size inb_S10000x20_S10000x20_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S400x20 : S1x20.Broadcasts S400x20
  inb_S20x20_S20x20_0_0 : ∀ a, (![0, 0] : Fin 2 → Nat) a + S20x20.size a ≤ S20x20.size a
  h_S20x20 : 0 < S20x20.numel
  inb_S400x20_S400x20_0_0 : ∀ a, (![0, 0] : Fin 2 → Nat) a + S400x20.size a ≤ S400x20.size a
  h_S400x20 : 0 < S400x20.numel
  packedbf16_S400x20_S400x20_0_0 : (Rect.unit (s := S400x20) ![0, 0] S400x20.size inb_S400x20_S400x20_0_0).PackedRows (EltTy.packing .bf16)
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  broadcasts_S1x20_S1000x20 : S1x20.Broadcasts S1000x20
  inb_S20x128_S20x128_0_0 : ∀ a, (![0, 0] : Fin 2 → Nat) a + S20x128.size a ≤ S20x128.size a
  h_S20x128 : 0 < S20x128.numel
  h_S1000x128 : 0 < S1000x128.numel
  shapeCasts_S1000x128_S1000x128 : S1000x128.ShapeCasts S1000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  dot_S10000x128_S128x20_S10000x20_1_0_0_1_n_n_wf : DotDims.WF S10000x128 S128x20 S10000x20 [1] [0] [0] [1] [] []
  dot_S400x10000_S10000x20_S400x20_1_0_0_1_n_n_wf : DotDims.WF S400x10000 S10000x20 S400x20 [1] [0] [0] [1] [] []
  dot_S400x20_S20x20_S400x20_1_0_0_1_n_n_wf : DotDims.WF S400x20 S20x20 S400x20 [1] [0] [0] [1] [] []
  dot_S1000x10000_S10000x20_S1000x20_1_0_0_1_n_n_wf : DotDims.WF S1000x10000 S10000x20 S1000x20 [1] [0] [0] [1] [] []
  dot_S1000x20_S20x128_S1000x128_1_0_0_1_n_n_wf : DotDims.WF S1000x20 S20x128 S1000x128 [1] [0] [0] [1] [] []
  dot_S1000x10000_S10000x128_S1000x128_1_0_0_1_n_n_wf : DotDims.WF S1000x10000 S10000x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x20.size a ≤ S128x20.size a
  hwx0_2 : ∀ i : grid0.Coords, EltTy.bits .f32 = 32 ∨ (Rect.block (s := S128x20) S128x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x20.size a ≤ S1x20.size a
  hwx0_3 : ∀ i : grid0.Coords, EltTy.bits .f32 = 32 ∨ (Rect.block (s := S1x20) S1x20.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S20x20.size a ≤ S20x20.size a
  hwx0_4 : ∀ i : grid0.Coords, EltTy.bits .f32 = 32 ∨ (Rect.block (s := S20x20) S20x20.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x10000.size a ≤ S10000x10000.size a
  hwx0_5 : ∀ i : grid0.Coords, EltTy.bits .bf16 = 32 ∨ (Rect.block (s := S10000x10000) S400x10000.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x20.size a ≤ S10000x20.size a
  hwx0_6 : ∀ i : grid0.Coords, EltTy.bits .bf16 = 32 ∨ (Rect.block (s := S10000x20) S400x20.size (cc0_transform_6 i) (hinb0_6 i)).WholeWords (EltTy.packing .bf16)
  hrank1 : 0 < grid1.rank
  k1_off1_inb : ∀ i : grid1.Coords, ∀ (k1_h1 : k1_cond1 i = 1#1), ∀ a, (k1_off1 i) a + S1000x128.size a ≤ S10000x128.size a
  k1_off1_packedbf16 : ∀ i : grid1.Coords, ∀ (k1_h1 : k1_cond1 i = 1#1), (Rect.unit (s := S10000x128) (k1_off1 i) S1000x128.size (k1_off1_inb i k1_h1)).PackedRows (EltTy.packing .bf16)
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x10000.size a ≤ S10000x10000.size a
  hwx1_0 : ∀ i : grid1.Coords, EltTy.bits .bf16 = 32 ∨ (Rect.block (s := S10000x10000) S1000x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x20.size a ≤ S10000x20.size a
  hwx1_1 : ∀ i : grid1.Coords, EltTy.bits .bf16 = 32 ∨ (Rect.block (s := S10000x20) S10000x20.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x20.size a ≤ S1x20.size a
  hwx1_2 : ∀ i : grid1.Coords, EltTy.bits .f32 = 32 ∨ (Rect.block (s := S1x20) S1x20.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S20x128.size a ≤ S20x128.size a
  hwx1_3 : ∀ i : grid1.Coords, EltTy.bits .f32 = 32 ∨ (Rect.block (s := S20x128) S20x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S10000x128.size a
  hwx1_5 : ∀ i : grid1.Coords, EltTy.bits .f32 = 32 ∨ (Rect.block (s := S10000x128) S1000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x128.size a ≤ S10000x128.size a
  hwx1_6 : ∀ i : grid1.Coords, EltTy.bits .f32 = 32 ∨ (Rect.block (s := S10000x128) S1000x128.size (cc1_transform_6 i) (hinb1_6 i)).WholeWords (EltTy.packing .f32)

variable [Facts₀]

def dot_S10000x128_S128x20_S10000x20_1_0_0_1_n_n : DotDims S10000x128 S128x20 S10000x20 where
  lhsContracting := [1]
  rhsContracting := [0]
  lhsNonContracting := [0]
  rhsNonContracting := [1]
  lhsBatch := []
  rhsBatch := []
  wf := dot_S10000x128_S128x20_S10000x20_1_0_0_1_n_n_wf
def dot_S400x10000_S10000x20_S400x20_1_0_0_1_n_n : DotDims S400x10000 S10000x20 S400x20 where
  lhsContracting := [1]
  rhsContracting := [0]
  lhsNonContracting := [0]
  rhsNonContracting := [1]
  lhsBatch := []
  rhsBatch := []
  wf := dot_S400x10000_S10000x20_S400x20_1_0_0_1_n_n_wf
def dot_S400x20_S20x20_S400x20_1_0_0_1_n_n : DotDims S400x20 S20x20 S400x20 where
  lhsContracting := [1]
  rhsContracting := [0]
  lhsNonContracting := [0]
  rhsNonContracting := [1]
  lhsBatch := []
  rhsBatch := []
  wf := dot_S400x20_S20x20_S400x20_1_0_0_1_n_n_wf
def dot_S1000x10000_S10000x20_S1000x20_1_0_0_1_n_n : DotDims S1000x10000 S10000x20 S1000x20 where
  lhsContracting := [1]
  rhsContracting := [0]
  lhsNonContracting := [0]
  rhsNonContracting := [1]
  lhsBatch := []
  rhsBatch := []
  wf := dot_S1000x10000_S10000x20_S1000x20_1_0_0_1_n_n_wf
def dot_S1000x20_S20x128_S1000x128_1_0_0_1_n_n : DotDims S1000x20 S20x128 S1000x128 where
  lhsContracting := [1]
  rhsContracting := [0]
  lhsNonContracting := [0]
  rhsNonContracting := [1]
  lhsBatch := []
  rhsBatch := []
  wf := dot_S1000x20_S20x128_S1000x128_1_0_0_1_n_n_wf
def dot_S1000x10000_S10000x128_S1000x128_1_0_0_1_n_n : DotDims S1000x10000 S10000x128 S1000x128 where
  lhsContracting := [1]
  rhsContracting := [0]
  lhsNonContracting := [0]
  rhsNonContracting := [1]
  lhsBatch := []
  rhsBatch := []
  wf := dot_S1000x10000_S10000x128_S1000x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S20x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3_0) S400x10000.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3_1) S400x20.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v3_0) S1000x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v3_1) S10000x20.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S1x20.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S20x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v2) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg0) S1000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v0) S1000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x20 : Shape := ⟨2, ![128, 20]⟩
abbrev S20 : Shape := ⟨1, ![20]⟩
abbrev S20x20 : Shape := ⟨2, ![20, 20]⟩
abbrev S20x128 : Shape := ⟨2, ![20, 128]⟩
abbrev S128 : Shape := ⟨1, ![128]⟩
abbrev S10000x20 : Shape := ⟨2, ![10000, 20]⟩
abbrev S1x20 : Shape := ⟨2, ![1, 20]⟩
abbrev S_ : Shape := ⟨0, ![]⟩
abbrev S1x128 : Shape := ⟨2, ![1, 128]⟩

abbrev nBuf : Space → Nat
  | .hbm => 36
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x20, .f32⟩
  | .hbm, ⟨3, _⟩ => ⟨S20, .f32⟩
  | .hbm, ⟨4, _⟩ => ⟨S20x20, .f32⟩
  | .hbm, ⟨5, _⟩ => ⟨S20, .f32⟩
  | .hbm, ⟨6, _⟩ => ⟨S20x128, .f32⟩
  | .hbm, ⟨7, _⟩ => ⟨S128, .f32⟩
  | .hbm, ⟨8, _⟩ => ⟨S10000x20, .f32⟩
  | .hbm, ⟨9, _⟩ => ⟨S10000x20, .f32⟩
  | .hbm, ⟨10, _⟩ => ⟨S1x20, .f32⟩
  | .hbm, ⟨11, _⟩ => ⟨S10000x20, .f32⟩
  | .hbm, ⟨12, _⟩ => ⟨S10000x20, .f32⟩
  | .hbm, ⟨13, _⟩ => ⟨S_, .f32⟩
  | .hbm, ⟨14, _⟩ => ⟨S10000x20, .f32⟩
  | .hbm, ⟨15, _⟩ => ⟨S10000x20, .f32⟩
  | .hbm, ⟨16, _⟩ => ⟨S10000x20, .f32⟩
  | .hbm, ⟨17, _⟩ => ⟨S10000x20, .f32⟩
  | .hbm, ⟨18, _⟩ => ⟨S1x20, .f32⟩
  | .hbm, ⟨19, _⟩ => ⟨S10000x20, .f32⟩
  | .hbm, ⟨20, _⟩ => ⟨S10000x20, .f32⟩
  | .hbm, ⟨21, _⟩ => ⟨S_, .f32⟩
  | .hbm, ⟨22, _⟩ => ⟨S10000x20, .f32⟩
  | .hbm, ⟨23, _⟩ => ⟨S10000x20, .f32⟩
  | .hbm, ⟨24, _⟩ => ⟨S10000x128, .f32⟩
  | .hbm, ⟨25, _⟩ => ⟨S10000x128, .f32⟩
  | .hbm, ⟨26, _⟩ => ⟨S1x128, .f32⟩
  | .hbm, ⟨27, _⟩ => ⟨S10000x128, .f32⟩
  | .hbm, ⟨28, _⟩ => ⟨S10000x128, .f32⟩
  | .hbm, ⟨29, _⟩ => ⟨S_, .f32⟩
  | .hbm, ⟨30, _⟩ => ⟨S10000x128, .f32⟩
  | .hbm, ⟨31, _⟩ => ⟨S10000x128, .f32⟩
  | .hbm, ⟨32, _⟩ => ⟨S10000x128, .f32⟩
  | .hbm, ⟨33, _⟩ => ⟨S_, .f32⟩
  | .hbm, ⟨34, _⟩ => ⟨S10000x128, .f32⟩
  | .hbm, ⟨35, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call2_cst : Ref sig .tc := ⟨.hbm, 29, rfl⟩
abbrev main_call2_v0 : Ref sig .tc := ⟨.hbm, 30, rfl⟩
abbrev main_v17 : Ref sig .tc := ⟨.hbm, 31, rfl⟩
abbrev main_v18 : Ref sig .tc := ⟨.hbm, 32, rfl⟩
abbrev main_call3_cst : Ref sig .tc := ⟨.hbm, 33, rfl⟩
abbrev main_call3_v0 : Ref sig .tc := ⟨.hbm, 34, rfl⟩
abbrev main_v19 : Ref sig .tc := ⟨.hbm, 35, rfl⟩

abbrev nD : Nat := 1
abbrev τ : Topo := Topo.v7x

variable {F : FTy → Type} [FloatOps F]

class Facts₀ : Prop where
  bcast_S20_S1x20_1 : S20.BroadcastsInDim S1x20 (![1] : Fin 1 → Fin S1x20.rank)
  bcast_S1x20_S10000x20_0_1 : S1x20.BroadcastsInDim S10000x20 (![0, 1] : Fin 2 → Fin S10000x20.rank)
  bcast_S_S10000x20 : S_.BroadcastsInDim S10000x20 (![] : Fin 0 → Fin S10000x20.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x20_S10000x20_1_0_0_1_n_n_wf : DotDims.WF S10000x128 S128x20 S10000x20 [1] [0] [0] [1] [] []
  dot_S10000x10000_S10000x20_S10000x20_1_0_0_1_n_n_wf : DotDims.WF S10000x10000 S10000x20 S10000x20 [1] [0] [0] [1] [] []
  dot_S10000x20_S20x20_S10000x20_1_0_0_1_n_n_wf : DotDims.WF S10000x20 S20x20 S10000x20 [1] [0] [0] [1] [] []
  dot_S10000x20_S20x128_S10000x128_1_0_0_1_n_n_wf : DotDims.WF S10000x20 S20x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x20_S10000x20_1_0_0_1_n_n : DotDims S10000x128 S128x20 S10000x20 where
  lhsContracting := [1]
  rhsContracting := [0]
  lhsNonContracting := [0]
  rhsNonContracting := [1]
  lhsBatch := []
  rhsBatch := []
  wf := dot_S10000x128_S128x20_S10000x20_1_0_0_1_n_n_wf
def dot_S10000x10000_S10000x20_S10000x20_1_0_0_1_n_n : DotDims S10000x10000 S10000x20 S10000x20 where
  lhsContracting := [1]
  rhsContracting := [0]
  lhsNonContracting := [0]
  rhsNonContracting := [1]
  lhsBatch := []
  rhsBatch := []
  wf := dot_S10000x10000_S10000x20_S10000x20_1_0_0_1_n_n_wf
def dot_S10000x20_S20x20_S10000x20_1_0_0_1_n_n : DotDims S10000x20 S20x20 S10000x20 where
  lhsContracting := [1]
  rhsContracting := [0]
  lhsNonContracting := [0]
  rhsNonContracting := [1]
  lhsBatch := []
  rhsBatch := []
  wf := dot_S10000x20_S20x20_S10000x20_1_0_0_1_n_n_wf
def dot_S10000x20_S20x128_S10000x128_1_0_0_1_n_n : DotDims S10000x20 S20x128 S10000x128 where
  lhsContracting := [1]
  rhsContracting := [0]
  lhsNonContracting := [0]
  rhsNonContracting := [1]
  lhsBatch := []
  rhsBatch := []
  wf := dot_S10000x20_S20x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.R0Defs.lean ====
/-
  The first kernel region (25 row blocks of 400 rows of the adjacency matrix), as data.
  At every grid point the body casts its 400 x 10000 block of the adjacency matrix to the narrow
  format (output window 5) and stores relu(block · S1 + b1) · W2 for its 400 rows (output window 6),
  where S1 = x · W1 is computed once, at the first point, into a scratch buffer that every later
  point reads.  So after the first point the scratch holds one fixed array, `S1val`, a function
  of the region's entry contents only; before it, anything.
  Here: each window's block at a point, `S1val`, the region invariant (the scratch at `S1val`
  once a point has run; the other scoped buffers and the generator register at anything), and the
  pipeline's proof data over them.  Everything is stated for any float instance.
-/
import proofs.«146167_g15126874816640_cont_week2b_32_11_alg».proof.Proof.Gen.KernelIdeal.Launch
import proofs.«146167_g15126874816640_cont_week2b_32_11_alg».proof.Proof.Gen.KernelIdeal.Skeleton
import proofs.«146167_g15126874816640_cont_week2b_32_11_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

-- the core's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point. -/
abbrev t00 : Fin cfg0.N := ⟨0, by rw [show cfg0.N = 25 from N_0]; omega⟩

/-- The scratch operand of the first kernel, as a memref. -/
abbrev scM0 : Memref sig .tc .vmem S10000x20 .bf16 := Memref.whole cc0_scratch0

/-- What the first point stores into the scratch: x · W1 (in the narrow format), from the whole blocks of
    windows 1 (x) and 2 (W1), whose index never moves. -/
def S1val (c : Dev nD) : Vec F S10000x20 .bf16 :=
  k0_pay1 (iblk0 V c 1 t00) (iblk0 V c 2 t00)

/-- A scoped buffer held whole at some contents. -/
abbrev anyBuf (c : Dev nD) (r : Ref sig .tc) : sProp 𝕄 :=
  iprop(∃ f : Buf (Elt F) ((c : Thread nD τ).loc r), ((c : Thread nD τ).loc r) ↦{fullShare} f)

/-- The scoped buffers that are neither a staging buffer of this region nor its scratch (the second region's staging
    buffers and scratch), each at some contents. -/
def others0 (c : Dev nD) : sProp 𝕄 :=
  iprop(anyBuf (F := F) c cc1_stg0_0 ∗ anyBuf (F := F) c cc1_stg0_1 ∗ anyBuf (F := F) c cc1_stg1_0 ∗ anyBuf (F := F) c cc1_stg2_0
    ∗ anyBuf (F := F) c cc1_stg3_0 ∗ anyBuf (F := F) c cc1_stg4_0 ∗ anyBuf (F := F) c cc1_stg5_0 ∗ anyBuf (F := F) c cc1_stg5_1
    ∗ anyBuf (F := F) c cc1_stg6_0 ∗ anyBuf (F := F) c cc1_stg6_1 ∗ anyBuf (F := F) c cc1_scratch0)

/-- The region invariant before position `n`: the scratch at some contents, which are `S1val` once a point has run;
    the other scoped buffers and the generator register at anything. -/
def Phi0 (c : Dev nD) (n : ℕ) : sProp 𝕄 :=
  iprop(∃ f : Vec F S10000x20 .bf16, owns (c : Thread nD τ) scM0 fullShare f ∗ ⌜0 < n → f = S1val V c⌝
    ∗ others0 (F := F) c ∗ ∃ r, prngReg c r)

/-- The proof data of the first pipeline on core `c`: the arrays as the region finds them; after the body at point `t`
    each input's buffer at its block, output window 5 at the cast of the adjacency block, output window 6 at
    relu(block · S1 + b1) · W2; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay2 (iblk0 V c 0 t)
    | ⟨6, _⟩ => k0_pay3 (iblk0 V c 0 t) (S1val V c) (iblk0 V c 3 t) (iblk0 V c 4 t)
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay2 (iblk0 V c 0 t) := by dsimp only [dat0]
theorem after0_6 (c : Dev nD) (t : Fin cfg0.N) :
    (dat0 V c).after 6 t = k0_pay3 (iblk0 V c 0 t) (S1val V c) (iblk0 V c 3 t) (iblk0 V c 4 t) := by dsimp only [dat0]

theorem Phi0_eq (c : Dev nD) (t : Fin (cfg0.N + 1)) : (dat0 V c).Φ t = Phi0 V c t.val := by dsimp only [dat0]

end Region0

end Cert.KernelIdeal.Hand

end
-- ==== Proof.R0Body.lean ====
/-
  The first kernel region: its body obligation and the invariant at its two ends.
  The body has one conditional, on "this is row block 0". Where it holds (the first grid point only) the body
  loads x and W1 whole and stores x · W1, in the narrow format, whole into the scratch. At every point it then loads
  its 400 x 10000 block of the adjacency matrix, stores the block's narrow cast whole into output window 5, loads
  the scratch, b1 and W2 whole and stores relu(block · scratch + b1) · W2 whole into output window 6. Every access is the
  whole-shape rectangle at zero offsets, so a load reads the buffer's contents and a stored buffer holds the payload.
  Two runs, one per control case, each on arbitrary whole memrefs with the contents left written out; then the body
  at a generic point (the inputs' buffers hold their blocks whether fetched there or not; the scratch is handed at
  anything at the first point and at `S1val` afterwards, and is left at `S1val`), the obligation, and the two ends of
  the invariant (nothing is known of the scratch before the first point, and what is known is forgotten after the last).
-/
import proofs.«146167_g15126874816640_cont_week2b_32_11_alg».proof.Proof.R0Defs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch condition -/

/-- The condition of the body's one conditional, from the grid coordinates: "this is row block 0". -/
abbrev cond0 (i : grid0.Coords) : Prop := (Scalar.cmpi .ne (Scalar.extui (Scalar.cmpi .eq (BitVec.ofNat 32 (i 0).val) 0#32)) 0#32) = 1#1

/-- It holds at the first grid point and at no other — decided over the 25 points. -/
theorem hcond0 : ∀ t : Fin cfg0.N, cond0 (grid0.coords t) ↔ t.val = 0 :=
  (by decide +kernel : ∀ t : Fin grid0.N, cond0 (grid0.coords t) ↔ t.val = 0)

/-! ## Whole-buffer accesses -/

/-- The zero offsets of a rank-2 access, as the constant function. -/
theorem off00 : (![0, 0] : Fin 2 → Nat) = fun _ => 0 := by
  funext a; fin_cases a <;> rfl

/-- A buffer into which ONE store wrote a payload through the whole-shape rectangle at zero offsets reads as
    that payload, whatever it held before. -/
theorem read_whole_store {κ : Kind} {sp : Space} {S : Shape} {e : EltTy} (v : View sig κ sp S e) (f : v.ty.Contents (Elt F))
    {off : Fin S.rank → Nat} (hz : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero hz inb y⟩),
    View.canon_unit_zero hz]

/-! ## The body's runs, one per control case -/

set_option maxHeartbeats 1000000 in
/-- A point other than the first (the conditional not taken). On whole memrefs — the five inputs at their contents, the two
    outputs at anything, the scratch at contents `xs` — the body runs to the continuation holding the inputs and the
    scratch as they were, output 5 at the narrow cast of the adjacency block and output 6 at
    relu(block · xs + b1) · W2. -/
theorem run0_rest (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x20 .f32) (harg3 : arg3.IsWhole) (arg4 : Memref sig .tc .vmem S1x20 .f32) (harg4 : arg4.IsWhole) (arg5 : Memref sig .tc .vmem S20x20 .f32) (harg5 : arg5.IsWhole) (arg6 : Memref sig .tc .vmem S400x10000 .bf16) (harg6 : arg6.IsWhole) (arg7 : Memref sig .tc .vmem S400x20 .bf16) (harg7 : arg7.IsWhole) (arg8 : Memref sig .tc .vmem S10000x20 .bf16) (harg8 : arg8.IsWhole) (hc : ¬cond0 i)
    (xa : Vec F S400x10000 .f32) (xx : Vec F S10000x128 .f32) (xw1 : Vec F S128x20 .f32) (xb1 : Vec F S1x20 .f32)
    (xw2 : Vec F S20x20 .f32) (xs : Vec F S10000x20 .bf16) (E : Set ℕ) (K : PUnit → sProp 𝕄) :
    iprop(owns (c : Thread nD τ) arg1 fullShare xa ∗ owns (c : Thread nD τ) arg2 fullShare xx ∗ owns (c : Thread nD τ) arg3 fullShare xw1
        ∗ owns (c : Thread nD τ) arg4 fullShare xb1 ∗ owns (c : Thread nD τ) arg5 fullShare xw2
        ∗ (∃ d, owns (c : Thread nD τ) arg6 fullShare d) ∗ (∃ d, owns (c : Thread nD τ) arg7 fullShare d)
        ∗ owns (c : Thread nD τ) arg8 fullShare xs
        ∗ (iprop(owns (c : Thread nD τ) arg1 fullShare xa ∗ owns (c : Thread nD τ) arg2 fullShare xx ∗ owns (c : Thread nD τ) arg3 fullShare xw1
            ∗ owns (c : Thread nD τ) arg4 fullShare xb1 ∗ owns (c : Thread nD τ) arg5 fullShare xw2
            ∗ owns (c : Thread nD τ) arg6 fullShare (k0_pay2 xa) ∗ owns (c : Thread nD τ) arg7 fullShare (k0_pay3 xa xs xb1 xw2)
            ∗ owns (c : Thread nD τ) arg8 fullShare xs) -∗ K ⟨⟩))
      ⊢ wp frame (wpE (defs₀ (F := F)) Variants.none c none) E (cc0__pass1_body i arg1 harg1 arg2 harg2 arg3 harg3 arg4 harg4 arg5 harg5 arg6 harg6 arg7 harg7 arg8 harg8) K := by
  simp only [cc0__pass1_body_eq_skeleton]; unfold cc0__pass1_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg8.eq_unread hf8
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]
  · iexists _; isplitr
    swap; · iexact H6
    ipureintro
    rw [read_whole_store _ _ off00]
    simp only [View.readAt_eq_ld, hf1, View.ld_unit_zero (S := S400x10000) off00]
  isplitl [H7]
  · iexists _; isplitr
    swap; · iexact H7
    ipureintro
    rw [read_whole_store _ _ off00]
    simp only [View.readAt_eq_ld, hf1, hf4, hf5, hf8, View.ld_unit_zero (S := S400x10000) off00, View.ld_unit_zero (S := S10000x20) off00, View.ld_unit_zero (S := S1x20) off00, View.ld_unit_zero (S := S20x20) off00]
  iexists _; isplitr; · ipureintro; exact hf8
  iexact H8

set_option maxHeartbeats 1000000 in
/-- The first point (the conditional taken). On whole memrefs — the five inputs at their contents, the two outputs and the
    scratch at anything — the body runs to the continuation holding the inputs as they were, the scratch at
    x · W1 (narrow), output 5 at the narrow cast of the adjacency block and output 6 at
    relu(block · (x · W1) + b1) · W2: the scratch is read back after the store, so it reads the stored product. -/
theorem run0_first (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x20 .f32) (harg3 : arg3.IsWhole) (arg4 : Memref sig .tc .vmem S1x20 .f32) (harg4 : arg4.IsWhole) (arg5 : Memref sig .tc .vmem S20x20 .f32) (harg5 : arg5.IsWhole) (arg6 : Memref sig .tc .vmem S400x10000 .bf16) (harg6 : arg6.IsWhole) (arg7 : Memref sig .tc .vmem S400x20 .bf16) (harg7 : arg7.IsWhole) (arg8 : Memref sig .tc .vmem S10000x20 .bf16) (harg8 : arg8.IsWhole) (hc : cond0 i)
    (xa : Vec F S400x10000 .f32) (xx : Vec F S10000x128 .f32) (xw1 : Vec F S128x20 .f32) (xb1 : Vec F S1x20 .f32)
    (xw2 : Vec F S20x20 .f32) (E : Set ℕ) (K : PUnit → sProp 𝕄) :
    iprop(owns (c : Thread nD τ) arg1 fullShare xa ∗ owns (c : Thread nD τ) arg2 fullShare xx ∗ owns (c : Thread nD τ) arg3 fullShare xw1
        ∗ owns (c : Thread nD τ) arg4 fullShare xb1 ∗ owns (c : Thread nD τ) arg5 fullShare xw2
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg1 fullShare xa ∗ owns (c : Thread nD τ) arg2 fullShare xx ∗ owns (c : Thread nD τ) arg3 fullShare xw1
            ∗ owns (c : Thread nD τ) arg4 fullShare xb1 ∗ owns (c : Thread nD τ) arg5 fullShare xw2
            ∗ owns (c : Thread nD τ) arg6 fullShare (k0_pay2 xa) ∗ owns (c : Thread nD τ) arg7 fullShare (k0_pay3 xa (k0_pay1 xx xw1) xb1 xw2)
            ∗ owns (c : Thread nD τ) arg8 fullShare (k0_pay1 xx xw1)) -∗ K ⟨⟩))
      ⊢ wp frame (wpE (defs₀ (F := F)) Variants.none c none) E (cc0__pass1_body i arg1 harg1 arg2 harg2 arg3 harg3 arg4 harg4 arg5 harg5 arg6 harg6 arg7 harg7 arg8 harg8) K := by
  simp only [cc0__pass1_body_eq_skeleton]; unfold cc0__pass1_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]
  · iexists _; isplitr
    swap; · iexact H6
    ipureintro
    rw [read_whole_store _ _ off00]
    simp only [View.readAt_eq_ld, hf1, View.ld_unit_zero (S := S400x10000) off00]
  isplitl [H7]
  · iexists _; isplitr
    swap; · iexact H7
    ipureintro
    rw [read_whole_store _ _ off00]
    sl_unfold_run_names
    simp only [View.readAt_eq_ld, hf1, hf2, hf3, hf4, hf5, View.ld_unit_zero (S := S400x10000) off00, View.ld_unit_zero (S := S10000x128) off00, View.ld_unit_zero (S := S128x20) off00, View.ld_unit_zero (S := S1x20) off00, View.ld_unit_zero (S := S20x20) off00, View.readCov_unit_zero (S := S10000x20) _ off00]
  iexists _; isplitr
  swap; · iexact H8
  ipureintro
  sl_unfold_run_names
  rw [read_whole_store _ _ off00]
  simp only [View.readAt_eq_ld, hf2, hf3, View.ld_unit_zero (S := S10000x128) off00, View.ld_unit_zero (S := S128x20) off00]

section Region0

-- the core's buffer contents when the region is entered
variable (V : (c : Dev nD) → (b : Ref sig .tc) → Buf (Elt F) ((c : Thread nD τ).loc b))

/-! ## What the inputs' staging buffers hold -/

/-- Each input window's current staging buffer holds its block at every point, fetched there or not: where the pipeline
    does not fetch, the block index has not moved and the body left the block in place (the windows are uncut and
    never idle). Window 0 (the adjacency row block) is fetched at every point, windows 1 to 4 (x, W1, b1, W2, whose
    index never moves) at the first only. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The body obligation, at a generic point -/

/-- What the body is called with at point `t` (the library's obligation, the windows one by one), -/
def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d))
    ∗ (∃ d, owns (c : Thread nD τ) (win0_5.stage (cfg0.slots t 5)) fullShare ((dat0 V c).before 5 t d))
    ∗ (∃ d, owns (c : Thread nD τ) (win0_6.stage (cfg0.slots t 6)) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

/-- No window of this region is ever idle, so what the body must leave in window `w`'s buffer is plainly `after w t`. -/
theorem leaves0_0 (c : Dev nD) (t : Fin cfg0.N) :
    (dat0 V c).leavesExact 0 t = owns (c : Thread nD τ) (win0_0.stage (cfg0.slots t 0)) fullShare ((dat0 V c).after 0 t) := by
  unfold Dat.leavesExact; rfl
theorem leaves0_1 (c : Dev nD) (t : Fin cfg0.N) :
    (dat0 V c).leavesExact 1 t = owns (c : Thread nD τ) (win0_1.stage (cfg0.slots t 1)) fullShare ((dat0 V c).after 1 t) := by
  unfold Dat.leavesExact; rfl
theorem leaves0_2 (c : Dev nD) (t : Fin cfg0.N) :
    (dat0 V c).leavesExact 2 t = owns (c : Thread nD τ) (win0_2.stage (cfg0.slots t 2)) fullShare ((dat0 V c).after 2 t) := by
  unfold Dat.leavesExact; rfl
theorem leaves0_3 (c : Dev nD) (t : Fin cfg0.N) :
    (dat0 V c).leavesExact 3 t = owns (c : Thread nD τ) (win0_3.stage (cfg0.slots t 3)) fullShare ((dat0 V c).after 3 t) := by
  unfold Dat.leavesExact; rfl
theorem leaves0_4 (c : Dev nD) (t : Fin cfg0.N) :
    (dat0 V c).leavesExact 4 t = owns (c : Thread nD τ) (win0_4.stage (cfg0.slots t 4)) fullShare ((dat0 V c).after 4 t) := by
  unfold Dat.leavesExact; rfl
theorem leaves0_5 (c : Dev nD) (t : Fin cfg0.N) :
    (dat0 V c).leavesExact 5 t = owns (c : Thread nD τ) (win0_5.stage (cfg0.slots t 5)) fullShare ((dat0 V c).after 5 t) := by
  unfold Dat.leavesExact; rfl
theorem leaves0_6 (c : Dev nD) (t : Fin cfg0.N) :
    (dat0 V c).leavesExact 6 t = owns (c : Thread nD τ) (win0_6.stage (cfg0.slots t 6)) fullShare ((dat0 V c).after 6 t) := by
  unfold Dat.leavesExact; rfl

set_option maxHeartbeats 4000000 in
/-- The body at any point. The inputs' memrefs hold their blocks; at the first point the invariant hands the scratch at
    anything and the run leaves it at x · W1, which is `S1val`; at a later point the invariant hands it at `S1val` and
    the run leaves it there; the other scoped buffers and the generator register pass through; the core owes nothing. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [leaves0_0, leaves0_1, leaves0_2, leaves0_3, leaves0_4, leaves0_5, leaves0_6,
    after0_0, after0_1, after0_2, after0_3, after0_4, after0_5, after0_6]
  rw [Phi0_eq, Phi0_eq, Fin.coe_castSucc, Fin.val_succ]
  unfold Phi0
  by_cases hz : t.val = 0
  · obtain rfl : t = t00 := Fin.ext hz
    unfold S1val
    iintro ⟨⟨%f, HS, -, Hoth, Hg⟩, Ho, ⟨%d0, H0⟩, ⟨%d1, H1⟩, ⟨%d2, H2⟩, ⟨%d3, H3⟩, ⟨%d4, H4⟩, ⟨%d5, H5⟩, ⟨%d6, H6⟩⟩
    iapply (run0_first c (grid0.coords t00) _ _ _ _ _ _ _ _ _ _ _ _ _ _ _ _ ((hcond0 t00).mpr rfl)
      (iblk0 V c 0 t00) (iblk0 V c 1 t00) (iblk0 V c 2 t00) (iblk0 V c 3 t00) (iblk0 V c 4 t00) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexists _; iexact HS
    iintro ⟨H0, H1, H2, H3, H4, H5, H6, HS⟩
    isplitl [HS Hoth Hg]
    · iexists _
      isplitl [HS]; · iexact HS
      isplitr; · ipureintro; exact fun _ => rfl
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iintro ⟨⟨%f, HS, %hf, Hoth, Hg⟩, Ho, ⟨%d0, H0⟩, ⟨%d1, H1⟩, ⟨%d2, H2⟩, ⟨%d3, H3⟩, ⟨%d4, H4⟩, ⟨%d5, H5⟩, ⟨%d6, H6⟩⟩
    obtain rfl := hf (Nat.pos_of_ne_zero hz)
    iapply (run0_rest c (grid0.coords t) _ _ _ _ _ _ _ _ _ _ _ _ _ _ _ _ (fun h => hz ((hcond0 t).mp h))
      (iblk0 V c 0 t) (iblk0 V c 1 t) (iblk0 V c 2 t) (iblk0 V c 3 t) (iblk0 V c 4 t) (S1val V c) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hoth Hg]
    · iexists _
      isplitl [HS]; · iexact HS
      isplitr; · ipureintro; exact fun _ => rfl
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's ends -/

/-- What the launch hands the region — every scoped buffer that is no staging buffer of this region at some contents, the
    generator register at some state — is the invariant before the first point: the scratch's contents are not yet
    constrained. -/
theorem hin0 (c : Dev nD) : (Pipeline.ΦA spec0 c : sProp 𝕄) ⊢ (dat0 V c).Φ 0 := by
  rw [Phi0_eq]
  unfold Phi0 others0 Pipeline.ΦA
  rw [scopedRest0_eq]
  iintro ⟨⟨⟨%f, HS⟩, Hoth⟩, Hg⟩
  iexists f
  isplitl [HS]; · rw [owns_whole]; iexact HS
  isplitr; · ipureintro; intro h; exact absurd h (Nat.lt_irrefl 0)
  isplitl [Hoth]; · iexact Hoth
  iexact Hg

/-- After the last point the invariant gives that back: the scratch's named contents are forgotten. -/
theorem hout0 (c : Dev nD) : (dat0 V c).Φ (Fin.last cfg0.N) ⊢ (Pipeline.ΦA spec0 c : sProp 𝕄) := by
  rw [Phi0_eq]
  unfold Phi0 others0 Pipeline.ΦA
  rw [scopedRest0_eq]
  simp only [scM0, owns_whole]
  iintro ⟨%f, HS, -, Hoth, Hg⟩
  isplitr [Hg]
  · isplitl [HS]
    · iexists f; iexact HS
    iexact Hoth
  iexact Hg

end Region0

end Cert.KernelIdeal.Hand

end
-- ==== Proof.R1Defs.lean ====
/-
  The second kernel region (grid 2 x 10: a phase, then a block of 1000 rows of the narrow adjacency matrix), as data.
  In phase 0, point i computes rows 1000 i .. 1000 i + 999 of S3 = relu(adj · S2 + b2) · W3 and stores them into
  a scratch buffer; the output window is left alone (and is not written back).  In phase 1, point i reads the WHOLE
  scratch and stores relu(relu(block · S3 + b3) + x block) into the output window, which is then written back as
  block i.  So the scratch is filled slice by slice: before position n its rows below 1000 · min n 10 hold their
  final value, `S3val`, a function of the region's entry contents only, and the rows above hold anything.
  Here: each window's block at a point, `S3val`, the region invariant, and the pipeline's proof data over them.
  Everything is stated for any float instance.
-/
import proofs.«146167_g15126874816640_cont_week2b_32_11_alg».proof.Proof.R0Defs
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

-- the core's buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first grid point. -/
abbrev t10 : Fin cfg1.N := ⟨0, by rw [show cfg1.N = 20 from N_1]; omega⟩

/-- The phase-0 point that computes row `r` of S3: point r / 1000. -/
def rowPt (r : ℕ) (hr : r < 10000) : Fin cfg1.N := ⟨r / 1000, by rw [show cfg1.N = 20 from N_1]; omega⟩

/-- The scratch operand of the second kernel, as a memref. -/
abbrev scM1 : Memref sig .tc .vmem S10000x128 .bf16 := Memref.whole cc1_scratch0

/-- S3 = relu(adj · S2 + b2) · W3 (in the narrow format), row by row: row r is row r % 1000 of what the phase-0 point
    r / 1000 computes from its block of window 0 and the whole blocks of windows 1 (S2), 2 (b2) and 3 (W3). -/
def S3val (c : Dev nD) : Vec F S10000x128 .bf16 := fun idx =>
  k1_pay1 (iblk1 V c 0 (rowPt (idx 0).val (Idealize.ShloMosaic.ValueIdx.idx2_lt0 idx))) (iblk1 V c 1 t10) (iblk1 V c 2 t10) (iblk1 V c 3 t10)
    (Idealize.ShloMosaic.ValueIdx.ix2 (⟨(idx 0).val % 1000, Nat.mod_lt _ (by omega)⟩ : Fin 1000) (⟨(idx 1).val, Idealize.ShloMosaic.ValueIdx.idx2_lt1 idx⟩ : Fin 128))

/-- The scoped buffers that are neither a staging buffer of this region nor its scratch (the first region's staging
    buffers and scratch), each at some contents. -/
def others1 (c : Dev nD) : sProp 𝕄 :=
  iprop(anyBuf (F := F) c cc0_stg0_0 ∗ anyBuf (F := F) c cc0_stg0_1 ∗ anyBuf (F := F) c cc0_stg1_0 ∗ anyBuf (F := F) c cc0_stg2_0
    ∗ anyBuf (F := F) c cc0_stg3_0 ∗ anyBuf (F := F) c cc0_stg4_0 ∗ anyBuf (F := F) c cc0_stg5_0 ∗ anyBuf (F := F) c cc0_stg5_1
    ∗ anyBuf (F := F) c cc0_stg6_0 ∗ anyBuf (F := F) c cc0_stg6_1 ∗ anyBuf (F := F) c cc0_scratch0)

/-- The region invariant before position `n`: the scratch at some contents whose rows below 1000 · min n 10 are S3's;
    the other scoped buffers and the generator register at anything. -/
def Phi1 (c : Dev nD) (n : ℕ) : sProp 𝕄 :=
  iprop(∃ f : Vec F S10000x128 .bf16, owns (c : Thread nD τ) scM1 fullShare f
    ∗ ⌜∀ idx : S10000x128.Idx, (idx 0).val < 1000 * min n 10 → f idx = S3val V c idx⌝
    ∗ others1 (F := F) c ∗ ∃ r, prngReg c r)

/-- The proof data of the second pipeline on core `c`: the arrays as the region finds them; after the body at point `t`
    each input's buffer at its block and the output window at relu(relu(block · S3 + b3) + x block) (stated at every
    point; consulted only at the phase-1 points, where the body stores it and the pipeline writes it back); nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay2 (iblk1 V c 0 t) (S3val V c) (iblk1 V c 4 t) (iblk1 V c 5 t)
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = k1_pay2 (iblk1 V c 0 t) (S3val V c) (iblk1 V c 4 t) (iblk1 V c 5 t) := by dsimp only [dat1]

theorem Phi1_eq (c : Dev nD) (t : Fin (cfg1.N + 1)) : (dat1 V c).Φ t = Phi1 V c t.val := by dsimp only [dat1]

end Region1

end Cert.KernelIdeal.Hand

end
-- ==== Proof.R1Body.lean ====
/-
  The body obligation of the second kernel region (grid 2 x 10), and the invariant at the region's two ends.
  The scratch buffer is filled slab by slab: phase-0 point t overwrites rows 1000 t .. 1000 t + 999 with the payload it
  computes from its block of the adjacency matrix and the whole-array blocks S2, b2, W3, and that payload is, row for row,
  what `S3val` is defined to be there; the rows below were right before and are not touched, so the invariant "right
  below row 1000 · min n 10" moves from n = t to n = t + 1. The output window is idle in phase 0 (nothing is stored into
  it, and it is not written back): its buffer goes back as it came. In phase 1 every row of the scratch is S3's, so the
  scratch IS `S3val`; the body loads all of it and stores relu(relu(block · S3 + b3) + x block) into the output window,
  leaving the scratch alone. Input windows hold their blocks at every point, fetched there or not.
  Everything is stated for any float instance.
-/
import proofs.«146167_g15126874816640_cont_week2b_32_11_alg».proof.Proof.R1Defs
import Idealize.ShloMosaic.Lib.WritesUnit
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

-- the core's buffer contents when the region is entered
variable (V : (c : Dev nD) → (b : Ref sig .tc) → Buf (Elt F) ((c : Thread nD τ).loc b))

/-! ## The grid: which phase a point is in, and where the output window is idle -/

/-- The first conditional is taken exactly at the ten points of phase 0. -/
theorem cond1a_iff : ∀ t : Fin cfg1.N, k1_cond1 (grid1.coords t) = 1#1 ↔ t.val < 10 :=
  (by decide +kernel : ∀ t : Fin grid1.N, k1_cond1 (grid1.coords t) = 1#1 ↔ t.val < 10)

/-- The second conditional is taken exactly at the ten points of phase 1. -/
theorem cond1b_iff : ∀ t : Fin cfg1.N, k1_cond2 (grid1.coords t) = 1#1 ↔ 10 ≤ t.val :=
  (by decide +kernel : ∀ t : Fin grid1.N, k1_cond2 (grid1.coords t) = 1#1 ↔ 10 ≤ t.val)

/-- In phase 0 the second grid coordinate is the point's number. -/
theorem col1_phase0 : ∀ t : Fin cfg1.N, t.val < 10 → ((grid1.coords t) 1).val = t.val :=
  (by decide +kernel : ∀ t : Fin grid1.N, t.val < 10 → ((grid1.coords t) 1).val = t.val)

/-- In phase 0 the output window is idle: the body stores nothing into it, -/
theorem idleAt1_6 : ∀ t : Fin cfg1.N, t.val < 10 → cfg1.idle 6 (grid1.coords t) = true := by decide +kernel
/-- and the pipeline does not write its block back. -/
theorem noFlush1_6 : ∀ t : Fin cfg1.N, t.val < 10 → (cfg1.win 6).flush t = false := by decide +kernel
/-- In phase 1 the output window is live. -/
theorem liveAt1_6 : ∀ t : Fin cfg1.N, 10 ≤ t.val → cfg1.idle 6 (grid1.coords t) = false := by decide +kernel

/-- The block index of windows 1, 2 and 3 (each one whole-array block) never moves. -/
theorem index1_1_const : ∀ t : Fin cfg1.N, (cfg1.win 1).index t = (cfg1.win 1).index t10 := fun _ => rfl
theorem index1_2_const : ∀ t : Fin cfg1.N, (cfg1.win 2).index t = (cfg1.win 2).index t10 := fun _ => rfl
theorem index1_3_const : ∀ t : Fin cfg1.N, (cfg1.win 3).index t = (cfg1.win 3).index t10 := fun _ => rfl

/-! ## What the body finds in the input windows' buffers -/

/-- A fetch of an (uncut) input window fills the buffer with the window's block. -/
theorem fetched1_0 (c : Dev nD) (t : Fin cfg1.N) (d) : (dat1 V c).fetched 0 t d = iblk1 V c 0 t := by
  unfold Dat.fetched Dat.blockOf iblk1; rw [A_eq1 V c]; try rfl
theorem fetched1_1 (c : Dev nD) (t : Fin cfg1.N) (d) : (dat1 V c).fetched 1 t d = iblk1 V c 1 t := by
  unfold Dat.fetched Dat.blockOf iblk1; rw [A_eq1 V c]; try rfl
theorem fetched1_2 (c : Dev nD) (t : Fin cfg1.N) (d) : (dat1 V c).fetched 2 t d = iblk1 V c 2 t := by
  unfold Dat.fetched Dat.blockOf iblk1; rw [A_eq1 V c]; try rfl
theorem fetched1_3 (c : Dev nD) (t : Fin cfg1.N) (d) : (dat1 V c).fetched 3 t d = iblk1 V c 3 t := by
  unfold Dat.fetched Dat.blockOf iblk1; rw [A_eq1 V c]; try rfl
theorem fetched1_4 (c : Dev nD) (t : Fin cfg1.N) (d) : (dat1 V c).fetched 4 t d = iblk1 V c 4 t := by
  unfold Dat.fetched Dat.blockOf iblk1; rw [A_eq1 V c]; try rfl
theorem fetched1_5 (c : Dev nD) (t : Fin cfg1.N) (d) : (dat1 V c).fetched 5 t d = iblk1 V c 5 t := by
  unfold Dat.fetched Dat.blockOf iblk1; rw [A_eq1 V c]; try rfl

/-- Each input window's current buffer holds its block at every point, fetched there or not: where it is not
    fetched its block index has not moved, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1 V c]; try rfl) t d).trans (fetched1_0 V c t d)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1 V c]; try rfl) t d).trans (fetched1_1 V c t d)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1 V c]; try rfl) t d).trans (fetched1_2 V c t d)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1 V c]; try rfl) t d).trans (fetched1_3 V c t d)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1 V c]; try rfl) t d).trans (fetched1_4 V c t d)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1 V c]; try rfl) t d).trans (fetched1_5 V c t d)

/-- Windows 1, 2 and 3 hold one whole-array block, the same at every point. -/
theorem iblk1_1_const (c : Dev nD) (t : Fin cfg1.N) : (iblk1 V c 1 t : Vec F S10000x20 .bf16) = iblk1 V c 1 t10 :=
  (fetched1_1 V c t ((dat1 V c).after 1 t10)).symm.trans
    (((dat1 V c).fetched_congr 1 (index1_1_const t) rfl ((dat1 V c).after 1 t10)).trans (fetched1_1 V c t10 _))
theorem iblk1_2_const (c : Dev nD) (t : Fin cfg1.N) : (iblk1 V c 2 t : Vec F S1x20 .f32) = iblk1 V c 2 t10 :=
  (fetched1_2 V c t ((dat1 V c).after 2 t10)).symm.trans
    (((dat1 V c).fetched_congr 2 (index1_2_const t) rfl ((dat1 V c).after 2 t10)).trans (fetched1_2 V c t10 _))
theorem iblk1_3_const (c : Dev nD) (t : Fin cfg1.N) : (iblk1 V c 3 t : Vec F S20x128 .f32) = iblk1 V c 3 t10 :=
  (fetched1_3 V c t ((dat1 V c).after 3 t10)).symm.trans
    (((dat1 V c).fetched_congr 3 (index1_3_const t) rfl ((dat1 V c).after 3 t10)).trans (fetched1_3 V c t10 _))

/-! ## A slab of rows overwritten -/

/-- Contents `f` of the scratch with the 1000 rows from row `o` on replaced by `w`. -/
def putRows1 (o : ℕ) (f : Vec F S10000x128 .bf16) (w : Vec F S1000x128 .bf16) : Vec F S10000x128 .bf16 :=
  fun idx => if h : o ≤ (idx 0).val ∧ (idx 0).val < o + 1000 then
      w (ValueIdx.ix2 (⟨(idx 0).val - o, by omega⟩ : Fin 1000) (⟨(idx 1).val, ValueIdx.idx2_lt1 idx⟩ : Fin 128))
    else f idx

/-- A row of the slab reads `w` at the row's place in the slab; -/
theorem putRows1_in (o : ℕ) (f : Vec F S10000x128 .bf16) (w : Vec F S1000x128 .bf16) (idx : S10000x128.Idx)
    (hlo : o ≤ (idx 0).val) (hhi : (idx 0).val < o + 1000) :
    putRows1 o f w idx = w (ValueIdx.ix2 (⟨(idx 0).val - o, by omega⟩ : Fin 1000) (⟨(idx 1).val, ValueIdx.idx2_lt1 idx⟩ : Fin 128)) := by
  unfold putRows1; rw [dif_pos ⟨hlo, hhi⟩]

/-- any other row reads `f`. -/
theorem putRows1_out (o : ℕ) (f : Vec F S10000x128 .bf16) (w : Vec F S1000x128 .bf16) (idx : S10000x128.Idx)
    (h : (idx 0).val < o ∨ o + 1000 ≤ (idx 0).val) : putRows1 o f w idx = f idx := by
  unfold putRows1; rw [dif_neg (by omega)]

theorem zeroOff1 : (![0, 0] : Fin 2 → ℕ) = fun _ => 0 := by funext a; fin_cases a <;> rfl

/-- One store of a 1000-row slab at rows `o` on, over contents `g` of the scratch, reads back as `putRows1`. -/
theorem read_slab_write1 (arg9 : Memref sig .tc .vmem S10000x128 .bf16) (g : arg9.view.ty.Contents (Elt F))
    (off : Fin 2 → ℕ) (inb : ∀ a, off a + S1000x128.size a ≤ S10000x128.size a) (w : Vec F S1000x128 .bf16) (o : ℕ)
    (hoff : off = ![o, 0]) :
    arg9.view.read (Elt F) (arg9.view.writes (Elt F) g [⟨Rect.unit (s := S10000x128) off S1000x128.size inb, w⟩])
      = putRows1 o (arg9.view.read (Elt F) g) w := by
  funext idx
  by_cases h : o ≤ (idx 0).val ∧ (idx 0).val < o + 1000
  · rw [putRows1_in o _ w idx h.1 h.2]
    exact View.read_writes_cons_rows_of_mem arg9.view g inb w [] idx _ hoff
      (by show (idx 0).val = o + ((idx 0).val - o); omega) rfl
  · rw [putRows1_out o _ w idx (by omega),
      View.read_writes_cons_rows_of_not_mem arg9.view g inb w [] idx hoff (W := 1000) rfl (by omega)]
    rfl

/-! ## The body's two runs -/

set_option maxHeartbeats 1000000 in
/-- PHASE 0. On whole memrefs — the adjacency block, S2, b2, W3 at their contents, the scratch at `f` — the body
    runs to the continuation with the inputs as they were and the scratch at `f` with the slab of rows
    1000 · (second coordinate) on replaced by the payload; it touches nothing else. -/
theorem run1_phase0 (c : Dev nD) (i : grid1.Coords)
    (arg2 : Memref sig .tc .vmem S1000x10000 .bf16) (harg2 : arg2.IsWhole) (arg3 : Memref sig .tc .vmem S10000x20 .bf16) (harg3 : arg3.IsWhole)
    (arg4 : Memref sig .tc .vmem S1x20 .f32) (harg4 : arg4.IsWhole) (arg5 : Memref sig .tc .vmem S20x128 .f32) (harg5 : arg5.IsWhole)
    (arg6 : Memref sig .tc .vmem S1x128 .f32) (harg6 : arg6.IsWhole) (arg7 : Memref sig .tc .vmem S1000x128 .f32) (harg7 : arg7.IsWhole)
    (arg8 : Memref sig .tc .vmem S1000x128 .f32) (harg8 : arg8.IsWhole) (arg9 : Memref sig .tc .vmem S10000x128 .bf16) (harg9 : arg9.IsWhole)
    (hc1 : k1_cond1 i = 1#1) (hc2 : ¬k1_cond2 i = 1#1)
    (xa : Vec F S1000x10000 .bf16) (xs2 : Vec F S10000x20 .bf16) (xb2 : Vec F S1x20 .f32) (xw3 : Vec F S20x128 .f32)
    (f : Vec F S10000x128 .bf16) (E : Set ℕ) (K : PUnit → sProp 𝕄) :
    iprop(owns (c : Thread nD τ) arg2 fullShare xa ∗ owns (c : Thread nD τ) arg3 fullShare xs2 ∗ owns (c : Thread nD τ) arg4 fullShare xb2
        ∗ owns (c : Thread nD τ) arg5 fullShare xw3 ∗ owns (c : Thread nD τ) arg9 fullShare f
        ∗ (iprop(owns (c : Thread nD τ) arg2 fullShare xa ∗ owns (c : Thread nD τ) arg3 fullShare xs2 ∗ owns (c : Thread nD τ) arg4 fullShare xb2
            ∗ owns (c : Thread nD τ) arg5 fullShare xw3
            ∗ owns (c : Thread nD τ) arg9 fullShare (putRows1 (1000 * (i 1).val) f (k1_pay1 xa xs2 xb2 xw3))) -∗ K ⟨⟩))
      ⊢ wp frame (wpE (defs₀ (F := F)) Variants.none c none) E (cc1__pass23_body i arg2 harg2 arg3 harg3 arg4 harg4 arg5 harg5 arg6 harg6 arg7 harg7 arg8 harg8 arg9 harg9) K := by
  simp only [cc1__pass23_body_eq_skeleton]; unfold cc1__pass23_body_skel
  unfold owns
  iintro ⟨⟨%f2, %hf2, H2⟩, ⟨%f3, %hf3, H3⟩, ⟨%f4, %hf4, H4⟩, ⟨%f5, %hf5, H5⟩, ⟨%f9, %hf9, H9⟩, Hk⟩
  obtain rfl := harg2.eq_unread hf2; obtain rfl := harg3.eq_unread hf3; obtain rfl := harg4.eq_unread hf4
  obtain rfl := harg5.eq_unread hf5; obtain rfl := harg9.eq_unread hf9
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H9
  ipureintro
  rw [read_slab_write1 arg9 _ _ _ _ (1000 * (i 1).val) (k1_off1_eq i)]
  simp only [View.readAt_eq_ld, harg2.read_unread, harg3.read_unread, harg4.read_unread, harg5.read_unread, harg9.read_unread,
    View.ld_unit_zero (S := S1000x10000) zeroOff1, View.ld_unit_zero (S := S10000x20) zeroOff1,
    View.ld_unit_zero (S := S1x20) zeroOff1, View.ld_unit_zero (S := S20x128) zeroOff1]

set_option maxHeartbeats 1000000 in
/-- PHASE 1. On whole memrefs — the adjacency block, b3, the x block at their contents, the output buffer at
    anything, the scratch at `f` — the body runs to the continuation with the inputs and the scratch as they were
    and the output buffer at the payload computed from the WHOLE scratch. -/
theorem run1_phase1 (c : Dev nD) (i : grid1.Coords)
    (arg2 : Memref sig .tc .vmem S1000x10000 .bf16) (harg2 : arg2.IsWhole) (arg3 : Memref sig .tc .vmem S10000x20 .bf16) (harg3 : arg3.IsWhole)
    (arg4 : Memref sig .tc .vmem S1x20 .f32) (harg4 : arg4.IsWhole) (arg5 : Memref sig .tc .vmem S20x128 .f32) (harg5 : arg5.IsWhole)
    (arg6 : Memref sig .tc .vmem S1x128 .f32) (harg6 : arg6.IsWhole) (arg7 : Memref sig .tc .vmem S1000x128 .f32) (harg7 : arg7.IsWhole)
    (arg8 : Memref sig .tc .vmem S1000x128 .f32) (harg8 : arg8.IsWhole) (arg9 : Memref sig .tc .vmem S10000x128 .bf16) (harg9 : arg9.IsWhole)
    (hc1 : ¬k1_cond1 i = 1#1) (hc2 : k1_cond2 i = 1#1)
    (xa : Vec F S1000x10000 .bf16) (xb3 : Vec F S1x128 .f32) (xx : Vec F S1000x128 .f32)
    (f : Vec F S10000x128 .bf16) (E : Set ℕ) (K : PUnit → sProp 𝕄) :
    iprop(owns (c : Thread nD τ) arg2 fullShare xa ∗ owns (c : Thread nD τ) arg6 fullShare xb3 ∗ owns (c : Thread nD τ) arg7 fullShare xx
        ∗ (∃ d, owns (c : Thread nD τ) arg8 fullShare d) ∗ owns (c : Thread nD τ) arg9 fullShare f
        ∗ (iprop(owns (c : Thread nD τ) arg2 fullShare xa ∗ owns (c : Thread nD τ) arg6 fullShare xb3 ∗ owns (c : Thread nD τ) arg7 fullShare xx
            ∗ owns (c : Thread nD τ) arg8 fullShare (k1_pay2 xa f xb3 xx)
            ∗ owns (c : Thread nD τ) arg9 fullShare f) -∗ K ⟨⟩))
      ⊢ wp frame (wpE (defs₀ (F := F)) Variants.none c none) E (cc1__pass23_body i arg2 harg2 arg3 harg3 arg4 harg4 arg5 harg5 arg6 harg6 arg7 harg7 arg8 harg8 arg9 harg9) K := by
  simp only [cc1__pass23_body_eq_skeleton]; unfold cc1__pass23_body_skel
  unfold owns
  iintro ⟨⟨%f2, %hf2, H2⟩, ⟨%f6, %hf6, H6⟩, ⟨%f7, %hf7, H7⟩, ⟨%d8, %f8, -, H8⟩, ⟨%f9, %hf9, H9⟩, Hk⟩
  obtain rfl := harg2.eq_unread hf2; obtain rfl := harg6.eq_unread hf6; obtain rfl := harg7.eq_unread hf7
  obtain rfl := harg9.eq_unread hf9
  sl_exec (disch := first | exact hc1 | exact hc2)
  sl_step
  iapply Hk
  isplitl [H2]
  · iexists _; isplitr; · ipureintro; exact harg2.read_unread _
    iexact H2
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    rw [View.read_writes_eq_canon _ _ _ (fun y => ⟨_, List.mem_singleton_self _, View.mem_set_unit_zero zeroOff1 inb_S1000x128_S1000x128_0_0 y⟩),
      View.canon_unit_zero zeroOff1]
    simp only [View.readAt_eq_ld, harg2.read_unread, harg6.read_unread, harg7.read_unread, harg9.read_unread,
      View.ld_unit_zero (S := S1000x10000) zeroOff1, View.ld_unit_zero (S := S10000x128) zeroOff1,
      View.ld_unit_zero (S := S1x128) zeroOff1, View.ld_unit_zero (S := S1000x128) zeroOff1]
  iexists _; isplitr; · ipureintro; exact harg9.read_unread _
  iexact H9

/-! ## S3 on the slab a phase-0 point writes -/

/-- A row of the slab of phase-0 point `t` (rows 1000 t to 1000 t + 999) of S3 is, by S3's definition, the payload
    point `t` computes from its blocks, at the row's place in the slab: the row's point is `t`, and the
    whole-array windows hold the same block at every point. -/
theorem S3val_slab (c : Dev nD) (t : Fin cfg1.N) (idx : S10000x128.Idx)
    (hlo : 1000 * t.val ≤ (idx 0).val) (hhi : (idx 0).val < 1000 * t.val + 1000) :
    S3val V c idx = k1_pay1 (iblk1 V c 0 t) (iblk1 V c 1 t) (iblk1 V c 2 t) (iblk1 V c 3 t)
      (ValueIdx.ix2 (⟨(idx 0).val - 1000 * t.val, by omega⟩ : Fin 1000) (⟨(idx 1).val, ValueIdx.idx2_lt1 idx⟩ : Fin 128)) := by
  have hp : rowPt (idx 0).val (ValueIdx.idx2_lt0 idx) = t := Fin.ext (by show (idx 0).val / 1000 = t.val; omega)
  have hm : (idx 0).val % 1000 = (idx 0).val - 1000 * t.val := by omega
  unfold S3val
  rw [hp, ← iblk1_1_const V c t, ← iblk1_2_const V c t, ← iblk1_3_const V c t]
  congr 1
  funext a
  match a with
  | ⟨0, _⟩ => exact Fin.ext hm
  | ⟨1, _⟩ => rfl

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

/-- An input window's buffer is left at its block. -/
theorem leaves1_0 (c : Dev nD) (t : Fin cfg1.N) :
    (dat1 V c).leavesExact 0 t = owns (c : Thread nD τ) (st1_0 t) fullShare (iblk1 V c 0 t) := by
  rw [← after1_0 V c t]
theorem leaves1_1 (c : Dev nD) (t : Fin cfg1.N) :
    (dat1 V c).leavesExact 1 t = owns (c : Thread nD τ) (st1_1 t) fullShare (iblk1 V c 1 t) := by
  rw [← after1_1 V c t]
theorem leaves1_2 (c : Dev nD) (t : Fin cfg1.N) :
    (dat1 V c).leavesExact 2 t = owns (c : Thread nD τ) (st1_2 t) fullShare (iblk1 V c 2 t) := by
  rw [← after1_2 V c t]
theorem leaves1_3 (c : Dev nD) (t : Fin cfg1.N) :
    (dat1 V c).leavesExact 3 t = owns (c : Thread nD τ) (st1_3 t) fullShare (iblk1 V c 3 t) := by
  rw [← after1_3 V c t]
theorem leaves1_4 (c : Dev nD) (t : Fin cfg1.N) :
    (dat1 V c).leavesExact 4 t = owns (c : Thread nD τ) (st1_4 t) fullShare (iblk1 V c 4 t) := by
  rw [← after1_4 V c t]
theorem leaves1_5 (c : Dev nD) (t : Fin cfg1.N) :
    (dat1 V c).leavesExact 5 t = owns (c : Thread nD τ) (st1_5 t) fullShare (iblk1 V c 5 t) := by
  rw [← after1_5 V c t]
/-- In phase 1 the output window's buffer is left at the payload over the whole of S3. -/
theorem leaves1_6 (c : Dev nD) (t : Fin cfg1.N) (h : 10 ≤ t.val) :
    (dat1 V c).leavesExact 6 t = owns (c : Thread nD τ) (st1_6 t) fullShare
      (k1_pay2 (iblk1 V c 0 t) (S3val V c) (iblk1 V c 4 t) (iblk1 V c 5 t)) := by
  rw [← after1_6 V c t]; unfold Dat.leavesExact; rw [liveAt1_6 t h]

set_option maxHeartbeats 4000000 in
/-- The body at any point. The inputs' buffers hold their blocks (`before1_W`). At a phase-0 point `t` the invariant
    hands the body the scratch at contents right below row 1000 t; the run overwrites the slab of rows 1000 t on with the
    payload, which is S3 there (`S3val_slab`), so the scratch is right below row 1000 (t + 1); the output window is idle and
    its buffer goes back as it came. At a phase-1 point every row of the scratch is S3's, the run leaves the scratch alone
    and stores the payload over the whole of S3 into the output window, which is live. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V, before1_1 V, before1_2 V, before1_3 V, before1_4 V, before1_5 V]
  rw [show (dat1 V c).owesAt () t.succ = (dat1 V c).owesAt () t.castSucc from rfl]
  rw [Phi1_eq V c t.castSucc, Phi1_eq V c t.succ, Fin.coe_castSucc, Fin.val_succ]
  rw [leaves1_0 V, leaves1_1 V, leaves1_2 V, leaves1_3 V, leaves1_4 V, leaves1_5 V]
  have hN : t.val < 20 := lt_of_lt_of_eq t.isLt (show cfg1.N = 20 from N_1)
  by_cases h : t.val < 10
  · have hc1 : k1_cond1 (grid1.coords t) = 1#1 := (cond1a_iff t).mpr h
    have hc2 : ¬k1_cond2 (grid1.coords t) = 1#1 := fun e => by have := (cond1b_iff t).mp e; omega
    rw [Dat.leavesExact_idle (dat1 V c) 6 t (idleAt1_6 t h) (noFlush1_6 t h)]
    unfold Phi1
    iintro ⟨⟨%f, HS, %hf, Hoth, Hg⟩, Ho, ⟨%d0, H0⟩, ⟨%d1, H1⟩, ⟨%d2, H2⟩, ⟨%d3, H3⟩, ⟨%d4, H4⟩, ⟨%d5, H5⟩, ⟨%d6, H6⟩⟩
    iapply (run1_phase0 c (grid1.coords t) _ _ _ _ _ _ _ _ _ _ _ _ _ _ _ _ hc1 hc2
      (iblk1 V c 0 t) (iblk1 V c 1 t) (iblk1 V c 2 t) (iblk1 V c 3 t) f Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hoth Hg]
    · iexists _
      isplitl [HS]; · iexact HS
      isplitr
      · ipureintro
        intro idx hidx
        rw [col1_phase0 t h]
        rw [Nat.min_eq_left (show t.val + 1 ≤ 10 by omega)] at hidx
        by_cases hlo : 1000 * t.val ≤ (idx 0).val
        · rw [putRows1_in _ _ _ idx hlo (by omega), S3val_slab V c t idx hlo (by omega)]
        · rw [putRows1_out _ _ _ idx (by omega)]
          exact hf idx (by rw [Nat.min_eq_left (show t.val ≤ 10 by omega)]; omega)
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6; iexact H6
  · have h10 : 10 ≤ t.val := by omega
    have hc1 : ¬k1_cond1 (grid1.coords t) = 1#1 := fun e => by have := (cond1a_iff t).mp e; omega
    have hc2 : k1_cond2 (grid1.coords t) = 1#1 := (cond1b_iff t).mpr h10
    rw [leaves1_6 V c t h10]
    unfold Phi1
    iintro ⟨⟨%f, HS, %hf, Hoth, Hg⟩, Ho, ⟨%d0, H0⟩, ⟨%d1, H1⟩, ⟨%d2, H2⟩, ⟨%d3, H3⟩, ⟨%d4, H4⟩, ⟨%d5, H5⟩, ⟨%d6, H6⟩⟩
    have hfS : f = S3val V c := funext fun idx => hf idx (by
      rw [Nat.min_eq_right h10]; have := ValueIdx.idx2_lt0 idx; omega)
    subst hfS
    iapply (run1_phase1 c (grid1.coords t) _ _ _ _ _ _ _ _ _ _ _ _ _ _ _ _ hc1 hc2
      (iblk1 V c 0 t) (iblk1 V c 4 t) (iblk1 V c 5 t) (S3val V c) Set.univ _)
    isplitl [H0]; · iexact H0
    isplitl [H4]; · iexact H4
    isplitl [H5]; · iexact H5
    isplitl [H6]; · iexists _; iexact H6
    isplitl [HS]; · iexact HS
    iintro ⟨H0, H4, H5, H6, HS⟩
    isplitl [HS Hoth Hg]
    · iexists _
      isplitl [HS]; · iexact HS
      isplitr
      · ipureintro; intro idx _; rfl
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- What the launch hands the region — every scoped buffer that is no staging buffer of it at some contents, the
    generator register at some state — is the invariant before the first point: no row of the scratch is yet claimed. -/
theorem hin1 (c : Dev nD) : (Pipeline.ΦA spec1 c : sProp 𝕄) ⊢ (dat1 V c).Φ 0 := by
  rw [Phi1_eq V c 0]
  unfold Phi1 others1 Pipeline.ΦA
  rw [scopedRest1_eq]
  simp only [scM1, owns_whole]
  iintro ⟨⟨A0, A1, A2, A3, A4, A5, A6, A7, A8, A9, A10, ⟨%f, HS⟩⟩, Hg⟩
  iexists f
  isplitl [HS]; · iexact HS
  isplitr
  · ipureintro
    intro idx hidx
    exfalso
    rw [show ((0 : Fin (cfg1.N + 1)).val) = 0 from rfl, Nat.zero_min, Nat.mul_zero] at hidx
    exact Nat.not_lt_zero _ hidx
  isplitl [A0 A1 A2 A3 A4 A5 A6 A7 A8 A9 A10]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact A10
  iexact Hg

/-- After the last point the invariant gives it back: what the scratch holds is forgotten. -/
theorem hout1 (c : Dev nD) : (dat1 V c).Φ (Fin.last cfg1.N) ⊢ (Pipeline.ΦA spec1 c : sProp 𝕄) := by
  rw [Phi1_eq V c (Fin.last cfg1.N)]
  unfold Phi1 others1 Pipeline.ΦA
  rw [scopedRest1_eq]
  simp only [scM1, owns_whole]
  iintro ⟨%f, HS, -, ⟨A0, A1, A2, A3, A4, A5, A6, A7, A8, A9, A10⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexists f; iexact HS
  iexact Hg

end Region1

end Cert.KernelIdeal.Hand

end
-- ==== Proof.Launch.lean ====
/-
  The run of the whole program, from the two regions' body obligations.
  @main is three reshapes of the biases on the host, then the first kernel region, then the second.  The core's
  unscoped buffers are followed through it as valuations: the launch memory; after the reshapes; after the first
  region (its arrays at what its write-backs leave, every other buffer as before); after the second region likewise.
  Each region is entered holding every unscoped buffer at the valuation before it, beside the generator register at
  some state and nothing owed, and is left holding them at the valuation after it.  The regions' scratch buffers
  travel inside the regions' invariants (`Phi0`, `Phi1`), which start from, and give back, the scoped buffers at
  anything.  The result: every weakly fair execution terminates and the final memory holds every unscoped buffer at
  the last valuation — so each argument as launched, and the result array at what the second region's write-backs
  leave.  Everything is stated for any float instance; the body obligations are hypotheses here.
-/
import proofs.«146167_g15126874816640_cont_week2b_32_11_alg».proof.Proof.R0Defs
import proofs.«146167_g15126874816640_cont_week2b_32_11_alg».proof.Proof.R1Defs
import proofs.«146167_g15126874816640_cont_week2b_32_11_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (RegionSeg Seg HostSeg)

variable (m : (ℓ : Loc nD τ sig) → Buf (Elt F) ℓ) (ρ : Dev nD → PrngReg)

/-! ## The buffer contents between the items of @main -/

/-- At launch. -/
abbrev Wst0 : Dev nD → Valuation τ sig (Elt F) := fun c b => m (c, b)
/-- After the host reshapes of the three biases: what the first region is entered with. -/
abbrev Wst1 : Dev nD → Valuation τ sig (Elt F) := fun c => StableHlo.after hostOps0 (Wst0 m c)
/-- The same read at the TensorCore's references. -/
abbrev Ven0 : (c : Dev nD) → (b : Ref sig .tc) → Buf (Elt F) ((c : Thread nD τ).loc b) := fun c b => Wst1 m c b
/-- After the first region: its arrays at what its write-backs leave, every other buffer as it was. -/
def Wst2 (c : Dev nD) : Valuation τ sig (Elt F) :=
  Pipeline.withArrays spec0 c (Wst1 m c) fun w => (dat0 (Ven0 m) c).arrAt w cfg0.N
/-- The same read at the TensorCore's references: what the second region is entered with. -/
abbrev Ven1 : (c : Dev nD) → (b : Ref sig .tc) → Buf (Elt F) ((c : Thread nD τ).loc b) := fun c b => Wst2 m c b
/-- After the second region. -/
def Wst3 (c : Dev nD) : Valuation τ sig (Elt F) :=
  Pipeline.withArrays spec1 c (Wst2 m c) fun w => (dat1 (Ven1 m) c).arrAt w cfg1.N

theorem Wst2_arr (c : Dev nD) (w : Fin cfg0.W) :
    Wst2 m c (Proc.devRef .tc (Pipeline.arrRef spec0 w)) = (dat0 (Ven0 m) c).arrAt w cfg0.N := by
  unfold Wst2; exact Pipeline.withArrays_arr spec0 launch0.win.arr_inj c _ _ w
theorem Wst2_of_ne (c : Dev nD) (b : Ref sig .tc) (hb : ∀ w, Pipeline.arrRef spec0 w ≠ b) :
    Wst2 m c (Proc.devRef .tc b) = Wst1 m c (Proc.devRef .tc b) := by
  unfold Wst2; exact Pipeline.withArrays_of_ne spec0 c _ _ b hb
theorem Wst3_arr (c : Dev nD) (w : Fin cfg1.W) :
    Wst3 m c (Proc.devRef .tc (Pipeline.arrRef spec1 w)) = (dat1 (Ven1 m) c).arrAt w cfg1.N := by
  unfold Wst3; exact Pipeline.withArrays_arr spec1 launch1.win.arr_inj c _ _ w
theorem Wst3_of_ne (c : Dev nD) (b : Ref sig .tc) (hb : ∀ w, Pipeline.arrRef spec1 w ≠ b) :
    Wst3 m c (Proc.devRef .tc b) = Wst2 m c (Proc.devRef .tc b) := by
  unfold Wst3; exact Pipeline.withArrays_of_ne spec1 c _ _ b hb

/-! ## The proof data family and what rides beside the buffers -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Ven0 m) c
  | ⟨1, _⟩ => fun c => dat1 (Ven1 m) c

abbrev 𝒱n : Variants := Variants.none
/-- No core owes another anything: no level is assigned. -/
abbrev Lno : GSem nD τ sig → Finset Unit := fun _ => ∅
abbrev lvno : GSem nD τ sig → Unit → ℕ := fun _ _ => 0
/-- Beside the buffers: the generator register at some state, and nothing owed. -/
abbrev Rest (c : Dev nD) : sProp 𝕄 := iprop((∃ r, prngReg c r) ∗ ∃ W, owes (c : Thread nD τ) (0 : CellTallies nD τ sig Unit) W)
/-- The last thread state without the `owes`. -/
abbrev Tend (c : Dev nD) : sProp 𝕄 := iprop(StableHlo.held (c : Thread nD τ) (Pipeline.ucRefs τ sig) (Wst3 m c) ∗ ∃ r, prngReg c r)

/-! ## The regions as segments -/

section Records

/-- What the two regions' bodies owe: at every grid point the body runs from the region's invariant and the windows'
    current buffers to the invariant at the next point and the buffers at the proof data's contents; and each region's
    invariant starts from, and gives back, the scoped buffers at anything beside the generator register. -/
structure Bodies : Prop where
  hb0 : ∀ c : Dev nD, BodyObligation (dat0 (F := F) (Ven0 m) c) (defs₀ (F := F)) Variants.none () Set.univ
  hi0 : ∀ c : Dev nD, (Pipeline.ΦA spec0 c : sProp 𝕄) ⊢ (dat0 (Ven0 m) c).Φ 0
  ho0 : ∀ c : Dev nD, (dat0 (Ven0 m) c).Φ (Fin.last cfg0.N) ⊢ (Pipeline.ΦA spec0 c : sProp 𝕄)
  hb1 : ∀ c : Dev nD, BodyObligation (dat1 (F := F) (Ven1 m) c) (defs₀ (F := F)) Variants.none () Set.univ
  hi1 : ∀ c : Dev nD, (Pipeline.ΦA spec1 c : sProp 𝕄) ⊢ (dat1 (Ven1 m) c).Φ 0
  ho1 : ∀ c : Dev nD, (dat1 (Ven1 m) c).Φ (Fin.last cfg1.N) ⊢ (Pipeline.ΦA spec1 c : sProp 𝕄)

variable (H : Bodies m)

set_option backward.isDefEq.respectTransparency.types false in
/-- The first region: entered from every unscoped buffer at `Wst1`, left at `Wst2`. Its arrays are split out of the
    unscoped buffers and put back at what the write-backs leave; the generator register and the scoped buffers pass
    through the region's invariant. -/
def reg0 : RegionSeg (pcfgs (F := F)) adm (pdats m) () defs₀ 𝒱n Lno lvno 0 where
  win := launch0.win.to₀
  block_pos := launch0.block_pos
  stage_whole := launch0.stage_whole
  K := PEmpty
  osem k := k.elim
  ho := Pipeline.OwnSemFacts.none _
  hbody c := (H.hb0 c).loose
  hwaits := Pipeline.hwaits_of_owed_zero _ _ _ _ Lno lvno 0 fun _ _ => rfl
  pre c := iprop(StableHlo.held (c : Thread nD τ) (Pipeline.ucRefs τ sig) (Wst1 m c) ∗ Rest c)
  post c := iprop(StableHlo.held (c : Thread nD τ) (Pipeline.ucRefs τ sig) (Wst2 m c) ∗ Rest c)
  X c := iprop(∃ r, prngReg c r)
  Y c := iprop(∃ r, prngReg c r)
  Z c := Pipeline.unscopedRest (Ix := Unit) (Name := ℕ) (U := UR sig nD τ) (Lvl := ℕ) spec0 c (Ven0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ven0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (H.hi0 c)
    unfold Pipeline.ΦA
    iintro ⟨Hp, -, Hr⟩
    isplitl [Hr]; · iexact Hr
    iexact Hp
  hout c := by
    rw [Pipeline.ownSems0_none]
    refine BIBase.Entails.trans (H.ho0 c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ven0 m c) (Ven1 m c) ((pdats m 0 c).arrAt · cfg0.N) (fun w => (Wst2_arr m c w).symm)
      (fun b hb => Wst2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `Wst2`, left at `Wst3`, in the same way. -/
def reg1 : RegionSeg (pcfgs (F := F)) adm (pdats m) () defs₀ 𝒱n Lno lvno 1 where
  win := launch1.win.to₀
  block_pos := launch1.block_pos
  stage_whole := launch1.stage_whole
  K := PEmpty
  osem k := k.elim
  ho := Pipeline.OwnSemFacts.none _
  hbody c := (H.hb1 c).loose
  hwaits := Pipeline.hwaits_of_owed_zero _ _ _ _ Lno lvno 1 fun _ _ => rfl
  pre c := iprop(StableHlo.held (c : Thread nD τ) (Pipeline.ucRefs τ sig) (Wst2 m c) ∗ Rest c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ven1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ven1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (H.hi1 c)
    unfold Pipeline.ΦA
    iintro ⟨Hp, -, Hr⟩
    isplitl [Hr]; · iexact Hr
    iexact Hp
  hout c := by
    rw [Pipeline.ownSems0_none]
    refine BIBase.Entails.trans (H.ho1 c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ven1 m c) (fun b => Wst3 m c b) ((pdats m 1 c).arrAt · cfg1.N) (fun w => (Wst3_arr m c w).symm)
      (fun b hb => Wst3_of_ne m c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- The host reshapes as a segment over the unscoped references from the launch contents, `Rest` riding along. -/
abbrev hseg0 : HostSeg (Name := ℕ) (U := UR sig nD τ) (pcfgs (F := F)) defs₀ 𝒱n Lno lvno :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (Wst0 m) Rest

/-- @main's three segments in order. -/
abbrev segsM : List (Seg (pcfgs (F := F)) adm (pdats m) () defs₀ 𝒱n Lno lvno) :=
  [ .host (hseg0 m), .region (reg0 m H), .region (reg1 m H) ]

theorem main_runM (c : Dev nD) : main (F := F) c = Seg.run (segsM m H) :=
  (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include H in
set_option backward.isDefEq.respectTransparency.types false in
/-- THE RUN. From any memory with zero counters every weakly fair execution of @main terminates, nothing faulting,
    and the final memory holds every unscoped buffer at the last valuation. -/
theorem run_full : θ_run defs (onTc (τ := τ) (main (F := F))) ⟨m, fun _ => 0, ρ⟩ (fun r => ∀ c : Dev nD,
      ∀ b ∈ Pipeline.ucRefs τ sig, r.2.mem (((c : Thread nD τ)).1, b) = Wst3 m c b) :=
  Pipeline.θ_run_regions_kit (pcfgs (F := F)) adm (pdats m) () cellOf_inj emb₁ defs₀ 𝒱n Lno lvno m ρ main (segsM m H)
    (fun c Q => by rw [main_runM m H c])
    (by simp only [segsM, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wst0 m c) ∗ Rest c)) (Tₙ := Tend m)
    (hch := ⟨fun _ => .rfl, fun _ => .rfl, fun _ => .rfl, fun _ => .rfl⟩)
    (hinit := by
      refine Pipeline.initEach Lno lvno fun c => ?_
      rw [show unscopedBufs c (fun b => m ((c : Thread nD τ).loc b)) = StableHlo.held (c : Thread nD τ) (Pipeline.ucRefs τ sig) (Wst0 m c)
        from Pipeline.unscopedBufs_held c (Wst0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wst3 m c b)
    (hfin := fun c s' => by
      iintro ⟨⟨Hh, -⟩, HSI⟩
      unfold StableHlo.held
      imodintro
      iapply (pointsTo_read_all (Pipeline.ucRefs τ sig) (fun b => (((c : Thread nD τ)).1, b)) (Wst3 m c) s')
      isplitl [Hh] <;> iassumption)
    (hQ := fun s h c => h c)

end Records

end Cert.KernelIdeal.Hand

end
-- ==== Proof.Ends.lean ====
/-
  The ends of the run: what the last valuation holds at each argument and at the result.
  No item of @main writes an argument — the host reshapes write their own three buffers, and a region changes only
  its output windows' arrays — so the fold of valuations at an argument walks back to the launch memory; at the result
  array it is what the second region's write-backs leave.  Hence the frame (termination, no fault, arguments
  unchanged) and the run with the result named, for any float instance, from the two regions' body obligations.
-/
import proofs.«146167_g15126874816640_cont_week2b_32_11_alg».proof.Proof.Launch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer the host reshapes do not write holds its launch contents after them. -/
theorem Wst1_keep (c : Dev nD) (r : Ref sig .tc) (h : r ∉ hostOps0_W) :
    Wst1 m c (Proc.devRef .tc r) = m ((c : Thread nD τ).loc r) :=
  (V1_of m c r h).trans rfl

/-- An input window's array is not changed by the first region. -/
theorem Wst2_in (c : Dev nD) (w : Fin cfg0.W) (hin : (cfg0.win w).isOut = false) :
    Wst2 m c (Proc.devRef .tc (Pipeline.arrRef spec0 w)) = Wst1 m c (Proc.devRef .tc (Pipeline.arrRef spec0 w)) :=
  (Wst2_arr m c w).trans (((dat0 (Ven0 m) c).arrAt_in w hin _).trans (A_eq0 (Ven0 m) c w))

/-- An input window's array is not changed by the second region. -/
theorem Wst3_in (c : Dev nD) (w : Fin cfg1.W) (hin : (cfg1.win w).isOut = false) :
    Wst3 m c (Proc.devRef .tc (Pipeline.arrRef spec1 w)) = Wst2 m c (Proc.devRef .tc (Pipeline.arrRef spec1 w)) :=
  (Wst3_arr m c w).trans (((dat1 (Ven1 m) c).arrAt_in w hin _).trans (A_eq1 (Ven1 m) c w))

/-! ## Each argument ends as launched -/

theorem Wst3_arg0 (c : Dev nD) : Wst3 m c (Proc.devRef .tc main_arg0) = m ((c : Thread nD τ).loc main_arg0) :=
  (Wst3_in m c 5 rfl).trans ((Wst2_in m c 1 rfl).trans (Wst1_keep m c main_arg0 (by decide)))
theorem Wst3_arg1 (c : Dev nD) : Wst3 m c (Proc.devRef .tc main_arg1) = m ((c : Thread nD τ).loc main_arg1) :=
  (Wst3_of_ne m c main_arg1 (by decide)).trans ((Wst2_in m c 0 rfl).trans (Wst1_keep m c main_arg1 (by decide)))
theorem Wst3_arg2 (c : Dev nD) : Wst3 m c (Proc.devRef .tc main_arg2) = m ((c : Thread nD τ).loc main_arg2) :=
  (Wst3_of_ne m c main_arg2 (by decide)).trans ((Wst2_in m c 2 rfl).trans (Wst1_keep m c main_arg2 (by decide)))
theorem Wst3_arg3 (c : Dev nD) : Wst3 m c (Proc.devRef .tc main_arg3) = m ((c : Thread nD τ).loc main_arg3) :=
  (Wst3_of_ne m c main_arg3 (by decide)).trans ((Wst2_of_ne m c main_arg3 (by decide)).trans (Wst1_keep m c main_arg3 (by decide)))
theorem Wst3_arg4 (c : Dev nD) : Wst3 m c (Proc.devRef .tc main_arg4) = m ((c : Thread nD τ).loc main_arg4) :=
  (Wst3_of_ne m c main_arg4 (by decide)).trans ((Wst2_in m c 4 rfl).trans (Wst1_keep m c main_arg4 (by decide)))
theorem Wst3_arg5 (c : Dev nD) : Wst3 m c (Proc.devRef .tc main_arg5) = m ((c : Thread nD τ).loc main_arg5) :=
  (Wst3_of_ne m c main_arg5 (by decide)).trans ((Wst2_of_ne m c main_arg5 (by decide)).trans (Wst1_keep m c main_arg5 (by decide)))
theorem Wst3_arg6 (c : Dev nD) : Wst3 m c (Proc.devRef .tc main_arg6) = m ((c : Thread nD τ).loc main_arg6) :=
  (Wst3_in m c 3 rfl).trans ((Wst2_of_ne m c main_arg6 (by decide)).trans (Wst1_keep m c main_arg6 (by decide)))
theorem Wst3_arg7 (c : Dev nD) : Wst3 m c (Proc.devRef .tc main_arg7) = m ((c : Thread nD τ).loc main_arg7) :=
  (Wst3_of_ne m c main_arg7 (by decide)).trans ((Wst2_of_ne m c main_arg7 (by decide)).trans (Wst1_keep m c main_arg7 (by decide)))

/-- The result array ends at what the second region's write-backs leave. -/
theorem Wst3_out (c : Dev nD) : Wst3 m c (Proc.devRef .tc main_v0) = (dat1 (Ven1 m) c).arrAt 6 cfg1.N :=
  Wst3_arr m c 6

/-! ## The frame, and the run with the result named -/

/-- Every weakly fair execution terminates, nothing faulting, with the argument arrays as launched. -/
theorem frame_of (H : Bodies m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      (h c _ (mem_uc main_arg0 (by decide))).trans (Wst3_arg0 m c),
      (h c _ (mem_uc main_arg1 (by decide))).trans (Wst3_arg1 m c),
      (h c _ (mem_uc main_arg2 (by decide))).trans (Wst3_arg2 m c),
      (h c _ (mem_uc main_arg3 (by decide))).trans (Wst3_arg3 m c),
      (h c _ (mem_uc main_arg4 (by decide))).trans (Wst3_arg4 m c),
      (h c _ (mem_uc main_arg5 (by decide))).trans (Wst3_arg5 m c),
      (h c _ (mem_uc main_arg6 (by decide))).trans (Wst3_arg6 m c),
      (h c _ (mem_uc main_arg7 (by decide))).trans (Wst3_arg7 m c)⟩)
    (run_full m ρ H)

/-- The same with the result array named: it ends at what the second region's write-backs leave. -/
theorem value_of (H : Bodies m) :
    θ_run defs (onTc (τ := τ) (main (F := F))) ⟨m, fun _ => 0, ρ⟩ (fun r => ∀ c : Dev nD,
      r.2.mem ((c.tc : Thread nD τ).loc main_v0) = (dat1 (Ven1 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c _ (mem_uc main_v0 (by decide))).trans (Wst3_out m c),
      (h c _ (mem_uc main_arg0 (by decide))).trans (Wst3_arg0 m c),
      (h c _ (mem_uc main_arg1 (by decide))).trans (Wst3_arg1 m c),
      (h c _ (mem_uc main_arg2 (by decide))).trans (Wst3_arg2 m c),
      (h c _ (mem_uc main_arg3 (by decide))).trans (Wst3_arg3 m c),
      (h c _ (mem_uc main_arg4 (by decide))).trans (Wst3_arg4 m c),
      (h c _ (mem_uc main_arg5 (by decide))).trans (Wst3_arg5 m c),
      (h c _ (mem_uc main_arg6 (by decide))).trans (Wst3_arg6 m c),
      (h c _ (mem_uc main_arg7 (by decide))).trans (Wst3_arg7 m c)⟩)
    (run_full m ρ H)

end Cert.KernelIdeal.Hand

end
-- ==== Proof.Spec.lean ====
/-
  The three stacked graph-convolution layers, index by index on the extended reals.
  With `mm` the matrix product (a plain sum over the inner index) and `biasRelu M b` the rows of M shifted by
  the bias b and clamped below at zero:
      S1 = x · W1,   H1 = biasRelu (adj · S1) b1,   S2 = H1 · W2,
      H2 = biasRelu (adj · S2) b2,   S3 = H2 · W3,   H3 = biasRelu (adj · S3) b3,   out = max (H3 + x) 0.
  `S2of` is what the first kernel region leaves (S2), `outOf` what the second computes from a copy of the
  adjacency matrix and S2, and `out` their composition, which is also what the reference computes.
  No program is mentioned here: arrays are functions on rank-2 indices, biases functions on `Fin p`.
-/
import Idealize.ShloMosaic.PureOps.Ideal
import Idealize.ShloMosaic.Lib.ValueIdx

noncomputable section

open scoped BigOperators

namespace Cert.Spec

open Idealize.ShloMosaic Idealize.ShloMosaic.ValueIdx

/-- The shape of an a x b matrix. -/
abbrev Sh (a b : Nat) : Shape := ⟨2, ![a, b]⟩

/-- An a x b matrix of extended reals. -/
abbrev Mat (a b : Nat) : Type := (Sh a b).Idx → EReal

/-- The row of an index, as a number below the row count. -/
abbrev row {a b : Nat} (j : (Sh a b).Idx) : Fin a := ⟨(j 0).val, idx2_lt0 j⟩
/-- The column of an index, as a number below the column count. -/
abbrev col {a b : Nat} (j : (Sh a b).Idx) : Fin b := ⟨(j 1).val, idx2_lt1 j⟩

/-- The matrix product: entry (r, c) is the sum over q of A (r, q) · B (q, c). -/
def mm {n k p : Nat} (A : Mat n k) (B : Mat k p) : Mat n p :=
  fun j => ∑ q : Fin k, A (ix2 (row j) q) * B (ix2 q (col j))

/-- Every row shifted by the bias and clamped below at zero. -/
def biasRelu {n p : Nat} (M : Mat n p) (b : Fin p → EReal) : Mat n p :=
  fun j => max (M j + b (col j)) 0

/-- What the first kernel region computes: S2 = relu(adj · (x · W1) + b1) · W2. -/
def S2of (adj : Mat 10000 10000) (x : Mat 10000 128) (W1 : Mat 128 20) (b1 : Fin 20 → EReal) (W2 : Mat 20 20) : Mat 10000 20 :=
  mm (biasRelu (mm adj (mm x W1)) b1) W2

/-- S3 = relu(adj · S2 + b2) · W3, from a copy of the adjacency matrix and S2. -/
def S3of (adjb : Mat 10000 10000) (s2 : Mat 10000 20) (b2 : Fin 20 → EReal) (W3 : Mat 20 128) : Mat 10000 128 :=
  mm (biasRelu (mm adjb s2) b2) W3

/-- What the second kernel region computes: relu(relu(adj · S3 + b3) + x). -/
def outOf (adjb : Mat 10000 10000) (s2 : Mat 10000 20) (b2 : Fin 20 → EReal) (W3 : Mat 20 128) (b3 : Fin 128 → EReal)
    (x : Mat 10000 128) : Mat 10000 128 :=
  fun j => max (biasRelu (mm adjb (S3of adjb s2 b2 W3)) b3 j + x j) 0

/-- The whole block: the second region's function of the adjacency matrix itself and the first region's S2. -/
def out (x : Mat 10000 128) (adj : Mat 10000 10000) (W1 : Mat 128 20) (b1 : Fin 20 → EReal) (W2 : Mat 20 20)
    (b2 : Fin 20 → EReal) (W3 : Mat 20 128) (b3 : Fin 128 → EReal) : Mat 10000 128 :=
  outOf adj (S2of adj x W1 b1 W2) b2 W3 b3 x

end Cert.Spec

end
-- ==== Proof.R0Value.lean ====
/-
  What the first kernel region leaves in its two result arrays, at the ideal values.
  The region runs 25 points. Point t reads rows 400 t, …, 400 t + 399 of the adjacency matrix and writes the same rows
  of both results: the narrow copy gets the block's entries unchanged (a change of float format is the identity on the
  extended reals), and the second result gets relu(block · S1 + b1) · W2, with S1 = x · W1 held in the scratch since
  the first point. A matrix product into a zero accumulator is the plain sum over the inner index, so block t of the
  second result is rows 400 t, … of S2 = relu(adj · (x · W1) + b1) · W2: entry by entry the same sums of the same
  products as in the specification, only indexed by the product's own inner index instead of a number below its
  extent; no finiteness is used. The 25 blocks cover all 10000 rows (row r lies in block r / 400), so each array ends
  holding its whole-array function.
-/
import proofs.«146167_g15126874816640_cont_week2b_32_11_alg».proof.Proof.R0Defs
import proofs.«146167_g15126874816640_cont_week2b_32_11_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

section Region0Value

variable (V : (c : Dev nD) → (b : Ref sig .tc) → Buf (Elt Ideal) ((c : Thread nD τ).loc b))

/-! ### Where each window's block sits -/

/-- The block indices of the first region's windows, decided over its 25 points: window 0 (the adjacency matrix)
    and the two results move one row block per point; the four whole-array windows stay at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Block t of the adjacency matrix is its rows 400 t, …, 400 t + 399. -/
theorem adjblk_apply (c : Dev nD) (t : Fin cfg0.N) (y : S400x10000.Idx) (k : S10000x10000.Idx)
    (hk0 : (k 0).val = 400 * t.val + (y 0).val) (hk1 : (k 1).val = (y 1).val) :
    (iblk0 V c 0 t : Vec Ideal S400x10000 .f32) y = (V c main_arg1 : S10000x10000.Idx → EReal) k := by
  obtain ⟨e0, e1, -⟩ := idx_facts0 t
  unfold iblk0
  rw [View.read_apply]
  show V c main_arg1 _ = V c main_arg1 _
  congr 1
  funext a
  apply Fin.ext
  match a with
  | ⟨0, _⟩ => show win0_0.index t 0 * 400 + 1 * (y 0).val = (k 0).val; rw [e0, hk0]; omega
  | ⟨1, _⟩ => show win0_0.index t 1 * 10000 + 1 * (y 1).val = (k 1).val; rw [e1, hk1]; omega

/-- The whole-array windows read their arrays: x, -/
theorem xblk_eq (c : Dev nD) (t : Fin cfg0.N) :
    (iblk0 V c 1 t : Vec Ideal S10000x128 .f32) = (V c main_arg0 : S10000x128.Idx → EReal) := by
  obtain ⟨-, -, e0, e1, -⟩ := idx_facts0 t
  funext y
  unfold iblk0
  rw [View.read_apply]
  show V c main_arg0 _ = V c main_arg0 _
  congr 1
  funext a
  apply Fin.ext
  match a with
  | ⟨0, _⟩ => show win0_1.index t 0 * 10000 + 1 * (y 0).val = (y 0).val; rw [e0]; omega
  | ⟨1, _⟩ => show win0_1.index t 1 * 128 + 1 * (y 1).val = (y 1).val; rw [e1]; omega

/-- W1, -/
theorem w1blk_eq (c : Dev nD) (t : Fin cfg0.N) :
    (iblk0 V c 2 t : Vec Ideal S128x20 .f32) = (V c main_arg2 : S128x20.Idx → EReal) := by
  obtain ⟨-, -, -, -, e0, e1, -⟩ := idx_facts0 t
  funext y
  unfold iblk0
  rw [View.read_apply]
  show V c main_arg2 _ = V c main_arg2 _
  congr 1
  funext a
  apply Fin.ext
  match a with
  | ⟨0, _⟩ => show win0_2.index t 0 * 128 + 1 * (y 0).val = (y 0).val; rw [e0]; omega
  | ⟨1, _⟩ => show win0_2.index t 1 * 20 + 1 * (y 1).val = (y 1).val; rw [e1]; omega

/-- the 1 x 20 copy of b1, -/
theorem b1blk_eq (c : Dev nD) (t : Fin cfg0.N) :
    (iblk0 V c 3 t : Vec Ideal S1x20 .f32) = (V c main_call0_v0 : S1x20.Idx → EReal) := by
  obtain ⟨-, -, -, -, -, -, e0, e1, -⟩ := idx_facts0 t
  funext y
  unfold iblk0
  rw [View.read_apply]
  show V c main_call0_v0 _ = V c main_call0_v0 _
  congr 1
  funext a
  apply Fin.ext
  match a with
  | ⟨0, _⟩ => show win0_3.index t 0 * 1 + 1 * (y 0).val = (y 0).val; rw [e0]; omega
  | ⟨1, _⟩ => show win0_3.index t 1 * 20 + 1 * (y 1).val = (y 1).val; rw [e1]; omega

/-- and W2. -/
theorem w2blk_eq (c : Dev nD) (t : Fin cfg0.N) :
    (iblk0 V c 4 t : Vec Ideal S20x20 .f32) = (V c main_arg4 : S20x20.Idx → EReal) := by
  obtain ⟨-, -, -, -, -, -, -, -, e0, e1, -⟩ := idx_facts0 t
  funext y
  unfold iblk0
  rw [View.read_apply]
  show V c main_arg4 _ = V c main_arg4 _
  congr 1
  funext a
  apply Fin.ext
  match a with
  | ⟨0, _⟩ => show win0_4.index t 0 * 20 + 1 * (y 0).val = (y 0).val; rw [e0]; omega
  | ⟨1, _⟩ => show win0_4.index t 1 * 20 + 1 * (y 1).val = (y 1).val; rw [e1]; omega

/-! ### The three products of the first region, each as a plain sum over its inner index

For each product's dimension record: the left operand is read at (output row, inner index), the right one at
(inner index, output column). -/

-- x · W1 (inner index below 128)
theorem lhsA_0 (i : S10000x20.Idx) (q : dot_S10000x128_S128x20_S10000x20_1_0_0_1_n_n.contr.Idx) :
    (dot_S10000x128_S128x20_S10000x20_1_0_0_1_n_n.lhsIdx i q 0).val = (i 0).val := by
  unfold DotDims.lhsIdx
  rw [dif_neg (show ¬(0 : Fin S10000x128.rank) ∈ dot_S10000x128_S128x20_S10000x20_1_0_0_1_n_n.lhsBatch by decide), dif_pos (show (0 : Fin S10000x128.rank) ∈ dot_S10000x128_S128x20_S10000x20_1_0_0_1_n_n.lhsNonContracting by decide)]
  rfl
theorem lhsA_1 (i : S10000x20.Idx) (q : dot_S10000x128_S128x20_S10000x20_1_0_0_1_n_n.contr.Idx) :
    (dot_S10000x128_S128x20_S10000x20_1_0_0_1_n_n.lhsIdx i q 1).val = (q ⟨0, by decide⟩).val :=
  dot_S10000x128_S128x20_S10000x20_1_0_0_1_n_n.lhsIdx_val_of_single rfl i q
theorem rhsA_0 (i : S10000x20.Idx) (q : dot_S10000x128_S128x20_S10000x20_1_0_0_1_n_n.contr.Idx) :
    (dot_S10000x128_S128x20_S10000x20_1_0_0_1_n_n.rhsIdx i q 0).val = (q ⟨0, by decide⟩).val :=
  dot_S10000x128_S128x20_S10000x20_1_0_0_1_n_n.rhsIdx_val_of_single rfl i q
theorem rhsA_1 (i : S10000x20.Idx) (q : dot_S10000x128_S128x20_S10000x20_1_0_0_1_n_n.contr.Idx) :
    (dot_S10000x128_S128x20_S10000x20_1_0_0_1_n_n.rhsIdx i q 1).val = (i 1).val := by
  unfold DotDims.rhsIdx
  rw [dif_neg (show ¬(1 : Fin S128x20.rank) ∈ dot_S10000x128_S128x20_S10000x20_1_0_0_1_n_n.rhsBatch by decide), dif_pos (show (1 : Fin S128x20.rank) ∈ dot_S10000x128_S128x20_S10000x20_1_0_0_1_n_n.rhsNonContracting by decide)]
  rfl

-- (block of adj) · S1 (inner index below 10000)
theorem lhsB_0 (i : S400x20.Idx) (q : dot_S400x10000_S10000x20_S400x20_1_0_0_1_n_n.contr.Idx) :
    (dot_S400x10000_S10000x20_S400x20_1_0_0_1_n_n.lhsIdx i q 0).val = (i 0).val := by
  unfold DotDims.lhsIdx
  rw [dif_neg (show ¬(0 : Fin S400x10000.rank) ∈ dot_S400x10000_S10000x20_S400x20_1_0_0_1_n_n.lhsBatch by decide), dif_pos (show (0 : Fin S400x10000.rank) ∈ dot_S400x10000_S10000x20_S400x20_1_0_0_1_n_n.lhsNonContracting by decide)]
  rfl
theorem lhsB_1 (i : S400x20.Idx) (q : dot_S400x10000_S10000x20_S400x20_1_0_0_1_n_n.contr.Idx) :
    (dot_S400x10000_S10000x20_S400x20_1_0_0_1_n_n.lhsIdx i q 1).val = (q ⟨0, by decide⟩).val :=
  dot_S400x10000_S10000x20_S400x20_1_0_0_1_n_n.lhsIdx_val_of_single rfl i q
theorem rhsB_0 (i : S400x20.Idx) (q : dot_S400x10000_S10000x20_S400x20_1_0_0_1_n_n.contr.Idx) :
    (dot_S400x10000_S10000x20_S400x20_1_0_0_1_n_n.rhsIdx i q 0).val = (q ⟨0, by decide⟩).val :=
  dot_S400x10000_S10000x20_S400x20_1_0_0_1_n_n.rhsIdx_val_of_single rfl i q
theorem rhsB_1 (i : S400x20.Idx) (q : dot_S400x10000_S10000x20_S400x20_1_0_0_1_n_n.contr.Idx) :
    (dot_S400x10000_S10000x20_S400x20_1_0_0_1_n_n.rhsIdx i q 1).val = (i 1).val := by
  unfold DotDims.rhsIdx
  rw [dif_neg (show ¬(1 : Fin S10000x20.rank) ∈ dot_S400x10000_S10000x20_S400x20_1_0_0_1_n_n.rhsBatch by decide), dif_pos (show (1 : Fin S10000x20.rank) ∈ dot_S400x10000_S10000x20_S400x20_1_0_0_1_n_n.rhsNonContracting by decide)]
  rfl

-- H1 block · W2 (inner index below 20)
theorem lhsC_0 (i : S400x20.Idx) (q : dot_S400x20_S20x20_S400x20_1_0_0_1_n_n.contr.Idx) :
    (dot_S400x20_S20x20_S400x20_1_0_0_1_n_n.lhsIdx i q 0).val = (i 0).val := by
  unfold DotDims.lhsIdx
  rw [dif_neg (show ¬(0 : Fin S400x20.rank) ∈ dot_S400x20_S20x20_S400x20_1_0_0_1_n_n.lhsBatch by decide), dif_pos (show (0 : Fin S400x20.rank) ∈ dot_S400x20_S20x20_S400x20_1_0_0_1_n_n.lhsNonContracting by decide)]
  rfl
theorem lhsC_1 (i : S400x20.Idx) (q : dot_S400x20_S20x20_S400x20_1_0_0_1_n_n.contr.Idx) :
    (dot_S400x20_S20x20_S400x20_1_0_0_1_n_n.lhsIdx i q 1).val = (q ⟨0, by decide⟩).val :=
  dot_S400x20_S20x20_S400x20_1_0_0_1_n_n.lhsIdx_val_of_single rfl i q
theorem rhsC_0 (i : S400x20.Idx) (q : dot_S400x20_S20x20_S400x20_1_0_0_1_n_n.contr.Idx) :
    (dot_S400x20_S20x20_S400x20_1_0_0_1_n_n.rhsIdx i q 0).val = (q ⟨0, by decide⟩).val :=
  dot_S400x20_S20x20_S400x20_1_0_0_1_n_n.rhsIdx_val_of_single rfl i q
theorem rhsC_1 (i : S400x20.Idx) (q : dot_S400x20_S20x20_S400x20_1_0_0_1_n_n.contr.Idx) :
    (dot_S400x20_S20x20_S400x20_1_0_0_1_n_n.rhsIdx i q 1).val = (i 1).val := by
  unfold DotDims.rhsIdx
  rw [dif_neg (show ¬(1 : Fin S20x20.rank) ∈ dot_S400x20_S20x20_S400x20_1_0_0_1_n_n.rhsBatch by decide), dif_pos (show (1 : Fin S20x20.rank) ∈ dot_S400x20_S20x20_S400x20_1_0_0_1_n_n.rhsNonContracting by decide)]
  rfl

/-- x · W1 into a zero accumulator, at (r, f): the sum over k below 128 of x (r, k) · W1 (k, f). -/
theorem mmA_apply (x : FVec Ideal S10000x128 .f32) (w : FVec Ideal S128x20 .f32) (r : Fin 10000) (f : Fin 20) :
    FloatOps.matmul dot_S10000x128_S128x20_S10000x20_1_0_0_1_n_n none x w (constant (F := Ideal) S10000x20 .f32 0x00000000#32) (ix2 r f)
      = ∑ k : Fin 128, x (ix2 r k) * w (ix2 k f) := by
  rw [Ideal.matmul_constant_zero_apply, ← Equiv.sum_comp (contrEquiv1 dot_S10000x128_S128x20_S10000x20_1_0_0_1_n_n 128 rfl rfl).symm]
  refine Finset.sum_congr rfl fun k _ => ?_
  have hk := contrEquiv1_symm_val dot_S10000x128_S128x20_S10000x20_1_0_0_1_n_n 128 rfl rfl k
  have el : dot_S10000x128_S128x20_S10000x20_1_0_0_1_n_n.lhsIdx (ix2 r f) ((contrEquiv1 dot_S10000x128_S128x20_S10000x20_1_0_0_1_n_n 128 rfl rfl).symm k) = ix2 r k := funext fun a => Fin.ext (by
    match a with
    | ⟨0, _⟩ => exact lhsA_0 _ _
    | ⟨1, _⟩ => exact (lhsA_1 _ _).trans hk)
  have er : dot_S10000x128_S128x20_S10000x20_1_0_0_1_n_n.rhsIdx (ix2 r f) ((contrEquiv1 dot_S10000x128_S128x20_S10000x20_1_0_0_1_n_n 128 rfl rfl).symm k) = ix2 k f := funext fun a => Fin.ext (by
    match a with
    | ⟨0, _⟩ => exact (rhsA_0 _ _).trans hk
    | ⟨1, _⟩ => exact rhsA_1 _ _)
  rw [el, er]

/-- (a block of adj) · S1 into a zero accumulator, at (p, f): the sum over k below 10000 of a (p, k) · s (k, f). -/
theorem mmB_apply (a : FVec Ideal S400x10000 .bf16) (s : FVec Ideal S10000x20 .bf16) (p : Fin 400) (f : Fin 20) :
    FloatOps.matmul dot_S400x10000_S10000x20_S400x20_1_0_0_1_n_n none a s (constant (F := Ideal) S400x20 .f32 0x00000000#32) (ix2 p f)
      = ∑ k : Fin 10000, a (ix2 p k) * s (ix2 k f) := by
  rw [Ideal.matmul_constant_zero_apply, ← Equiv.sum_comp (contrEquiv1 dot_S400x10000_S10000x20_S400x20_1_0_0_1_n_n 10000 rfl rfl).symm]
  refine Finset.sum_congr rfl fun k _ => ?_
  have hk := contrEquiv1_symm_val dot_S400x10000_S10000x20_S400x20_1_0_0_1_n_n 10000 rfl rfl k
  have el : dot_S400x10000_S10000x20_S400x20_1_0_0_1_n_n.lhsIdx (ix2 p f) ((contrEquiv1 dot_S400x10000_S10000x20_S400x20_1_0_0_1_n_n 10000 rfl rfl).symm k) = ix2 p k := funext fun a => Fin.ext (by
    match a with
    | ⟨0, _⟩ => exact lhsB_0 _ _
    | ⟨1, _⟩ => exact (lhsB_1 _ _).trans hk)
  have er : dot_S400x10000_S10000x20_S400x20_1_0_0_1_n_n.rhsIdx (ix2 p f) ((contrEquiv1 dot_S400x10000_S10000x20_S400x20_1_0_0_1_n_n 10000 rfl rfl).symm k) = ix2 k f := funext fun a => Fin.ext (by
    match a with
    | ⟨0, _⟩ => exact (rhsB_0 _ _).trans hk
    | ⟨1, _⟩ => exact rhsB_1 _ _)
  rw [el, er]

/-- (a block of H1) · W2 into a zero accumulator, at (p, f): the sum over k below 20 of h (p, k) · w (k, f). -/
theorem mmC_apply (h : FVec Ideal S400x20 .f32) (w : FVec Ideal S20x20 .f32) (p : Fin 400) (f : Fin 20) :
    FloatOps.matmul dot_S400x20_S20x20_S400x20_1_0_0_1_n_n none h w (constant (F := Ideal) S400x20 .f32 0x00000000#32) (ix2 p f)
      = ∑ k : Fin 20, h (ix2 p k) * w (ix2 k f) := by
  rw [Ideal.matmul_constant_zero_apply, ← Equiv.sum_comp (contrEquiv1 dot_S400x20_S20x20_S400x20_1_0_0_1_n_n 20 rfl rfl).symm]
  refine Finset.sum_congr rfl fun k _ => ?_
  have hk := contrEquiv1_symm_val dot_S400x20_S20x20_S400x20_1_0_0_1_n_n 20 rfl rfl k
  have el : dot_S400x20_S20x20_S400x20_1_0_0_1_n_n.lhsIdx (ix2 p f) ((contrEquiv1 dot_S400x20_S20x20_S400x20_1_0_0_1_n_n 20 rfl rfl).symm k) = ix2 p k := funext fun a => Fin.ext (by
    match a with
    | ⟨0, _⟩ => exact lhsC_0 _ _
    | ⟨1, _⟩ => exact (lhsC_1 _ _).trans hk)
  have er : dot_S400x20_S20x20_S400x20_1_0_0_1_n_n.rhsIdx (ix2 p f) ((contrEquiv1 dot_S400x20_S20x20_S400x20_1_0_0_1_n_n 20 rfl rfl).symm k) = ix2 k f := funext fun a => Fin.ext (by
    match a with
    | ⟨0, _⟩ => exact (rhsC_0 _ _).trans hk
    | ⟨1, _⟩ => exact rhsC_1 _ _)
  rw [el, er]

/-! ### The body's payloads at an index -/

/-- What the first point stores into the scratch, at (r, f): the sum over k of x (r, k) · W1 (k, f)
    (the change of format and the identity reshape change nothing at the ideal values). -/
theorem pay1_apply (x : FVec Ideal S10000x128 .f32) (w : FVec Ideal S128x20 .f32) (r : Fin 10000) (f : Fin 20) :
    (k0_pay1 x w : FVec Ideal S10000x20 .bf16) (ix2 r f) = ∑ k : Fin 128, x (ix2 r k) * w (ix2 k f) := by
  unfold k0_pay1
  refine (congrFun (shapeCast_self _ shapeCasts_S10000x20_S10000x20) (ix2 r f)).trans ?_
  exact mmA_apply x w r f

/-- The narrow copy of a block of the adjacency matrix has the block's entries. -/
theorem pay2_apply (a : FVec Ideal S400x10000 .f32) (y : S400x10000.Idx) :
    (k0_pay2 a : FVec Ideal S400x10000 .bf16) y = a y := rfl

/-- The second result's block at (p, f): with h (p, q) = max (∑ r, a (p, r) · s (r, q) + b (0, q)) 0 the block of
    H1, the sum over q below 20 of h (p, q) · w (q, f). -/
theorem pay3_apply (a : FVec Ideal S400x10000 .f32) (s : FVec Ideal S10000x20 .bf16) (b : FVec Ideal S1x20 .f32)
    (w : FVec Ideal S20x20 .f32) (p : Fin 400) (f : Fin 20) :
    (k0_pay3 a s b w : FVec Ideal S400x20 .bf16) (ix2 p f)
      = ∑ q : Fin 20, max ((∑ r : Fin 10000, a (ix2 p r) * s (ix2 r q)) + b (ix2 (0 : Fin 1) q)) 0 * w (ix2 q f) := by
  unfold k0_pay3
  refine (mmC_apply _ w p f).trans ?_
  refine Finset.sum_congr rfl fun q _ => ?_
  refine congrArg (· * w (ix2 q f)) ?_
  refine (maximumf_apply _ _ (ix2 p q)).trans ?_
  refine congrArg₂ max ?_ Ideal.ofBits_zero_f32
  refine (addf_apply _ _ (ix2 p q)).trans ?_
  refine congrArg₂ (· + ·) (mmB_apply (k0_pay2 a) s p q) ?_
  refine (broadcastTo_1b_ab_apply _ broadcasts_S1x20_S400x20 p q).trans ?_
  exact congrFun (shapeCast_self b shapeCasts_S1x20_S1x20) (ix2 (0 : Fin 1) q)

/-- The scratch after the first point is x · W1. -/
theorem S1val_eq (c : Dev nD) :
    (S1val V c : S10000x20.Idx → EReal) = Cert.Spec.mm (V c main_arg0) (V c main_arg2) := by
  funext j
  obtain ⟨r, f, rfl⟩ : ∃ (r : Fin 10000) (f : Fin 20), j = ix2 r f := ⟨j 0, j 1, eq_ix2 j⟩
  unfold S1val
  rw [xblk_eq, w1blk_eq]
  exact pay1_apply _ _ r f

/-! ### What a point writes back -/

/-- Point t writes back, into the narrow copy, block t of the adjacency matrix itself. -/
theorem flushed5_eq (c : Dev nD) (t : Fin cfg0.N) :
    (dat0 (F := Ideal) V c).flushed 5 t = ((cfg0.win 5).blk t).view.read (Elt Ideal) (fun j => V c main_arg1 j) := by
  obtain ⟨-, -, -, -, -, -, -, -, -, -, e0, e1, -⟩ := idx_facts0 t
  show (cfg0.win 5).cut (grid0.coords t) ((dat0 V c).after 5 t) = _
  rw [after0_5]
  funext y
  rw [View.read_apply]
  show (k0_pay2 (iblk0 V c 0 t) : FVec Ideal S400x10000 .bf16) (win0_5.xinj (grid0.coords t) y)
    = V c main_arg1 (((cfg0.win 5).blk t).view.emb y)
  refine (pay2_apply _ _).trans ?_
  refine adjblk_apply V c t _ _ ?_ ?_
  · show win0_5.index t 0 * 400 + 1 * (y 0).val = 400 * t.val + (y 0).val
    rw [e0]; omega
  · show win0_5.index t 1 * 10000 + 1 * (y 1).val = (y 1).val
    rw [e1]; omega

/-- S2 at an index whose row is R and column C, with the outer product written out: with
    h (q) = max (∑ r, adj (R, r) · S1 (r, q) + b1 q) 0 the row R of H1, the sum over q below 20 of h (q) · W2 (q, C). -/
theorem S2of_apply (adj : Cert.Spec.Mat 10000 10000) (x : Cert.Spec.Mat 10000 128) (W1 : Cert.Spec.Mat 128 20)
    (b1 : Fin 20 → EReal) (W2 : Cert.Spec.Mat 20 20) (j : (Cert.Spec.Sh 10000 20).Idx) (R : Fin 10000) (C : Fin 20)
    (hR : R.val = (j 0).val) (hC : C.val = (j 1).val) :
    Cert.Spec.S2of adj x W1 b1 W2 j
      = ∑ q : Fin 20, max ((∑ r : Fin 10000, adj (ix2 R r) * Cert.Spec.mm x W1 (ix2 r q)) + b1 q) 0 * W2 (ix2 q C) := by
  obtain rfl : R = Cert.Spec.row j := Fin.ext hR
  obtain rfl : C = Cert.Spec.col j := Fin.ext hC
  rfl

/-- The second payload on a block a of 400 rows of the adjacency matrix starting at row 400 T, with the scratch at
    x · W1: at (p, f) it is S2 at (400 T + p, f). -/
theorem pay3_rows (a : FVec Ideal S400x10000 .f32) (adj : Cert.Spec.Mat 10000 10000) (x : Cert.Spec.Mat 10000 128)
    (W1 : Cert.Spec.Mat 128 20) (b : FVec Ideal S1x20 .f32) (W2 : FVec Ideal S20x20 .f32) (T : Nat) (hT : T < 25)
    (ha : ∀ (p : Fin 400) (r : Fin 10000), a (ix2 p r) = adj (ix2 (⟨400 * T + p.val, by omega⟩ : Fin 10000) r))
    (p : Fin 400) (f : Fin 20) (J : (Cert.Spec.Sh 10000 20).Idx) (hJ0 : (J 0).val = 400 * T + p.val) (hJ1 : (J 1).val = f.val) :
    (k0_pay3 a (Cert.Spec.mm x W1) b W2 : FVec Ideal S400x20 .bf16) (ix2 p f)
      = Cert.Spec.S2of adj x W1 (fun f => b (ix2 (0 : Fin 1) f)) W2 J := by
  refine (pay3_apply _ _ _ _ p f).trans ?_
  refine Eq.trans ?_ (S2of_apply adj x W1 _ W2 J (⟨400 * T + p.val, by omega⟩ : Fin 10000) f hJ0.symm hJ1.symm).symm
  refine Finset.sum_congr rfl fun q _ => ?_
  refine congrArg (fun z => max (z + b (ix2 (0 : Fin 1) q)) 0 * W2 (ix2 q f)) ?_
  refine Finset.sum_congr rfl fun r _ => ?_
  exact congrArg (· * Cert.Spec.mm x W1 (ix2 r q)) (ha p r)

/-- Point t writes back, into the second result, block t of S2: rows 400 t, …, 400 t + 399 of
    relu(adj · (x · W1) + b1) · W2, each computed from the same rows of the adjacency matrix. -/
theorem flushed6_eq (c : Dev nD) (t : Fin cfg0.N) :
    (dat0 (F := Ideal) V c).flushed 6 t = ((cfg0.win 6).blk t).view.read (Elt Ideal)
      (Cert.Spec.S2of (V c main_arg1) (V c main_arg0) (V c main_arg2) (fun f => V c main_call0_v0 (ix2 (0 : Fin 1) f)) (V c main_arg4)) := by
  obtain ⟨-, -, -, -, -, -, -, -, -, -, -, -, e0, e1⟩ := idx_facts0 t
  show (cfg0.win 6).cut (grid0.coords t) ((dat0 V c).after 6 t) = _
  rw [after0_6]
  funext y
  rw [View.read_apply]
  have hy0 : (y 0).val < 400 := (y 0).isLt
  have hy1 : (y 1).val < 20 := (y 1).isLt
  have ht : t.val < 25 := t.isLt.trans_eq N_0
  show (k0_pay3 (iblk0 V c 0 t) (S1val V c) (iblk0 V c 3 t) (iblk0 V c 4 t) : FVec Ideal S400x20 .bf16)
      (win0_6.xinj (grid0.coords t) y)
    = Cert.Spec.S2of (V c main_arg1) (V c main_arg0) (V c main_arg2) (fun f => V c main_call0_v0 (ix2 (0 : Fin 1) f)) (V c main_arg4)
        (((cfg0.win 6).blk t).view.emb y)
  have hx : win0_6.xinj (grid0.coords t) y = ix2 (⟨(y 0).val, hy0⟩ : Fin 400) (⟨(y 1).val, hy1⟩ : Fin 20) :=
    funext fun a => by match a with | ⟨0, _⟩ => rfl | ⟨1, _⟩ => rfl
  rw [hx, S1val_eq, b1blk_eq, w2blk_eq]
  refine pay3_rows (iblk0 V c 0 t) (V c main_arg1) (V c main_arg0) (V c main_arg2) (V c main_call0_v0) (V c main_arg4) t.val ht
    (fun p r => adjblk_apply V c t _ _ rfl rfl) _ _ _ ?_ ?_
  · show win0_6.index t 0 * 400 + 1 * (y 0).val = 400 * t.val + (y 0).val
    rw [e0]; omega
  · show win0_6.index t 1 * 20 + 1 * (y 1).val = (y 1).val
    rw [e1]; omega

/-! ### The blocks cover the arrays: row r lies in the block of point r / 400 -/

/-- An index of the narrow copy's array is in point t's block iff each coordinate is in the block's range. -/
theorem mem_blk5 (t : Fin cfg0.N) (i : S10000x10000.Idx) :
    i ∈ ((cfg0.win 5).blk t).view.set ↔ ∀ a : Fin 2, win0_5.index t a * S400x10000.size a ≤ (i a).val
      ∧ (i a).val < win0_5.index t a * S400x10000.size a + S400x10000.size a := by
  show i ∈ ((View.whole main_call0_v3_0).slice (win0_5.rect t)).set ↔ _
  rw [View.set_slice_whole, Rect.mem_set_unit]
  exact Iff.rfl

/-- The same for the second result's array. -/
theorem mem_blk6 (t : Fin cfg0.N) (i : S10000x20.Idx) :
    i ∈ ((cfg0.win 6).blk t).view.set ↔ ∀ a : Fin 2, win0_6.index t a * S400x20.size a ≤ (i a).val
      ∧ (i a).val < win0_6.index t a * S400x20.size a + S400x20.size a := by
  show i ∈ ((View.whole main_call0_v3_1).slice (win0_6.rect t)).set ↔ _
  rw [View.set_slice_whole, Rect.mem_set_unit]
  exact Iff.rfl

theorem cover5 (i : S10000x10000.Idx) :
    ∃ t : Fin cfg0.N, (cfg0.win 5).flush t = true ∧ i ∈ ((cfg0.win 5).blk t).view.set := by
  have hi0 : (i 0).val < 10000 := (i 0).isLt
  have hi1 : (i 1).val < 10000 := (i 1).isLt
  obtain ⟨t, ht⟩ : ∃ t : Fin cfg0.N, t.val = (i 0).val / 400 :=
    ⟨⟨(i 0).val / 400, by rw [show cfg0.N = 25 from N_0]; omega⟩, rfl⟩
  obtain ⟨-, -, -, -, -, -, -, -, -, -, e0, e1, -⟩ := idx_facts0 t
  refine ⟨t, flush0_5 t, ?_⟩
  rw [mem_blk5]
  intro a
  match a with
  | ⟨0, _⟩ =>
    show win0_5.index t 0 * 400 ≤ (i 0).val ∧ (i 0).val < win0_5.index t 0 * 400 + 400
    rw [e0, ht]; omega
  | ⟨1, _⟩ =>
    show win0_5.index t 1 * 10000 ≤ (i 1).val ∧ (i 1).val < win0_5.index t 1 * 10000 + 10000
    rw [e1]; omega

theorem cover6 (i : S10000x20.Idx) :
    ∃ t : Fin cfg0.N, (cfg0.win 6).flush t = true ∧ i ∈ ((cfg0.win 6).blk t).view.set := by
  have hi0 : (i 0).val < 10000 := (i 0).isLt
  have hi1 : (i 1).val < 20 := (i 1).isLt
  obtain ⟨t, ht⟩ : ∃ t : Fin cfg0.N, t.val = (i 0).val / 400 :=
    ⟨⟨(i 0).val / 400, by rw [show cfg0.N = 25 from N_0]; omega⟩, rfl⟩
  obtain ⟨-, -, -, -, -, -, -, -, -, -, -, -, e0, e1⟩ := idx_facts0 t
  refine ⟨t, flush0_6 t, ?_⟩
  rw [mem_blk6]
  intro a
  match a with
  | ⟨0, _⟩ =>
    show win0_6.index t 0 * 400 ≤ (i 0).val ∧ (i 0).val < win0_6.index t 0 * 400 + 400
    rw [e0, ht]; omega
  | ⟨1, _⟩ =>
    show win0_6.index t 1 * 20 ≤ (i 1).val ∧ (i 1).val < win0_6.index t 1 * 20 + 20
    rw [e1]; omega

/-! ### The two arrays after the region -/

/-- After the first region the narrow copy of the adjacency matrix holds the adjacency matrix's entries. -/
theorem adjb_final (c : Dev nD) (j : S10000x10000.Idx) :
    ((dat0 (F := Ideal) V c).arrAt 5 cfg0.N j : EReal) = (V c main_arg1 j : EReal) :=
  congrFun ((dat0 (F := Ideal) V c).arrAt_eq_of_cover 5 (fun j => V c main_arg1 j)
    (fun t _ => flushed5_eq V c t) cover5) j

/-- After the first region its second result holds S2 = relu(adj · (x · W1) + b1) · W2, the bias read off its
    1 x 20 reshaped copy. -/
theorem s2_final (c : Dev nD) (j : S10000x20.Idx) :
    ((dat0 (F := Ideal) V c).arrAt 6 cfg0.N j : EReal)
      = Cert.Spec.S2of (V c main_arg1) (V c main_arg0) (V c main_arg2) (fun f => V c main_call0_v0 (ix2 (0 : Fin 1) f)) (V c main_arg4) j :=
  congrFun ((dat0 (F := Ideal) V c).arrAt_eq_of_cover 6
    (Cert.Spec.S2of (V c main_arg1) (V c main_arg0) (V c main_arg2) (fun f => V c main_call0_v0 (ix2 (0 : Fin 1) f)) (V c main_arg4))
    (fun t _ => flushed6_eq V c t) cover6) j

end Region0Value

end Cert.KernelIdeal.Hand

end
-- ==== Proof.R1Value.lean ====
/-
  What the second kernel region leaves in its result array, at the ideal values.
  The region's grid is a phase (0 or 1) times ten steps; a step owns 1000 rows of the narrow adjacency copy.  In
  phase 0 step i computes rows 1000 i … 1000 i + 999 of S3 = relu(adj · S2 + b2) · W3; in phase 1 step i computes
  relu(relu(adj · S3 + b3) + x) for the same rows from the whole S3 and writes them back as block i of the result.
  Here: each matrix product into a zero accumulator is the plain sum over its inner index; the two bodies at a local
  index (p, q); every input block read where it lies in its array (local row p of step i is row 1000 i + p); so the
  scratch's S3 is the specification's S3 and a phase-1 point writes its block of the specification's result; the ten
  blocks written back cover the 10000 rows (row r by the phase-1 point 10 + r / 1000), hence the whole array.
  Both sides are the same sums of the same products: nothing is rearranged and no finiteness is used.
-/
import proofs.«146167_g15126874816640_cont_week2b_32_11_alg».proof.Proof.R1Defs
import proofs.«146167_g15126874816640_cont_week2b_32_11_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! The product (adjacency block) · S2, 1000 x 10000 by 10000 x 20: at output (p, k) and inner index r the left operand is
    read at (p, r) and the right at (r, k), axis by axis. -/
theorem r1_mmAdjS2_lhs_0 (i : S1000x20.Idx) (q : dot_S1000x10000_S10000x20_S1000x20_1_0_0_1_n_n.contr.Idx) :
    (dot_S1000x10000_S10000x20_S1000x20_1_0_0_1_n_n.lhsIdx i q 0).val = (i 0).val := by
  unfold DotDims.lhsIdx
  rw [dif_neg (show ¬(0 : Fin S1000x10000.rank) ∈ dot_S1000x10000_S10000x20_S1000x20_1_0_0_1_n_n.lhsBatch by decide), dif_pos (show (0 : Fin S1000x10000.rank) ∈ dot_S1000x10000_S10000x20_S1000x20_1_0_0_1_n_n.lhsNonContracting by decide)]
  rfl
theorem r1_mmAdjS2_lhs_1 (i : S1000x20.Idx) (q : dot_S1000x10000_S10000x20_S1000x20_1_0_0_1_n_n.contr.Idx) :
    (dot_S1000x10000_S10000x20_S1000x20_1_0_0_1_n_n.lhsIdx i q 1).val = (q ⟨0, by decide⟩).val :=
  dot_S1000x10000_S10000x20_S1000x20_1_0_0_1_n_n.lhsIdx_val_of_single rfl i q
theorem r1_mmAdjS2_rhs_0 (i : S1000x20.Idx) (q : dot_S1000x10000_S10000x20_S1000x20_1_0_0_1_n_n.contr.Idx) :
    (dot_S1000x10000_S10000x20_S1000x20_1_0_0_1_n_n.rhsIdx i q 0).val = (q ⟨0, by decide⟩).val :=
  dot_S1000x10000_S10000x20_S1000x20_1_0_0_1_n_n.rhsIdx_val_of_single rfl i q
theorem r1_mmAdjS2_rhs_1 (i : S1000x20.Idx) (q : dot_S1000x10000_S10000x20_S1000x20_1_0_0_1_n_n.contr.Idx) :
    (dot_S1000x10000_S10000x20_S1000x20_1_0_0_1_n_n.rhsIdx i q 1).val = (i 1).val := by
  unfold DotDims.rhsIdx
  rw [dif_neg (show ¬(1 : Fin S10000x20.rank) ∈ dot_S1000x10000_S10000x20_S1000x20_1_0_0_1_n_n.rhsBatch by decide), dif_pos (show (1 : Fin S10000x20.rank) ∈ dot_S1000x10000_S10000x20_S1000x20_1_0_0_1_n_n.rhsNonContracting by decide)]
  rfl

/-- Into a zero accumulator the product at (p, q) is the plain sum over the inner index. -/
theorem r1_mmAdjS2_apply (l : FVec Ideal S1000x10000 .bf16) (r : FVec Ideal S10000x20 .bf16) (p : Fin 1000) (q : Fin 20) :
    matmul dot_S1000x10000_S10000x20_S1000x20_1_0_0_1_n_n none l r (constant (F := Ideal) S1000x20 .f32 0x00000000#32) (ix2 p q)
      = ∑ k : Fin 10000, l (ix2 p k) * r (ix2 k q) := by
  refine (Ideal.matmul_constant_zero_apply dot_S1000x10000_S10000x20_S1000x20_1_0_0_1_n_n none l r (ix2 p q)).trans ?_
  rw [← Equiv.sum_comp (contrEquiv1 dot_S1000x10000_S10000x20_S1000x20_1_0_0_1_n_n 10000 rfl rfl).symm]
  refine Finset.sum_congr rfl fun k _ => ?_
  have hk := contrEquiv1_symm_val dot_S1000x10000_S10000x20_S1000x20_1_0_0_1_n_n 10000 rfl rfl k
  have el : dot_S1000x10000_S10000x20_S1000x20_1_0_0_1_n_n.lhsIdx (ix2 p q) ((contrEquiv1 dot_S1000x10000_S10000x20_S1000x20_1_0_0_1_n_n 10000 rfl rfl).symm k) = ix2 p k := funext fun a => Fin.ext (by
    match a with
    | ⟨0, _⟩ => exact r1_mmAdjS2_lhs_0 _ _
    | ⟨1, _⟩ => exact (r1_mmAdjS2_lhs_1 _ _).trans hk)
  have er : dot_S1000x10000_S10000x20_S1000x20_1_0_0_1_n_n.rhsIdx (ix2 p q) ((contrEquiv1 dot_S1000x10000_S10000x20_S1000x20_1_0_0_1_n_n 10000 rfl rfl).symm k) = ix2 k q := funext fun a => Fin.ext (by
    match a with
    | ⟨0, _⟩ => exact (r1_mmAdjS2_rhs_0 _ _).trans hk
    | ⟨1, _⟩ => exact r1_mmAdjS2_rhs_1 _ _)
  rw [el, er]

/-! The product relu(…) · W3, 1000 x 20 by 20 x 128: at output (p, q) and inner index k the left operand is read at
    (p, k) and the right at (k, q), axis by axis. -/
theorem r1_mmHidW3_lhs_0 (i : S1000x128.Idx) (q : dot_S1000x20_S20x128_S1000x128_1_0_0_1_n_n.contr.Idx) :
    (dot_S1000x20_S20x128_S1000x128_1_0_0_1_n_n.lhsIdx i q 0).val = (i 0).val := by
  unfold DotDims.lhsIdx
  rw [dif_neg (show ¬(0 : Fin S1000x20.rank) ∈ dot_S1000x20_S20x128_S1000x128_1_0_0_1_n_n.lhsBatch by decide), dif_pos (show (0 : Fin S1000x20.rank) ∈ dot_S1000x20_S20x128_S1000x128_1_0_0_1_n_n.lhsNonContracting by decide)]
  rfl
theorem r1_mmHidW3_lhs_1 (i : S1000x128.Idx) (q : dot_S1000x20_S20x128_S1000x128_1_0_0_1_n_n.contr.Idx) :
    (dot_S1000x20_S20x128_S1000x128_1_0_0_1_n_n.lhsIdx i q 1).val = (q ⟨0, by decide⟩).val :=
  dot_S1000x20_S20x128_S1000x128_1_0_0_1_n_n.lhsIdx_val_of_single rfl i q
theorem r1_mmHidW3_rhs_0 (i : S1000x128.Idx) (q : dot_S1000x20_S20x128_S1000x128_1_0_0_1_n_n.contr.Idx) :
    (dot_S1000x20_S20x128_S1000x128_1_0_0_1_n_n.rhsIdx i q 0).val = (q ⟨0, by decide⟩).val :=
  dot_S1000x20_S20x128_S1000x128_1_0_0_1_n_n.rhsIdx_val_of_single rfl i q
theorem r1_mmHidW3_rhs_1 (i : S1000x128.Idx) (q : dot_S1000x20_S20x128_S1000x128_1_0_0_1_n_n.contr.Idx) :
    (dot_S1000x20_S20x128_S1000x128_1_0_0_1_n_n.rhsIdx i q 1).val = (i 1).val := by
  unfold DotDims.rhsIdx
  rw [dif_neg (show ¬(1 : Fin S20x128.rank) ∈ dot_S1000x20_S20x128_S1000x128_1_0_0_1_n_n.rhsBatch by decide), dif_pos (show (1 : Fin S20x128.rank) ∈ dot_S1000x20_S20x128_S1000x128_1_0_0_1_n_n.rhsNonContracting by decide)]
  rfl

/-- Into a zero accumulator the product at (p, q) is the plain sum over the inner index. -/
theorem r1_mmHidW3_apply (l : FVec Ideal S1000x20 .f32) (r : FVec Ideal S20x128 .f32) (p : Fin 1000) (q : Fin 128) :
    matmul dot_S1000x20_S20x128_S1000x128_1_0_0_1_n_n none l r (constant (F := Ideal) S1000x128 .f32 0x00000000#32) (ix2 p q)
      = ∑ k : Fin 20, l (ix2 p k) * r (ix2 k q) := by
  refine (Ideal.matmul_constant_zero_apply dot_S1000x20_S20x128_S1000x128_1_0_0_1_n_n none l r (ix2 p q)).trans ?_
  rw [← Equiv.sum_comp (contrEquiv1 dot_S1000x20_S20x128_S1000x128_1_0_0_1_n_n 20 rfl rfl).symm]
  refine Finset.sum_congr rfl fun k _ => ?_
  have hk := contrEquiv1_symm_val dot_S1000x20_S20x128_S1000x128_1_0_0_1_n_n 20 rfl rfl k
  have el : dot_S1000x20_S20x128_S1000x128_1_0_0_1_n_n.lhsIdx (ix2 p q) ((contrEquiv1 dot_S1000x20_S20x128_S1000x128_1_0_0_1_n_n 20 rfl rfl).symm k) = ix2 p k := funext fun a => Fin.ext (by
    match a with
    | ⟨0, _⟩ => exact r1_mmHidW3_lhs_0 _ _
    | ⟨1, _⟩ => exact (r1_mmHidW3_lhs_1 _ _).trans hk)
  have er : dot_S1000x20_S20x128_S1000x128_1_0_0_1_n_n.rhsIdx (ix2 p q) ((contrEquiv1 dot_S1000x20_S20x128_S1000x128_1_0_0_1_n_n 20 rfl rfl).symm k) = ix2 k q := funext fun a => Fin.ext (by
    match a with
    | ⟨0, _⟩ => exact (r1_mmHidW3_rhs_0 _ _).trans hk
    | ⟨1, _⟩ => exact r1_mmHidW3_rhs_1 _ _)
  rw [el, er]

/-! The product (adjacency block) · S3, 1000 x 10000 by 10000 x 128: at output (p, q) and inner index r the left operand is
    read at (p, r) and the right at (r, q), axis by axis. -/
theorem r1_mmAdjS3_lhs_0 (i : S1000x128.Idx) (q : dot_S1000x10000_S10000x128_S1000x128_1_0_0_1_n_n.contr.Idx) :
    (dot_S1000x10000_S10000x128_S1000x128_1_0_0_1_n_n.lhsIdx i q 0).val = (i 0).val := by
  unfold DotDims.lhsIdx
  rw [dif_neg (show ¬(0 : Fin S1000x10000.rank) ∈ dot_S1000x10000_S10000x128_S1000x128_1_0_0_1_n_n.lhsBatch by decide), dif_pos (show (0 : Fin S1000x10000.rank) ∈ dot_S1000x10000_S10000x128_S1000x128_1_0_0_1_n_n.lhsNonContracting by decide)]
  rfl
theorem r1_mmAdjS3_lhs_1 (i : S1000x128.Idx) (q : dot_S1000x10000_S10000x128_S1000x128_1_0_0_1_n_n.contr.Idx) :
    (dot_S1000x10000_S10000x128_S1000x128_1_0_0_1_n_n.lhsIdx i q 1).val = (q ⟨0, by decide⟩).val :=
  dot_S1000x10000_S10000x128_S1000x128_1_0_0_1_n_n.lhsIdx_val_of_single rfl i q
theorem r1_mmAdjS3_rhs_0 (i : S1000x128.Idx) (q : dot_S1000x10000_S10000x128_S1000x128_1_0_0_1_n_n.contr.Idx) :
    (dot_S1000x10000_S10000x128_S1000x128_1_0_0_1_n_n.rhsIdx i q 0).val = (q ⟨0, by decide⟩).val :=
  dot_S1000x10000_S10000x128_S1000x128_1_0_0_1_n_n.rhsIdx_val_of_single rfl i q
theorem r1_mmAdjS3_rhs_1 (i : S1000x128.Idx) (q : dot_S1000x10000_S10000x128_S1000x128_1_0_0_1_n_n.contr.Idx) :
    (dot_S1000x10000_S10000x128_S1000x128_1_0_0_1_n_n.rhsIdx i q 1).val = (i 1).val := by
  unfold DotDims.rhsIdx
  rw [dif_neg (show ¬(1 : Fin S10000x128.rank) ∈ dot_S1000x10000_S10000x128_S1000x128_1_0_0_1_n_n.rhsBatch by decide), dif_pos (show (1 : Fin S10000x128.rank) ∈ dot_S1000x10000_S10000x128_S1000x128_1_0_0_1_n_n.rhsNonContracting by decide)]
  rfl

/-- Into a zero accumulator the product at (p, q) is the plain sum over the inner index. -/
theorem r1_mmAdjS3_apply (l : FVec Ideal S1000x10000 .bf16) (r : FVec Ideal S10000x128 .bf16) (p : Fin 1000) (q : Fin 128) :
    matmul dot_S1000x10000_S10000x128_S1000x128_1_0_0_1_n_n none l r (constant (F := Ideal) S1000x128 .f32 0x00000000#32) (ix2 p q)
      = ∑ k : Fin 10000, l (ix2 p k) * r (ix2 k q) := by
  refine (Ideal.matmul_constant_zero_apply dot_S1000x10000_S10000x128_S1000x128_1_0_0_1_n_n none l r (ix2 p q)).trans ?_
  rw [← Equiv.sum_comp (contrEquiv1 dot_S1000x10000_S10000x128_S1000x128_1_0_0_1_n_n 10000 rfl rfl).symm]
  refine Finset.sum_congr rfl fun k _ => ?_
  have hk := contrEquiv1_symm_val dot_S1000x10000_S10000x128_S1000x128_1_0_0_1_n_n 10000 rfl rfl k
  have el : dot_S1000x10000_S10000x128_S1000x128_1_0_0_1_n_n.lhsIdx (ix2 p q) ((contrEquiv1 dot_S1000x10000_S10000x128_S1000x128_1_0_0_1_n_n 10000 rfl rfl).symm k) = ix2 p k := funext fun a => Fin.ext (by
    match a with
    | ⟨0, _⟩ => exact r1_mmAdjS3_lhs_0 _ _
    | ⟨1, _⟩ => exact (r1_mmAdjS3_lhs_1 _ _).trans hk)
  have er : dot_S1000x10000_S10000x128_S1000x128_1_0_0_1_n_n.rhsIdx (ix2 p q) ((contrEquiv1 dot_S1000x10000_S10000x128_S1000x128_1_0_0_1_n_n 10000 rfl rfl).symm k) = ix2 k q := funext fun a => Fin.ext (by
    match a with
    | ⟨0, _⟩ => exact (r1_mmAdjS3_rhs_0 _ _).trans hk
    | ⟨1, _⟩ => exact r1_mmAdjS3_rhs_1 _ _)
  rw [el, er]

/-! What the two payloads compute, at a local index (p, q) of the 1000-row block. -/

/-- A phase-0 block of S3: relu(A · S + b) · W at (p, q), with A the point's 1000 rows of the adjacency copy. -/
theorem r1_pay1_apply (A : Vec Ideal S1000x10000 .bf16) (S : Vec Ideal S10000x20 .bf16) (b : Vec Ideal S1x20 .f32)
    (W : Vec Ideal S20x128 .f32) (p : Fin 1000) (q : Fin 128) :
    (k1_pay1 (F := Ideal) A S b W (ix2 p q) : EReal)
      = ∑ k : Fin 20, max ((∑ r : Fin 10000, A (ix2 p r) * S (ix2 r k)) + b (ix2 (0 : Fin 1) k)) 0 * W (ix2 k q) := by
  unfold k1_pay1
  simp only [shapeCast_self, truncf_apply, r1_mmHidW3_apply, maximumf_apply, addf_apply, r1_mmAdjS2_apply, broadcast_apply,
    broadcastTo_1b_ab_apply]
  refine Finset.sum_congr rfl fun k _ => ?_
  exact congrArg (fun z : EReal => max ((∑ r : Fin 10000, A (ix2 p r) * S (ix2 r k)) + b (ix2 (0 : Fin 1) k)) z * W (ix2 k q))
    Ideal.ofBits_zero_f32

/-- A phase-1 block of the result: relu(relu(A · T + b) + X) at (p, q), with T the whole S3 and X the point's block of x. -/
theorem r1_pay2_apply (A : Vec Ideal S1000x10000 .bf16) (T : Vec Ideal S10000x128 .bf16) (b : Vec Ideal S1x128 .f32)
    (X : Vec Ideal S1000x128 .f32) (p : Fin 1000) (q : Fin 128) :
    (k1_pay2 (F := Ideal) A T b X (ix2 p q) : EReal)
      = max (max ((∑ r : Fin 10000, A (ix2 p r) * T (ix2 r q)) + b (ix2 (0 : Fin 1) q)) 0 + X (ix2 p q)) 0 := by
  unfold k1_pay2
  simp only [shapeCast_self, maximumf_apply, addf_apply, r1_mmAdjS3_apply, broadcast_apply, broadcastTo_1b_ab_apply]
  exact congrArg (fun z : EReal => max (max ((∑ r : Fin 10000, A (ix2 p r) * T (ix2 r q)) + b (ix2 (0 : Fin 1) q)) z + X (ix2 p q)) z)
    Ideal.ofBits_zero_f32

section Region1Value

variable (V : (c : Dev nD) → (b : Ref sig .tc) → Buf (Elt Ideal) ((c : Thread nD τ).loc b))

/-! The block index of every window at every grid point (phase t / 10, step t % 10), and where the result is written back. -/

/-- The adjacency window moves with the step; S2, the biases and W3 stay at block (0, 0); the x window and the result
    window sit at block (0, 0) throughout phase 0 and at block (step, 0) in phase 1. -/
theorem r1_idx_facts : ∀ t : Fin cfg1.N,
    win1_0.index t (0 : Fin 2) = t.val % 10 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ (10 ≤ t.val → win1_5.index t (0 : Fin 2) = t.val % 10) ∧ win1_5.index t (1 : Fin 2) = 0
    ∧ (10 ≤ t.val → win1_6.index t (0 : Fin 2) = t.val % 10) ∧ win1_6.index t (1 : Fin 2) = 0 :=
  (by decide +kernel : ∀ t : Fin grid1.N, _)

/-- The result window is written back exactly at the ten phase-1 points. -/
theorem r1_flush6 : ∀ t : Fin cfg1.N, (cfg1.win 6).flush t = true ↔ 10 ≤ t.val :=
  (by decide +kernel : ∀ t : Fin grid1.N, win1_6.flush t = true ↔ 10 ≤ t.val)

/-! Each input block, read where it lies in its array. -/

/-- The adjacency block of point t is rows 1000 (t % 10) … 1000 (t % 10) + 999 of the adjacency copy. -/
theorem r1_adjblk_apply (c : Dev nD) (t : Fin cfg1.N) (p : Fin 1000) (r : Fin 10000) (i : Fin 10000)
    (hi : i.val = 1000 * (t.val % 10) + p.val) :
    (iblk1 (F := Ideal) V c 0 t : Vec Ideal S1000x10000 .bf16) (ix2 p r)
      = (V c main_call0_v3_0 : Vec Ideal S10000x10000 .bf16) (ix2 i r) := by
  obtain ⟨e0, e1, -⟩ := r1_idx_facts t
  unfold iblk1
  rw [View.read_apply]
  show V c main_call0_v3_0 _ = V c main_call0_v3_0 _
  congr 1
  funext a
  apply Fin.ext
  match a with
  | ⟨0, _⟩ => show win1_0.index t (0 : Fin 2) * 1000 + 1 * p.val = i.val; rw [e0, hi]; omega
  | ⟨1, _⟩ => show win1_0.index t (1 : Fin 2) * 10000 + 1 * r.val = r.val; rw [e1]; omega

/-- The S2 window's one block is S2. -/
theorem r1_s2blk_eq (c : Dev nD) (t : Fin cfg1.N) :
    (iblk1 (F := Ideal) V c 1 t : Vec Ideal S10000x20 .bf16) = (V c main_call0_v3_1 : Vec Ideal S10000x20 .bf16) := by
  obtain ⟨-, -, e0, e1, -⟩ := r1_idx_facts t
  funext i
  unfold iblk1
  rw [View.read_apply]
  show V c main_call0_v3_1 _ = V c main_call0_v3_1 _
  congr 1
  funext a
  apply Fin.ext
  match a with
  | ⟨0, _⟩ => show win1_1.index t (0 : Fin 2) * 10000 + 1 * (i 0).val = (i 0).val; rw [e0]; omega
  | ⟨1, _⟩ => show win1_1.index t (1 : Fin 2) * 20 + 1 * (i 1).val = (i 1).val; rw [e1]; omega

/-- The second bias window's one block is the 1 x 20 bias. -/
theorem r1_b2blk_eq (c : Dev nD) (t : Fin cfg1.N) :
    (iblk1 (F := Ideal) V c 2 t : Vec Ideal S1x20 .f32) = (V c main_call0_v1 : Vec Ideal S1x20 .f32) := by
  obtain ⟨-, -, -, -, e0, e1, -⟩ := r1_idx_facts t
  funext i
  unfold iblk1
  rw [View.read_apply]
  show V c main_call0_v1 _ = V c main_call0_v1 _
  congr 1
  funext a
  apply Fin.ext
  match a with
  | ⟨0, _⟩ => show win1_2.index t (0 : Fin 2) * 1 + 1 * (i 0).val = (i 0).val; rw [e0]; omega
  | ⟨1, _⟩ => show win1_2.index t (1 : Fin 2) * 20 + 1 * (i 1).val = (i 1).val; rw [e1]; omega

/-- The W3 window's one block is W3. -/
theorem r1_w3blk_eq (c : Dev nD) (t : Fin cfg1.N) :
    (iblk1 (F := Ideal) V c 3 t : Vec Ideal S20x128 .f32) = (V c main_arg6 : Vec Ideal S20x128 .f32) := by
  obtain ⟨-, -, -, -, -, -, e0, e1, -⟩ := r1_idx_facts t
  funext i
  unfold iblk1
  rw [View.read_apply]
  show V c main_arg6 _ = V c main_arg6 _
  congr 1
  funext a
  apply Fin.ext
  match a with
  | ⟨0, _⟩ => show win1_3.index t (0 : Fin 2) * 20 + 1 * (i 0).val = (i 0).val; rw [e0]; omega
  | ⟨1, _⟩ => show win1_3.index t (1 : Fin 2) * 128 + 1 * (i 1).val = (i 1).val; rw [e1]; omega

/-- The third bias window's one block is the 1 x 128 bias. -/
theorem r1_b3blk_eq (c : Dev nD) (t : Fin cfg1.N) :
    (iblk1 (F := Ideal) V c 4 t : Vec Ideal S1x128 .f32) = (V c main_call0_v2 : Vec Ideal S1x128 .f32) := by
  obtain ⟨-, -, -, -, -, -, -, -, e0, e1, -⟩ := r1_idx_facts t
  funext i
  unfold iblk1
  rw [View.read_apply]
  show V c main_call0_v2 _ = V c main_call0_v2 _
  congr 1
  funext a
  apply Fin.ext
  match a with
  | ⟨0, _⟩ => show win1_4.index t (0 : Fin 2) * 1 + 1 * (i 0).val = (i 0).val; rw [e0]; omega
  | ⟨1, _⟩ => show win1_4.index t (1 : Fin 2) * 128 + 1 * (i 1).val = (i 1).val; rw [e1]; omega

/-- At a phase-1 point t the x block is rows 1000 (t % 10) … 1000 (t % 10) + 999 of x. -/
theorem r1_xblk_apply (c : Dev nD) (t : Fin cfg1.N) (ht : 10 ≤ t.val) (p : Fin 1000) (q : Fin 128) (i : Fin 10000)
    (hi : i.val = 1000 * (t.val % 10) + p.val) :
    (iblk1 (F := Ideal) V c 5 t : Vec Ideal S1000x128 .f32) (ix2 p q)
      = (V c main_arg0 : Vec Ideal S10000x128 .f32) (ix2 i q) := by
  obtain ⟨-, -, -, -, -, -, -, -, -, -, e0, e1, -⟩ := r1_idx_facts t
  unfold iblk1
  rw [View.read_apply]
  show V c main_arg0 _ = V c main_arg0 _
  congr 1
  funext a
  apply Fin.ext
  match a with
  | ⟨0, _⟩ => show win1_5.index t (0 : Fin 2) * 1000 + 1 * p.val = i.val; rw [e0 ht, hi]; omega
  | ⟨1, _⟩ => show win1_5.index t (1 : Fin 2) * 128 + 1 * q.val = q.val; rw [e1]; omega

/-! The scratch's S3 is the specification's S3. -/

/-- Row r of S3 is computed by the phase-0 point r / 1000 from the adjacency rows 1000 (r / 1000) … + 999, at local row
    r % 1000: that is row r of the adjacency copy, so the entry is relu(adj · S2 + b2) · W3 at (r, column). -/
theorem S3val_eq (c : Dev nD) (idx : S10000x128.Idx) :
    (S3val (F := Ideal) V c idx : EReal)
      = Cert.Spec.S3of (V c main_call0_v3_0) (V c main_call0_v3_1) (fun f => V c main_call0_v1 (ix2 (0 : Fin 1) f))
          (V c main_arg6) idx := by
  have h0 := idx2_lt0 idx
  unfold S3val
  refine (r1_pay1_apply (iblk1 (F := Ideal) V c 0 (rowPt (idx 0).val (idx2_lt0 idx))) (iblk1 (F := Ideal) V c 1 t10)
    (iblk1 (F := Ideal) V c 2 t10) (iblk1 (F := Ideal) V c 3 t10) ⟨(idx 0).val % 1000, Nat.mod_lt _ (by omega)⟩
    ⟨(idx 1).val, idx2_lt1 idx⟩).trans ?_
  rw [r1_s2blk_eq, r1_b2blk_eq, r1_w3blk_eq]
  have hA : ∀ r : Fin 10000,
      (iblk1 (F := Ideal) V c 0 (rowPt (idx 0).val (idx2_lt0 idx)) : Vec Ideal S1000x10000 .bf16)
          (ix2 (⟨(idx 0).val % 1000, Nat.mod_lt _ (by omega)⟩ : Fin 1000) r)
        = (V c main_call0_v3_0 : Vec Ideal S10000x10000 .bf16) (ix2 (Cert.Spec.row idx) r) := fun r =>
    r1_adjblk_apply V c _ _ r (Cert.Spec.row idx)
      (by show (idx 0).val = 1000 * ((idx 0).val / 1000 % 10) + (idx 0).val % 1000; omega)
  simp only [hA]
  rfl

/-- The whole result array the region leaves, as the specification writes it. -/
abbrev r1_outArr (c : Dev nD) : Buf (Elt Ideal) ((c : Thread nD τ).loc main_v0) := fun j =>
  Cert.Spec.outOf (V c main_call0_v3_0) (V c main_call0_v3_1) (fun f => V c main_call0_v1 (ix2 (0 : Fin 1) f)) (V c main_arg6)
    (fun f => V c main_call0_v2 (ix2 (0 : Fin 1) f)) (V c main_arg0) j

/-- What a phase-1 point t stores at local (p, q): the specification's result at row 1000 (t % 10) + p. -/
theorem r1_stored_at (c : Dev nD) (t : Fin cfg1.N) (ht : 10 ≤ t.val) (p : Fin 1000) (q : Fin 128) (i : Fin 10000)
    (hi : i.val = 1000 * (t.val % 10) + p.val) :
    (k1_pay2 (F := Ideal) (iblk1 (F := Ideal) V c 0 t) (S3val (F := Ideal) V c) (iblk1 (F := Ideal) V c 4 t)
        (iblk1 (F := Ideal) V c 5 t) (ix2 p q) : EReal)
      = r1_outArr V c (ix2 i q) := by
  refine (r1_pay2_apply (iblk1 (F := Ideal) V c 0 t) (S3val (F := Ideal) V c) (iblk1 (F := Ideal) V c 4 t)
    (iblk1 (F := Ideal) V c 5 t) p q).trans ?_
  rw [r1_b3blk_eq, r1_xblk_apply V c t ht p q i hi]
  have hA : ∀ r : Fin 10000, (iblk1 (F := Ideal) V c 0 t : Vec Ideal S1000x10000 .bf16) (ix2 p r)
      = (V c main_call0_v3_0 : Vec Ideal S10000x10000 .bf16) (ix2 i r) := fun r => r1_adjblk_apply V c t p r i hi
  have hS : ∀ r : Fin 10000, (S3val (F := Ideal) V c (ix2 r q) : EReal)
      = Cert.Spec.S3of (V c main_call0_v3_0) (V c main_call0_v3_1) (fun f => V c main_call0_v1 (ix2 (0 : Fin 1) f))
          (V c main_arg6) (ix2 r q) := fun r => S3val_eq V c (ix2 r q)
  simp only [hA, hS]
  rfl
/-! From the ten written-back blocks to the whole array. -/

/-- What a phase-1 point writes back is its block of the result array: local (p, q) of point t lies at row
    1000 (t % 10) + p, column q. -/
theorem r1_flushed_eq (c : Dev nD) (t : Fin cfg1.N) (hf : (cfg1.win 6).flush t = true) :
    (dat1 (F := Ideal) V c).flushed 6 t = ((cfg1.win 6).blk t).view.read (Elt Ideal) (r1_outArr V c) := by
  have ht : 10 ≤ t.val := (r1_flush6 t).mp hf
  obtain ⟨-, -, -, -, -, -, -, -, -, -, -, -, e0, e1⟩ := r1_idx_facts t
  funext y
  have hy0 : (y 0).val < 1000 := (y 0).isLt
  have hy1 : (y 1).val < 128 := (y 1).isLt
  have hr : 1000 * (t.val % 10) + (y 0).val < 10000 := by omega
  show (dat1 (F := Ideal) V c).after 6 t ((cfg1.win 6).xinj (cfg1.grid.coords t) y) = _
  rw [after1_6, View.read_apply]
  have ex : (cfg1.win 6).xinj (cfg1.grid.coords t) y = ix2 (⟨(y 0).val, hy0⟩ : Fin 1000) (⟨(y 1).val, hy1⟩ : Fin 128) :=
    funext fun a => by
      match a with
      | ⟨0, _⟩ => rfl
      | ⟨1, _⟩ => rfl
  have ee : ((cfg1.win 6).blk t).view.emb y
      = ix2 (⟨1000 * (t.val % 10) + (y 0).val, hr⟩ : Fin 10000) (⟨(y 1).val, hy1⟩ : Fin 128) :=
    funext fun a => Fin.ext (by
      match a with
      | ⟨0, _⟩ =>
        show win1_6.index t (0 : Fin 2) * 1000 + 1 * (y 0).val = 1000 * (t.val % 10) + (y 0).val
        rw [e0 ht]; omega
      | ⟨1, _⟩ =>
        show win1_6.index t (1 : Fin 2) * 128 + 1 * (y 1).val = (y 1).val
        rw [e1]; omega)
  refine (congrArg (k1_pay2 (F := Ideal) (iblk1 (F := Ideal) V c 0 t) (S3val (F := Ideal) V c) (iblk1 (F := Ideal) V c 4 t)
    (iblk1 (F := Ideal) V c 5 t)) ex).trans ?_
  refine (r1_stored_at V c t ht ⟨(y 0).val, hy0⟩ ⟨(y 1).val, hy1⟩ ⟨1000 * (t.val % 10) + (y 0).val, hr⟩ rfl).trans ?_
  exact (congrArg (r1_outArr V c) ee).symm

/-- Row r of the result lies in the block the phase-1 point 10 + r / 1000 writes back. -/
theorem r1_covered (i : S10000x128.Idx) :
    ∃ t : Fin cfg1.N, (cfg1.win 6).flush t = true ∧ i ∈ ((cfg1.win 6).blk t).view.set := by
  have h0 := idx2_lt0 i
  have h1 := idx2_lt1 i
  have ht : 10 + (i 0).val / 1000 < cfg1.N := by rw [show cfg1.N = 20 from N_1]; omega
  obtain ⟨-, -, -, -, -, -, -, -, -, -, -, -, e0, e1⟩ := r1_idx_facts ⟨10 + (i 0).val / 1000, ht⟩
  have e0' : win1_6.index ⟨10 + (i 0).val / 1000, ht⟩ (0 : Fin 2) = (i 0).val / 1000 := by
    rw [e0 (Nat.le_add_right _ _)]
    show (10 + (i 0).val / 1000) % 10 = (i 0).val / 1000
    omega
  refine ⟨⟨10 + (i 0).val / 1000, ht⟩, (r1_flush6 _).mpr (Nat.le_add_right _ _), ?_⟩
  show i ∈ ((View.whole main_v0).slice (win1_6.rect ⟨10 + (i 0).val / 1000, ht⟩)).set
  rw [View.set_slice_whole, Rect.mem_set_unit]
  intro a
  match a with
  | ⟨0, _⟩ =>
    show win1_6.index ⟨10 + (i 0).val / 1000, ht⟩ (0 : Fin 2) * 1000 ≤ (i 0).val
      ∧ (i 0).val < win1_6.index ⟨10 + (i 0).val / 1000, ht⟩ (0 : Fin 2) * 1000 + 1000
    rw [e0']; omega
  | ⟨1, _⟩ =>
    show win1_6.index ⟨10 + (i 0).val / 1000, ht⟩ (1 : Fin 2) * 128 ≤ (i 1).val
      ∧ (i 1).val < win1_6.index ⟨10 + (i 0).val / 1000, ht⟩ (1 : Fin 2) * 128 + 128
    rw [e1]; omega

/-- After the second region its result holds relu(relu(adjb · S3 + b3) + x) with S3 = relu(adjb · S2 + b2) · W3, of the
    arrays the region was entered with: the narrow adjacency copy, S2, the 1 x 20 and 1 x 128 reshaped biases, W3, x. -/
theorem out_final (c : Dev nD) (j : S10000x128.Idx) :
    ((dat1 (F := Ideal) V c).arrAt 6 cfg1.N j : EReal)
      = Cert.Spec.outOf (V c main_call0_v3_0) (V c main_call0_v3_1) (fun f => V c main_call0_v1 (ix2 (0 : Fin 1) f)) (V c main_arg6)
          (fun f => V c main_call0_v2 (ix2 (0 : Fin 1) f)) (V c main_arg0) j :=
  congrFun ((dat1 (F := Ideal) V c).arrAt_eq_of_cover 6 (r1_outArr V c) (r1_flushed_eq V c) r1_covered) j

end Region1Value

end Cert.KernelIdeal.Hand

end
-- ==== Proof.BiasReshape.lean ====
/- The host operations before the first kernel region copy each rank-1 bias into a 1 x n buffer; read at (0, f), each
   such buffer holds the bias's entry f. -/
import proofs.«146167_g15126874816640_cont_week2b_32_11_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable {F : FTy → Type} [FloatOps F]
variable (m : (ℓ : Loc nD τ sig) → Buf (Elt F) ℓ)

/-- A vector of `n` entries viewed as a 1 x `n` matrix: entry (0, f) of the view is entry f of the vector. A reshape
    keeps every element at its row-major position; the position of (0, f) in a [1, n] array is `0 * n + f = f`, which is
    the position of (f) in an [n] array. -/
theorem shapeCast_row_apply {α : Type} {n : Nat} (v : (⟨1, ![n]⟩ : Shape).Idx → α)
    (h : (⟨1, ![n]⟩ : Shape).ShapeCasts ⟨2, ![1, n]⟩) (f : Fin n) :
    shapeCast ⟨2, ![1, n]⟩ v h (ix2 (0 : Fin 1) f) = v (ix1 f) := by
  refine shapeCast_apply _ _ _ (ix1 f) ?_
  rw [Shape.rowMajor_val_one, Shape.rowMajor_val_two]
  show f.val = 0 * n + f.val
  omega

/-- After the host reshapes, the 1 x 20 copy of the first bias holds the bias: entry (0, f) is entry f. -/
theorem bias1_reshaped (c : Dev nD) (f : Fin 20) :
    (StableHlo.after hostOps0 (fun b => m (c, b)) (Proc.devRef .tc main_call0_v0) : Vec F S1x20 .f32) (ix2 (0 : Fin 1) f)
      = (m ((c : Thread nD τ).loc main_arg3) : Vec F S20 .f32) (ix1 f) := by
  -- The first operation writes this buffer with the bias reshaped; the two later ones write other buffers.
  have e : (StableHlo.after hostOps0 (fun b => m (c, b)) (Proc.devRef .tc main_call0_v0) : Vec F S1x20 .f32)
      = shapeCast S1x20 (m ((c : Thread nD τ).loc main_arg3) : Vec F S20 .f32) shapeCasts_S20_S1x20 := by
    dsimp only [hostOps0]
    after_results
    rfl
  rw [e]
  exact shapeCast_row_apply _ _ f

/-- The same for the second bias. -/
theorem bias2_reshaped (c : Dev nD) (f : Fin 20) :
    (StableHlo.after hostOps0 (fun b => m (c, b)) (Proc.devRef .tc main_call0_v1) : Vec F S1x20 .f32) (ix2 (0 : Fin 1) f)
      = (m ((c : Thread nD τ).loc main_arg5) : Vec F S20 .f32) (ix1 f) := by
  -- The second operation writes this buffer; the first leaves its operand, an argument, as it was, and the third
  -- writes another buffer.
  have e : (StableHlo.after hostOps0 (fun b => m (c, b)) (Proc.devRef .tc main_call0_v1) : Vec F S1x20 .f32)
      = shapeCast S1x20 (m ((c : Thread nD τ).loc main_arg5) : Vec F S20 .f32) shapeCasts_S20_S1x20 := by
    dsimp only [hostOps0]
    after_results
    rfl
  rw [e]
  exact shapeCast_row_apply _ _ f

/-- The same for the third bias, of 128 entries. -/
theorem bias3_reshaped (c : Dev nD) (f : Fin 128) :
    (StableHlo.after hostOps0 (fun b => m (c, b)) (Proc.devRef .tc main_call0_v2) : Vec F S1x128 .f32) (ix2 (0 : Fin 1) f)
      = (m ((c : Thread nD τ).loc main_arg7) : Vec F S128 .f32) (ix1 f) := by
  -- The third operation writes this buffer; the first two leave its operand, an argument, as it was.
  have e : (StableHlo.after hostOps0 (fun b => m (c, b)) (Proc.devRef .tc main_call0_v2) : Vec F S1x128 .f32)
      = shapeCast S1x128 (m ((c : Thread nD τ).loc main_arg7) : Vec F S128 .f32) shapeCasts_S128_S1x128 := by
    dsimp only [hostOps0]
    after_results
    rfl
  rw [e]
  exact shapeCast_row_apply _ _ f

end Cert.KernelIdeal.Hand

end
-- ==== Proof.Bridge.lean ====
/-
  What the kernel's result array holds, as the specification of the launch arguments.
  The second region's result is `outOf` of what it was entered with: the narrow copy of the adjacency matrix, S2, the
  reshaped biases, W3 and x.  Those entry contents are what the first region and the host reshapes left: the copy holds
  the adjacency matrix itself, the second array holds `S2of` of the launch arguments, a reshaped bias holds its bias,
  and W3 and x are untouched.  Substituting, the result is `Spec.out` of the eight launch arguments.
-/
import proofs.«146167_g15126874816640_cont_week2b_32_11_alg».proof.Proof.Ends
import proofs.«146167_g15126874816640_cont_week2b_32_11_alg».proof.Proof.R0Value
import proofs.«146167_g15126874816640_cont_week2b_32_11_alg».proof.Proof.R1Value
import proofs.«146167_g15126874816640_cont_week2b_32_11_alg».proof.Proof.BiasReshape

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-- The three stacked layers of the launch arguments, the biases read off their rank-1 arrays. -/
def specOut (c : Dev nD) : Cert.Spec.Mat 10000 128 :=
  Cert.Spec.out (m ((c : Thread nD τ).loc main_arg0)) (m ((c : Thread nD τ).loc main_arg1)) (m ((c : Thread nD τ).loc main_arg2)) (fun f => (m ((c : Thread nD τ).loc main_arg3)) (ix1 f)) (m ((c : Thread nD τ).loc main_arg4))
    (fun f => (m ((c : Thread nD τ).loc main_arg5)) (ix1 f)) (m ((c : Thread nD τ).loc main_arg6)) (fun f => (m ((c : Thread nD τ).loc main_arg7)) (ix1 f))

/-! ## What the first region is entered with -/

theorem en0_x (c : Dev nD) : (Ven0 m c main_arg0 : Cert.Spec.Mat 10000 128) = (m ((c : Thread nD τ).loc main_arg0)) := Wst1_keep m c main_arg0 (by decide)
theorem en0_adj (c : Dev nD) : (Ven0 m c main_arg1 : Cert.Spec.Mat 10000 10000) = (m ((c : Thread nD τ).loc main_arg1)) := Wst1_keep m c main_arg1 (by decide)
theorem en0_W1 (c : Dev nD) : (Ven0 m c main_arg2 : Cert.Spec.Mat 128 20) = (m ((c : Thread nD τ).loc main_arg2)) := Wst1_keep m c main_arg2 (by decide)
theorem en0_W2 (c : Dev nD) : (Ven0 m c main_arg4 : Cert.Spec.Mat 20 20) = (m ((c : Thread nD τ).loc main_arg4)) := Wst1_keep m c main_arg4 (by decide)
theorem en0_b1 (c : Dev nD) : (fun f : Fin 20 => (Ven0 m c main_call0_v0 (ix2 (0 : Fin 1) f) : EReal)) = fun f => (m ((c : Thread nD τ).loc main_arg3)) (ix1 f) :=
  funext fun f => bias1_reshaped m c f

/-! ## What the second region is entered with -/

/-- The narrow copy of the adjacency matrix holds the adjacency matrix. -/
theorem en1_adjb (c : Dev nD) : (Ven1 m c main_call0_v3_0 : Cert.Spec.Mat 10000 10000) = (m ((c : Thread nD τ).loc main_arg1)) :=
  funext fun i => (congrFun (Wst2_arr m c 5) i).trans ((adjb_final (Ven0 m) c i).trans (congrFun (en0_adj m c) i))

/-- The first region's second result holds S2 of the launch arguments. -/
theorem en1_s2 (c : Dev nD) : (Ven1 m c main_call0_v3_1 : Cert.Spec.Mat 10000 20)
    = Cert.Spec.S2of (m ((c : Thread nD τ).loc main_arg1)) (m ((c : Thread nD τ).loc main_arg0)) (m ((c : Thread nD τ).loc main_arg2)) (fun f => (m ((c : Thread nD τ).loc main_arg3)) (ix1 f)) (m ((c : Thread nD τ).loc main_arg4)) :=
  funext fun i => (congrFun (Wst2_arr m c 6) i).trans ((s2_final (Ven0 m) c i).trans (by
    rw [en0_adj, en0_x, en0_W1, en0_b1, en0_W2]))

theorem en1_b2 (c : Dev nD) : (fun f : Fin 20 => (Ven1 m c main_call0_v1 (ix2 (0 : Fin 1) f) : EReal)) = fun f => (m ((c : Thread nD τ).loc main_arg5)) (ix1 f) :=
  funext fun f => (congrFun (Wst2_of_ne m c main_call0_v1 (by decide)) (ix2 (0 : Fin 1) f)).trans (bias2_reshaped m c f)
theorem en1_b3 (c : Dev nD) : (fun f : Fin 128 => (Ven1 m c main_call0_v2 (ix2 (0 : Fin 1) f) : EReal)) = fun f => (m ((c : Thread nD τ).loc main_arg7)) (ix1 f) :=
  funext fun f => (congrFun (Wst2_of_ne m c main_call0_v2 (by decide)) (ix2 (0 : Fin 1) f)).trans (bias3_reshaped m c f)
theorem en1_W3 (c : Dev nD) : (Ven1 m c main_arg6 : Cert.Spec.Mat 20 128) = (m ((c : Thread nD τ).loc main_arg6)) :=
  (Wst2_of_ne m c main_arg6 (by decide)).trans (Wst1_keep m c main_arg6 (by decide))
theorem en1_x (c : Dev nD) : (Ven1 m c main_arg0 : Cert.Spec.Mat 10000 128) = (m ((c : Thread nD τ).loc main_arg0)) :=
  (Wst2_in m c 1 rfl).trans (Wst1_keep m c main_arg0 (by decide))

/-! ## The result -/

/-- The result array after the run is the specification of the launch arguments. -/
theorem result_is_spec (c : Dev nD) :
    ((dat1 (F := Ideal) (Ven1 m) c).arrAt 6 cfg1.N : Cert.Spec.Mat 10000 128) = specOut m c :=
  funext fun j => (out_final (Ven1 m) c j).trans (by
    rw [en1_adjb, en1_s2, en1_b2, en1_W3, en1_b3, en1_x]; rfl)

end Cert.KernelIdeal.Hand

end
-- ==== Proof.RefSpec.lean ====
/-
  The reference, stage by stage, is the specification.
  Each matrix-product stage of the reference, read at an index, is a sum over the inner index of the left operand at
  (row, inner) times the right operand at (inner, column): exactly the specification's product.  Each bias stage reads
  the rank-1 bias at the column; each clamp is the maximum with the zero constant.  Composing the three layers and the
  closing shortcut sum gives the specification's `out`, with the biases read off their rank-1 arrays.
-/
import proofs.«146167_g15126874816640_cont_week2b_32_11_alg».proof.Proof.Gen.ReferenceIdeal.Read
import proofs.«146167_g15126874816640_cont_week2b_32_11_alg».proof.Proof.Spec
import Idealize.ShloMosaic.Lib.ValueIdx
import Idealize.ShloMosaic.PureOps.Ideal.Laws

set_option maxRecDepth 16384

noncomputable section

open scoped BigOperators

namespace Cert.ReferenceIdeal.RefValue

open Idealize.ShloMosaic Idealize.ShloMosaic.ValueIdx
open Cert.ReferenceIdeal Cert.ReferenceIdeal.Gen Cert.ReferenceIdeal.Read
open Cert.Spec (mm biasRelu row col)

/-! ### The specification's two building blocks at an index -/

theorem mm_apply {n k p : Nat} (A : Cert.Spec.Mat n k) (B : Cert.Spec.Mat k p) (j : (Cert.Spec.Sh n p).Idx) :
    mm A B j = ∑ q : Fin k, A (ix2 (row j) q) * B (ix2 q (col j)) := rfl

theorem biasRelu_apply {n p : Nat} (M : Cert.Spec.Mat n p) (b : Fin p → EReal) (j : (Cert.Spec.Sh n p).Idx) :
    biasRelu M b j = max (M j + b (col j)) 0 := rfl

/-! ### Index equations: the operand indices of each product are (row, inner) and (inner, column) -/

theorem lidx0 (i : S10000x20.Idx) (k : Fin 128) : lidx_main_v0 i k = ix2 (row i) k :=
  funext fun a => by match a with | ⟨0, _⟩ => rfl | ⟨1, _⟩ => rfl
theorem ridx0 (i : S10000x20.Idx) (k : Fin 128) : ridx_main_v0 i k = ix2 k (col i) :=
  funext fun a => by match a with | ⟨0, _⟩ => rfl | ⟨1, _⟩ => rfl
theorem lidx1 (i : S10000x20.Idx) (k : Fin 10000) : lidx_main_v1 i k = ix2 (row i) k :=
  funext fun a => by match a with | ⟨0, _⟩ => rfl | ⟨1, _⟩ => rfl
theorem ridx1 (i : S10000x20.Idx) (k : Fin 10000) : ridx_main_v1 i k = ix2 k (col i) :=
  funext fun a => by match a with | ⟨0, _⟩ => rfl | ⟨1, _⟩ => rfl
theorem lidx6 (i : S10000x20.Idx) (k : Fin 20) : lidx_main_v6 i k = ix2 (row i) k :=
  funext fun a => by match a with | ⟨0, _⟩ => rfl | ⟨1, _⟩ => rfl
theorem ridx6 (i : S10000x20.Idx) (k : Fin 20) : ridx_main_v6 i k = ix2 k (col i) :=
  funext fun a => by match a with | ⟨0, _⟩ => rfl | ⟨1, _⟩ => rfl
theorem lidx7 (i : S10000x20.Idx) (k : Fin 10000) : lidx_main_v7 i k = ix2 (row i) k :=
  funext fun a => by match a with | ⟨0, _⟩ => rfl | ⟨1, _⟩ => rfl
theorem ridx7 (i : S10000x20.Idx) (k : Fin 10000) : ridx_main_v7 i k = ix2 k (col i) :=
  funext fun a => by match a with | ⟨0, _⟩ => rfl | ⟨1, _⟩ => rfl
theorem lidx12 (i : S10000x128.Idx) (k : Fin 20) : lidx_main_v12 i k = ix2 (row i) k :=
  funext fun a => by match a with | ⟨0, _⟩ => rfl | ⟨1, _⟩ => rfl
theorem ridx12 (i : S10000x128.Idx) (k : Fin 20) : ridx_main_v12 i k = ix2 k (col i) :=
  funext fun a => by match a with | ⟨0, _⟩ => rfl | ⟨1, _⟩ => rfl
theorem lidx13 (i : S10000x128.Idx) (k : Fin 10000) : lidx_main_v13 i k = ix2 (row i) k :=
  funext fun a => by match a with | ⟨0, _⟩ => rfl | ⟨1, _⟩ => rfl
theorem ridx13 (i : S10000x128.Idx) (k : Fin 10000) : ridx_main_v13 i k = ix2 k (col i) :=
  funext fun a => by match a with | ⟨0, _⟩ => rfl | ⟨1, _⟩ => rfl

/-! ### The broadcast biases read the rank-1 array at the column; the broadcast zero constant is zero -/

theorem bias1 (x3 : (⟨S20, .f32⟩ : BufTy).Contents (Elt Ideal)) (i : S10000x20.Idx) :
    val_main_v3 (F := Ideal) x3 i = x3 (ix1 (col i)) := by
  rw [val_main_v3_apply, val_main_v2_apply]
  exact congrArg x3 (funext fun a => by match a with | ⟨0, _⟩ => rfl)
theorem bias2 (x5 : (⟨S20, .f32⟩ : BufTy).Contents (Elt Ideal)) (i : S10000x20.Idx) :
    val_main_v9 (F := Ideal) x5 i = x5 (ix1 (col i)) := by
  rw [val_main_v9_apply, val_main_v8_apply]
  exact congrArg x5 (funext fun a => by match a with | ⟨0, _⟩ => rfl)
theorem bias3 (x7 : (⟨S128, .f32⟩ : BufTy).Contents (Elt Ideal)) (i : S10000x128.Idx) :
    val_main_v15 (F := Ideal) x7 i = x7 (ix1 (col i)) := by
  rw [val_main_v15_apply, val_main_v14_apply]
  exact congrArg x7 (funext fun a => by match a with | ⟨0, _⟩ => rfl)

theorem zero0 (i : S10000x20.Idx) : val_main_call0_v0 (F := Ideal) i = (0 : EReal) := by
  rw [val_main_call0_v0_apply, val_main_call0_cst_apply, Ideal.ofBits_def, Ideal.ofBits_zero_f32]
theorem zero1 (i : S10000x20.Idx) : val_main_call1_v0 (F := Ideal) i = (0 : EReal) := by
  rw [val_main_call1_v0_apply, val_main_call1_cst_apply, Ideal.ofBits_def, Ideal.ofBits_zero_f32]
theorem zero2 (i : S10000x128.Idx) : val_main_call2_v0 (F := Ideal) i = (0 : EReal) := by
  rw [val_main_call2_v0_apply, val_main_call2_cst_apply, Ideal.ofBits_def, Ideal.ofBits_zero_f32]
theorem zero3 (i : S10000x128.Idx) : val_main_call3_v0 (F := Ideal) i = (0 : EReal) := by
  rw [val_main_call3_v0_apply, val_main_call3_cst_apply, Ideal.ofBits_def, Ideal.ofBits_zero_f32]

/-! ### The stages, layer by layer -/

/-- S1 = x · W1. -/
theorem stage_v0 (x0 : (⟨S10000x128, .f32⟩ : BufTy).Contents (Elt Ideal)) (x2 : (⟨S128x20, .f32⟩ : BufTy).Contents (Elt Ideal)) :
    val_main_v0 (F := Ideal) x0 x2 = mm x0 x2 := by
  funext i
  rw [val_main_v0_apply, mm_apply]
  exact Finset.sum_congr rfl fun k _ => by rw [lidx0, ridx0]

/-- adj · S1. -/
theorem stage_v1 (x0 : (⟨S10000x128, .f32⟩ : BufTy).Contents (Elt Ideal)) (x1 : (⟨S10000x10000, .f32⟩ : BufTy).Contents (Elt Ideal)) (x2 : (⟨S128x20, .f32⟩ : BufTy).Contents (Elt Ideal)) :
    val_main_v1 (F := Ideal) x0 x1 x2 = mm x1 (mm x0 x2) := by
  funext i
  rw [val_main_v1_apply, mm_apply, stage_v0]
  exact Finset.sum_congr rfl fun k _ => by rw [lidx1, ridx1]

/-- H1 = relu (adj · S1 + b1). -/
theorem stage_v5 (x0 : (⟨S10000x128, .f32⟩ : BufTy).Contents (Elt Ideal)) (x1 : (⟨S10000x10000, .f32⟩ : BufTy).Contents (Elt Ideal)) (x2 : (⟨S128x20, .f32⟩ : BufTy).Contents (Elt Ideal)) (x3 : (⟨S20, .f32⟩ : BufTy).Contents (Elt Ideal)) :
    val_main_v5 (F := Ideal) x0 x1 x2 x3 = biasRelu (mm x1 (mm x0 x2)) (fun f => x3 (ix1 f)) := by
  funext i
  rw [val_main_v5_apply, val_main_v4_apply, stage_v1, bias1, zero0, biasRelu_apply]
  rfl

/-- S2 = H1 · W2. -/
theorem stage_v6 (x0 : (⟨S10000x128, .f32⟩ : BufTy).Contents (Elt Ideal)) (x1 : (⟨S10000x10000, .f32⟩ : BufTy).Contents (Elt Ideal)) (x2 : (⟨S128x20, .f32⟩ : BufTy).Contents (Elt Ideal)) (x3 : (⟨S20, .f32⟩ : BufTy).Contents (Elt Ideal)) (x4 : (⟨S20x20, .f32⟩ : BufTy).Contents (Elt Ideal)) :
    val_main_v6 (F := Ideal) x0 x1 x2 x3 x4
      = mm (biasRelu (mm x1 (mm x0 x2)) (fun f => x3 (ix1 f))) x4 := by
  funext i
  rw [val_main_v6_apply, mm_apply, stage_v5]
  exact Finset.sum_congr rfl fun k _ => by rw [lidx6, ridx6]

/-- adj · S2. -/
theorem stage_v7 (x0 : (⟨S10000x128, .f32⟩ : BufTy).Contents (Elt Ideal)) (x1 : (⟨S10000x10000, .f32⟩ : BufTy).Contents (Elt Ideal)) (x2 : (⟨S128x20, .f32⟩ : BufTy).Contents (Elt Ideal)) (x3 : (⟨S20, .f32⟩ : BufTy).Contents (Elt Ideal)) (x4 : (⟨S20x20, .f32⟩ : BufTy).Contents (Elt Ideal)) :
    val_main_v7 (F := Ideal) x0 x1 x2 x3 x4
      = mm x1 (mm (biasRelu (mm x1 (mm x0 x2)) (fun f => x3 (ix1 f))) x4) := by
  funext i
  rw [val_main_v7_apply, mm_apply, stage_v6]
  exact Finset.sum_congr rfl fun k _ => by rw [lidx7, ridx7]

/-- H2 = relu (adj · S2 + b2). -/
theorem stage_v11 (x0 : (⟨S10000x128, .f32⟩ : BufTy).Contents (Elt Ideal)) (x1 : (⟨S10000x10000, .f32⟩ : BufTy).Contents (Elt Ideal)) (x2 : (⟨S128x20, .f32⟩ : BufTy).Contents (Elt Ideal)) (x3 : (⟨S20, .f32⟩ : BufTy).Contents (Elt Ideal)) (x4 : (⟨S20x20, .f32⟩ : BufTy).Contents (Elt Ideal)) (x5 : (⟨S20, .f32⟩ : BufTy).Contents (Elt Ideal)) :
    val_main_v11 (F := Ideal) x0 x1 x2 x3 x4 x5
      = biasRelu (mm x1 (mm (biasRelu (mm x1 (mm x0 x2)) (fun f => x3 (ix1 f))) x4)) (fun f => x5 (ix1 f)) := by
  funext i
  rw [val_main_v11_apply, val_main_v10_apply, stage_v7, bias2, zero1, biasRelu_apply]
  rfl

/-- S3 = H2 · W3. -/
theorem stage_v12 (x0 : (⟨S10000x128, .f32⟩ : BufTy).Contents (Elt Ideal)) (x1 : (⟨S10000x10000, .f32⟩ : BufTy).Contents (Elt Ideal)) (x2 : (⟨S128x20, .f32⟩ : BufTy).Contents (Elt Ideal)) (x3 : (⟨S20, .f32⟩ : BufTy).Contents (Elt Ideal)) (x4 : (⟨S20x20, .f32⟩ : BufTy).Contents (Elt Ideal)) (x5 : (⟨S20, .f32⟩ : BufTy).Contents (Elt Ideal)) (x6 : (⟨S20x128, .f32⟩ : BufTy).Contents (Elt Ideal)) :
    val_main_v12 (F := Ideal) x0 x1 x2 x3 x4 x5 x6
      = mm (biasRelu (mm x1 (mm (biasRelu (mm x1 (mm x0 x2)) (fun f => x3 (ix1 f))) x4)) (fun f => x5 (ix1 f))) x6 := by
  funext i
  rw [val_main_v12_apply, mm_apply, stage_v11]
  exact Finset.sum_congr rfl fun k _ => by rw [lidx12, ridx12]

/-- adj · S3. -/
theorem stage_v13 (x0 : (⟨S10000x128, .f32⟩ : BufTy).Contents (Elt Ideal)) (x1 : (⟨S10000x10000, .f32⟩ : BufTy).Contents (Elt Ideal)) (x2 : (⟨S128x20, .f32⟩ : BufTy).Contents (Elt Ideal)) (x3 : (⟨S20, .f32⟩ : BufTy).Contents (Elt Ideal)) (x4 : (⟨S20x20, .f32⟩ : BufTy).Contents (Elt Ideal)) (x5 : (⟨S20, .f32⟩ : BufTy).Contents (Elt Ideal)) (x6 : (⟨S20x128, .f32⟩ : BufTy).Contents (Elt Ideal)) :
    val_main_v13 (F := Ideal) x0 x1 x2 x3 x4 x5 x6
      = mm x1 (mm (biasRelu (mm x1 (mm (biasRelu (mm x1 (mm x0 x2)) (fun f => x3 (ix1 f))) x4)) (fun f => x5 (ix1 f))) x6) := by
  funext i
  rw [val_main_v13_apply, mm_apply, stage_v12]
  exact Finset.sum_congr rfl fun k _ => by rw [lidx13, ridx13]

/-- H3 = relu (adj · S3 + b3). -/
theorem stage_v17 (x0 : (⟨S10000x128, .f32⟩ : BufTy).Contents (Elt Ideal)) (x1 : (⟨S10000x10000, .f32⟩ : BufTy).Contents (Elt Ideal)) (x2 : (⟨S128x20, .f32⟩ : BufTy).Contents (Elt Ideal)) (x3 : (⟨S20, .f32⟩ : BufTy).Contents (Elt Ideal)) (x4 : (⟨S20x20, .f32⟩ : BufTy).Contents (Elt Ideal)) (x5 : (⟨S20, .f32⟩ : BufTy).Contents (Elt Ideal)) (x6 : (⟨S20x128, .f32⟩ : BufTy).Contents (Elt Ideal)) (x7 : (⟨S128, .f32⟩ : BufTy).Contents (Elt Ideal)) :
    val_main_v17 (F := Ideal) x0 x1 x2 x3 x4 x5 x6 x7
      = biasRelu (mm x1 (mm (biasRelu (mm x1 (mm (biasRelu (mm x1 (mm x0 x2)) (fun f => x3 (ix1 f))) x4))
          (fun f => x5 (ix1 f))) x6)) (fun f => x7 (ix1 f)) := by
  funext i
  rw [val_main_v17_apply, val_main_v16_apply, stage_v13, bias3, zero2, biasRelu_apply]
  rfl

/-- The reference's last stage, read at an index, is the three stacked layers of the specification, the biases read
    off their rank-1 arrays. -/
theorem ref_is_spec (x0 : (⟨S10000x128, .f32⟩ : BufTy).Contents (Elt Ideal)) (x1 : (⟨S10000x10000, .f32⟩ : BufTy).Contents (Elt Ideal))
    (x2 : (⟨S128x20, .f32⟩ : BufTy).Contents (Elt Ideal)) (x3 : (⟨S20, .f32⟩ : BufTy).Contents (Elt Ideal))
    (x4 : (⟨S20x20, .f32⟩ : BufTy).Contents (Elt Ideal)) (x5 : (⟨S20, .f32⟩ : BufTy).Contents (Elt Ideal))
    (x6 : (⟨S20x128, .f32⟩ : BufTy).Contents (Elt Ideal)) (x7 : (⟨S128, .f32⟩ : BufTy).Contents (Elt Ideal)) (j : S10000x128.Idx) :
    (val_main_v19 (F := Ideal) x0 x1 x2 x3 x4 x5 x6 x7 j : EReal)
      = Cert.Spec.out x0 x1 x2 (fun f => x3 (ix1 f)) x4 (fun f => x5 (ix1 f)) x6 (fun f => x7 (ix1 f)) j := by
  rw [val_main_v19_apply, val_main_v18_apply, stage_v17, zero3]
  rfl

end Cert.ReferenceIdeal.RefValue

end
-- ==== Proof.KR0Defs.lean ====
/-
  The first kernel region (25 row blocks of 400 rows of the adjacency matrix), as data.
  At every grid point the body casts its 400 x 10000 block of the adjacency matrix to the narrow
  format (output window 5) and stores relu(block · S1 + b1) · W2 for its 400 rows (output window 6),
  where S1 = x · W1 is computed once, at the first point, into a scratch buffer that every later
  point reads.  So after the first point the scratch holds one fixed array, `S1val`, a function
  of the region's entry contents only; before it, anything.
  Here: each window's block at a point, `S1val`, the region invariant (the scratch at `S1val`
  once a point has run; the other scoped buffers and the generator register at anything), and the
  pipeline's proof data over them.  Everything is stated for any float instance.
-/
import proofs.«146167_g15126874816640_cont_week2b_32_11_alg».proof.Proof.Gen.Kernel.Launch
import proofs.«146167_g15126874816640_cont_week2b_32_11_alg».proof.Proof.Gen.Kernel.Skeleton
import proofs.«146167_g15126874816640_cont_week2b_32_11_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

-- the core's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point. -/
abbrev t00 : Fin cfg0.N := ⟨0, by rw [show cfg0.N = 25 from N_0]; omega⟩

/-- The scratch operand of the first kernel, as a memref. -/
abbrev scM0 : Memref sig .tc .vmem S10000x20 .bf16 := Memref.whole cc0_scratch0

/-- What the first point stores into the scratch: x · W1 (in the narrow format), from the whole blocks of
    windows 1 (x) and 2 (W1), whose index never moves. -/
def S1val (c : Dev nD) : Vec F S10000x20 .bf16 :=
  k0_pay1 (iblk0 V c 1 t00) (iblk0 V c 2 t00)

/-- A scoped buffer held whole at some contents. -/
abbrev anyBuf (c : Dev nD) (r : Ref sig .tc) : sProp 𝕄 :=
  iprop(∃ f : Buf (Elt F) ((c : Thread nD τ).loc r), ((c : Thread nD τ).loc r) ↦{fullShare} f)

/-- The scoped buffers that are neither a staging buffer of this region nor its scratch (the second region's staging
    buffers and scratch), each at some contents. -/
def others0 (c : Dev nD) : sProp 𝕄 :=
  iprop(anyBuf (F := F) c cc1_stg0_0 ∗ anyBuf (F := F) c cc1_stg0_1 ∗ anyBuf (F := F) c cc1_stg1_0 ∗ anyBuf (F := F) c cc1_stg2_0
    ∗ anyBuf (F := F) c cc1_stg3_0 ∗ anyBuf (F := F) c cc1_stg4_0 ∗ anyBuf (F := F) c cc1_stg5_0 ∗ anyBuf (F := F) c cc1_stg5_1
    ∗ anyBuf (F := F) c cc1_stg6_0 ∗ anyBuf (F := F) c cc1_stg6_1 ∗ anyBuf (F := F) c cc1_scratch0)

/-- The region invariant before position `n`: the scratch at some contents, which are `S1val` once a point has run;
    the other scoped buffers and the generator register at anything. -/
def Phi0 (c : Dev nD) (n : ℕ) : sProp 𝕄 :=
  iprop(∃ f : Vec F S10000x20 .bf16, owns (c : Thread nD τ) scM0 fullShare f ∗ ⌜0 < n → f = S1val V c⌝
    ∗ others0 (F := F) c ∗ ∃ r, prngReg c r)

/-- The proof data of the first pipeline on core `c`: the arrays as the region finds them; after the body at point `t`
    each input's buffer at its block, output window 5 at the cast of the adjacency block, output window 6 at
    relu(block · S1 + b1) · W2; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay2 (iblk0 V c 0 t)
    | ⟨6, _⟩ => k0_pay3 (iblk0 V c 0 t) (S1val V c) (iblk0 V c 3 t) (iblk0 V c 4 t)
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay2 (iblk0 V c 0 t) := by dsimp only [dat0]
theorem after0_6 (c : Dev nD) (t : Fin cfg0.N) :
    (dat0 V c).after 6 t = k0_pay3 (iblk0 V c 0 t) (S1val V c) (iblk0 V c 3 t) (iblk0 V c 4 t) := by dsimp only [dat0]

theorem Phi0_eq (c : Dev nD) (t : Fin (cfg0.N + 1)) : (dat0 V c).Φ t = Phi0 V c t.val := by dsimp only [dat0]

end Region0

end Cert.Kernel.Hand

end
-- ==== Proof.KR0Body.lean ====
/-
  The first kernel region: its body obligation and the invariant at its two ends.
  The body has one conditional, on "this is row block 0". Where it holds (the first grid point only) the body
  loads x and W1 whole and stores x · W1, in the narrow format, whole into the scratch. At every point it then loads
  its 400 x 10000 block of the adjacency matrix, stores the block's narrow cast whole into output window 5, loads
  the scratch, b1 and W2 whole and stores relu(block · scratch + b1) · W2 whole into output window 6. Every access is the
  whole-shape rectangle at zero offsets, so a load reads the buffer's contents and a stored buffer holds the payload.
  Two runs, one per control case, each on arbitrary whole memrefs with the contents left written out; then the body
  at a generic point (the inputs' buffers hold their blocks whether fetched there or not; the scratch is handed at
  anything at the first point and at `S1val` afterwards, and is left at `S1val`), the obligation, and the two ends of
  the invariant (nothing is known of the scratch before the first point, and what is known is forgotten after the last).
-/
import proofs.«146167_g15126874816640_cont_week2b_32_11_alg».proof.Proof.KR0Defs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch condition -/

/-- The condition of the body's one conditional, from the grid coordinates: "this is row block 0". -/
abbrev cond0 (i : grid0.Coords) : Prop := (Scalar.cmpi .ne (Scalar.extui (Scalar.cmpi .eq (BitVec.ofNat 32 (i 0).val) 0#32)) 0#32) = 1#1

/-- It holds at the first grid point and at no other — decided over the 25 points. -/
theorem hcond0 : ∀ t : Fin cfg0.N, cond0 (grid0.coords t) ↔ t.val = 0 :=
  (by decide +kernel : ∀ t : Fin grid0.N, cond0 (grid0.coords t) ↔ t.val = 0)

/-! ## Whole-buffer accesses -/

/-- The zero offsets of a rank-2 access, as the constant function. -/
theorem off00 : (![0, 0] : Fin 2 → Nat) = fun _ => 0 := by
  funext a; fin_cases a <;> rfl

/-- A buffer into which ONE store wrote a payload through the whole-shape rectangle at zero offsets reads as
    that payload, whatever it held before. -/
theorem read_whole_store {κ : Kind} {sp : Space} {S : Shape} {e : EltTy} (v : View sig κ sp S e) (f : v.ty.Contents (Elt F))
    {off : Fin S.rank → Nat} (hz : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero hz inb y⟩),
    View.canon_unit_zero hz]

/-! ## The body's runs, one per control case -/

set_option maxHeartbeats 1000000 in
/-- A point other than the first (the conditional not taken). On whole memrefs — the five inputs at their contents, the two
    outputs at anything, the scratch at contents `xs` — the body runs to the continuation holding the inputs and the
    scratch as they were, output 5 at the narrow cast of the adjacency block and output 6 at
    relu(block · xs + b1) · W2. -/
theorem run0_rest (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x20 .f32) (harg3 : arg3.IsWhole) (arg4 : Memref sig .tc .vmem S1x20 .f32) (harg4 : arg4.IsWhole) (arg5 : Memref sig .tc .vmem S20x20 .f32) (harg5 : arg5.IsWhole) (arg6 : Memref sig .tc .vmem S400x10000 .bf16) (harg6 : arg6.IsWhole) (arg7 : Memref sig .tc .vmem S400x20 .bf16) (harg7 : arg7.IsWhole) (arg8 : Memref sig .tc .vmem S10000x20 .bf16) (harg8 : arg8.IsWhole) (hc : ¬cond0 i)
    (xa : Vec F S400x10000 .f32) (xx : Vec F S10000x128 .f32) (xw1 : Vec F S128x20 .f32) (xb1 : Vec F S1x20 .f32)
    (xw2 : Vec F S20x20 .f32) (xs : Vec F S10000x20 .bf16) (E : Set ℕ) (K : PUnit → sProp 𝕄) :
    iprop(owns (c : Thread nD τ) arg1 fullShare xa ∗ owns (c : Thread nD τ) arg2 fullShare xx ∗ owns (c : Thread nD τ) arg3 fullShare xw1
        ∗ owns (c : Thread nD τ) arg4 fullShare xb1 ∗ owns (c : Thread nD τ) arg5 fullShare xw2
        ∗ (∃ d, owns (c : Thread nD τ) arg6 fullShare d) ∗ (∃ d, owns (c : Thread nD τ) arg7 fullShare d)
        ∗ owns (c : Thread nD τ) arg8 fullShare xs
        ∗ (iprop(owns (c : Thread nD τ) arg1 fullShare xa ∗ owns (c : Thread nD τ) arg2 fullShare xx ∗ owns (c : Thread nD τ) arg3 fullShare xw1
            ∗ owns (c : Thread nD τ) arg4 fullShare xb1 ∗ owns (c : Thread nD τ) arg5 fullShare xw2
            ∗ owns (c : Thread nD τ) arg6 fullShare (k0_pay2 xa) ∗ owns (c : Thread nD τ) arg7 fullShare (k0_pay3 xa xs xb1 xw2)
            ∗ owns (c : Thread nD τ) arg8 fullShare xs) -∗ K ⟨⟩))
      ⊢ wp frame (wpE (defs₀ (F := F)) Variants.none c none) E (cc0__pass1_body i arg1 harg1 arg2 harg2 arg3 harg3 arg4 harg4 arg5 harg5 arg6 harg6 arg7 harg7 arg8 harg8) K := by
  simp only [cc0__pass1_body_eq_skeleton]; unfold cc0__pass1_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg8.eq_unread hf8
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]
  · iexists _; isplitr
    swap; · iexact H6
    ipureintro
    rw [read_whole_store _ _ off00]
    simp only [View.readAt_eq_ld, hf1, View.ld_unit_zero (S := S400x10000) off00]
  isplitl [H7]
  · iexists _; isplitr
    swap; · iexact H7
    ipureintro
    rw [read_whole_store _ _ off00]
    simp only [View.readAt_eq_ld, hf1, hf4, hf5, hf8, View.ld_unit_zero (S := S400x10000) off00, View.ld_unit_zero (S := S10000x20) off00, View.ld_unit_zero (S := S1x20) off00, View.ld_unit_zero (S := S20x20) off00]
  iexists _; isplitr; · ipureintro; exact hf8
  iexact H8

set_option maxHeartbeats 1000000 in
/-- The first point (the conditional taken). On whole memrefs — the five inputs at their contents, the two outputs and the
    scratch at anything — the body runs to the continuation holding the inputs as they were, the scratch at
    x · W1 (narrow), output 5 at the narrow cast of the adjacency block and output 6 at
    relu(block · (x · W1) + b1) · W2: the scratch is read back after the store, so it reads the stored product. -/
theorem run0_first (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x20 .f32) (harg3 : arg3.IsWhole) (arg4 : Memref sig .tc .vmem S1x20 .f32) (harg4 : arg4.IsWhole) (arg5 : Memref sig .tc .vmem S20x20 .f32) (harg5 : arg5.IsWhole) (arg6 : Memref sig .tc .vmem S400x10000 .bf16) (harg6 : arg6.IsWhole) (arg7 : Memref sig .tc .vmem S400x20 .bf16) (harg7 : arg7.IsWhole) (arg8 : Memref sig .tc .vmem S10000x20 .bf16) (harg8 : arg8.IsWhole) (hc : cond0 i)
    (xa : Vec F S400x10000 .f32) (xx : Vec F S10000x128 .f32) (xw1 : Vec F S128x20 .f32) (xb1 : Vec F S1x20 .f32)
    (xw2 : Vec F S20x20 .f32) (E : Set ℕ) (K : PUnit → sProp 𝕄) :
    iprop(owns (c : Thread nD τ) arg1 fullShare xa ∗ owns (c : Thread nD τ) arg2 fullShare xx ∗ owns (c : Thread nD τ) arg3 fullShare xw1
        ∗ owns (c : Thread nD τ) arg4 fullShare xb1 ∗ owns (c : Thread nD τ) arg5 fullShare xw2
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg1 fullShare xa ∗ owns (c : Thread nD τ) arg2 fullShare xx ∗ owns (c : Thread nD τ) arg3 fullShare xw1
            ∗ owns (c : Thread nD τ) arg4 fullShare xb1 ∗ owns (c : Thread nD τ) arg5 fullShare xw2
            ∗ owns (c : Thread nD τ) arg6 fullShare (k0_pay2 xa) ∗ owns (c : Thread nD τ) arg7 fullShare (k0_pay3 xa (k0_pay1 xx xw1) xb1 xw2)
            ∗ owns (c : Thread nD τ) arg8 fullShare (k0_pay1 xx xw1)) -∗ K ⟨⟩))
      ⊢ wp frame (wpE (defs₀ (F := F)) Variants.none c none) E (cc0__pass1_body i arg1 harg1 arg2 harg2 arg3 harg3 arg4 harg4 arg5 harg5 arg6 harg6 arg7 harg7 arg8 harg8) K := by
  simp only [cc0__pass1_body_eq_skeleton]; unfold cc0__pass1_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]
  · iexists _; isplitr
    swap; · iexact H6
    ipureintro
    rw [read_whole_store _ _ off00]
    simp only [View.readAt_eq_ld, hf1, View.ld_unit_zero (S := S400x10000) off00]
  isplitl [H7]
  · iexists _; isplitr
    swap; · iexact H7
    ipureintro
    rw [read_whole_store _ _ off00]
    sl_unfold_run_names
    simp only [View.readAt_eq_ld, hf1, hf2, hf3, hf4, hf5, View.ld_unit_zero (S := S400x10000) off00, View.ld_unit_zero (S := S10000x128) off00, View.ld_unit_zero (S := S128x20) off00, View.ld_unit_zero (S := S1x20) off00, View.ld_unit_zero (S := S20x20) off00, View.readCov_unit_zero (S := S10000x20) _ off00]
  iexists _; isplitr
  swap; · iexact H8
  ipureintro
  sl_unfold_run_names
  rw [read_whole_store _ _ off00]
  simp only [View.readAt_eq_ld, hf2, hf3, View.ld_unit_zero (S := S10000x128) off00, View.ld_unit_zero (S := S128x20) off00]

section Region0

-- the core's buffer contents when the region is entered
variable (V : (c : Dev nD) → (b : Ref sig .tc) → Buf (Elt F) ((c : Thread nD τ).loc b))

/-! ## What the inputs' staging buffers hold -/

/-- Each input window's current staging buffer holds its block at every point, fetched there or not: where the pipeline
    does not fetch, the block index has not moved and the body left the block in place (the windows are uncut and
    never idle). Window 0 (the adjacency row block) is fetched at every point, windows 1 to 4 (x, W1, b1, W2, whose
    index never moves) at the first only. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The body obligation, at a generic point -/

/-- What the body is called with at point `t` (the library's obligation, the windows one by one), -/
def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d))
    ∗ (∃ d, owns (c : Thread nD τ) (win0_5.stage (cfg0.slots t 5)) fullShare ((dat0 V c).before 5 t d))
    ∗ (∃ d, owns (c : Thread nD τ) (win0_6.stage (cfg0.slots t 6)) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

/-- No window of this region is ever idle, so what the body must leave in window `w`'s buffer is plainly `after w t`. -/
theorem leaves0_0 (c : Dev nD) (t : Fin cfg0.N) :
    (dat0 V c).leavesExact 0 t = owns (c : Thread nD τ) (win0_0.stage (cfg0.slots t 0)) fullShare ((dat0 V c).after 0 t) := by
  unfold Dat.leavesExact; rfl
theorem leaves0_1 (c : Dev nD) (t : Fin cfg0.N) :
    (dat0 V c).leavesExact 1 t = owns (c : Thread nD τ) (win0_1.stage (cfg0.slots t 1)) fullShare ((dat0 V c).after 1 t) := by
  unfold Dat.leavesExact; rfl
theorem leaves0_2 (c : Dev nD) (t : Fin cfg0.N) :
    (dat0 V c).leavesExact 2 t = owns (c : Thread nD τ) (win0_2.stage (cfg0.slots t 2)) fullShare ((dat0 V c).after 2 t) := by
  unfold Dat.leavesExact; rfl
theorem leaves0_3 (c : Dev nD) (t : Fin cfg0.N) :
    (dat0 V c).leavesExact 3 t = owns (c : Thread nD τ) (win0_3.stage (cfg0.slots t 3)) fullShare ((dat0 V c).after 3 t) := by
  unfold Dat.leavesExact; rfl
theorem leaves0_4 (c : Dev nD) (t : Fin cfg0.N) :
    (dat0 V c).leavesExact 4 t = owns (c : Thread nD τ) (win0_4.stage (cfg0.slots t 4)) fullShare ((dat0 V c).after 4 t) := by
  unfold Dat.leavesExact; rfl
theorem leaves0_5 (c : Dev nD) (t : Fin cfg0.N) :
    (dat0 V c).leavesExact 5 t = owns (c : Thread nD τ) (win0_5.stage (cfg0.slots t 5)) fullShare ((dat0 V c).after 5 t) := by
  unfold Dat.leavesExact; rfl
theorem leaves0_6 (c : Dev nD) (t : Fin cfg0.N) :
    (dat0 V c).leavesExact 6 t = owns (c : Thread nD τ) (win0_6.stage (cfg0.slots t 6)) fullShare ((dat0 V c).after 6 t) := by
  unfold Dat.leavesExact; rfl

set_option maxHeartbeats 4000000 in
/-- The body at any point. The inputs' memrefs hold their blocks; at the first point the invariant hands the scratch at
    anything and the run leaves it at x · W1, which is `S1val`; at a later point the invariant hands it at `S1val` and
    the run leaves it there; the other scoped buffers and the generator register pass through; the core owes nothing. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [leaves0_0, leaves0_1, leaves0_2, leaves0_3, leaves0_4, leaves0_5, leaves0_6,
    after0_0, after0_1, after0_2, after0_3, after0_4, after0_5, after0_6]
  rw [Phi0_eq, Phi0_eq, Fin.coe_castSucc, Fin.val_succ]
  unfold Phi0
  by_cases hz : t.val = 0
  · obtain rfl : t = t00 := Fin.ext hz
    unfold S1val
    iintro ⟨⟨%f, HS, -, Hoth, Hg⟩, Ho, ⟨%d0, H0⟩, ⟨%d1, H1⟩, ⟨%d2, H2⟩, ⟨%d3, H3⟩, ⟨%d4, H4⟩, ⟨%d5, H5⟩, ⟨%d6, H6⟩⟩
    iapply (run0_first c (grid0.coords t00) _ _ _ _ _ _ _ _ _ _ _ _ _ _ _ _ ((hcond0 t00).mpr rfl)
      (iblk0 V c 0 t00) (iblk0 V c 1 t00) (iblk0 V c 2 t00) (iblk0 V c 3 t00) (iblk0 V c 4 t00) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexists _; iexact HS
    iintro ⟨H0, H1, H2, H3, H4, H5, H6, HS⟩
    isplitl [HS Hoth Hg]
    · iexists _
      isplitl [HS]; · iexact HS
      isplitr; · ipureintro; exact fun _ => rfl
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iintro ⟨⟨%f, HS, %hf, Hoth, Hg⟩, Ho, ⟨%d0, H0⟩, ⟨%d1, H1⟩, ⟨%d2, H2⟩, ⟨%d3, H3⟩, ⟨%d4, H4⟩, ⟨%d5, H5⟩, ⟨%d6, H6⟩⟩
    obtain rfl := hf (Nat.pos_of_ne_zero hz)
    iapply (run0_rest c (grid0.coords t) _ _ _ _ _ _ _ _ _ _ _ _ _ _ _ _ (fun h => hz ((hcond0 t).mp h))
      (iblk0 V c 0 t) (iblk0 V c 1 t) (iblk0 V c 2 t) (iblk0 V c 3 t) (iblk0 V c 4 t) (S1val V c) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hoth Hg]
    · iexists _
      isplitl [HS]; · iexact HS
      isplitr; · ipureintro; exact fun _ => rfl
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's ends -/

/-- What the launch hands the region — every scoped buffer that is no staging buffer of this region at some contents, the
    generator register at some state — is the invariant before the first point: the scratch's contents are not yet
    constrained. -/
theorem hin0 (c : Dev nD) : (Pipeline.ΦA spec0 c : sProp 𝕄) ⊢ (dat0 V c).Φ 0 := by
  rw [Phi0_eq]
  unfold Phi0 others0 Pipeline.ΦA
  rw [scopedRest0_eq]
  iintro ⟨⟨⟨%f, HS⟩, Hoth⟩, Hg⟩
  iexists f
  isplitl [HS]; · rw [owns_whole]; iexact HS
  isplitr; · ipureintro; intro h; exact absurd h (Nat.lt_irrefl 0)
  isplitl [Hoth]; · iexact Hoth
  iexact Hg

/-- After the last point the invariant gives that back: the scratch's named contents are forgotten. -/
theorem hout0 (c : Dev nD) : (dat0 V c).Φ (Fin.last cfg0.N) ⊢ (Pipeline.ΦA spec0 c : sProp 𝕄) := by
  rw [Phi0_eq]
  unfold Phi0 others0 Pipeline.ΦA
  rw [scopedRest0_eq]
  simp only [scM0, owns_whole]
  iintro ⟨%f, HS, -, Hoth, Hg⟩
  isplitr [Hg]
  · isplitl [HS]
    · iexists f; iexact HS
    iexact Hoth
  iexact Hg

end Region0

end Cert.Kernel.Hand

end
-- ==== Proof.KR1Defs.lean ====
/-
  The second kernel region (grid 2 x 10: a phase, then a block of 1000 rows of the narrow adjacency matrix), as data.
  In phase 0, point i computes rows 1000 i .. 1000 i + 999 of S3 = relu(adj · S2 + b2) · W3 and stores them into
  a scratch buffer; the output window is left alone (and is not written back).  In phase 1, point i reads the WHOLE
  scratch and stores relu(relu(block · S3 + b3) + x block) into the output window, which is then written back as
  block i.  So the scratch is filled slice by slice: before position n its rows below 1000 · min n 10 hold their
  final value, `S3val`, a function of the region's entry contents only, and the rows above hold anything.
  Here: each window's block at a point, `S3val`, the region invariant, and the pipeline's proof data over them.
  Everything is stated for any float instance.
-/
import proofs.«146167_g15126874816640_cont_week2b_32_11_alg».proof.Proof.KR0Defs
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

-- the core's buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first grid point. -/
abbrev t10 : Fin cfg1.N := ⟨0, by rw [show cfg1.N = 20 from N_1]; omega⟩

/-- The phase-0 point that computes row `r` of S3: point r / 1000. -/
def rowPt (r : ℕ) (hr : r < 10000) : Fin cfg1.N := ⟨r / 1000, by rw [show cfg1.N = 20 from N_1]; omega⟩

/-- The scratch operand of the second kernel, as a memref. -/
abbrev scM1 : Memref sig .tc .vmem S10000x128 .bf16 := Memref.whole cc1_scratch0

/-- S3 = relu(adj · S2 + b2) · W3 (in the narrow format), row by row: row r is row r % 1000 of what the phase-0 point
    r / 1000 computes from its block of window 0 and the whole blocks of windows 1 (S2), 2 (b2) and 3 (W3). -/
def S3val (c : Dev nD) : Vec F S10000x128 .bf16 := fun idx =>
  k1_pay1 (iblk1 V c 0 (rowPt (idx 0).val (Idealize.ShloMosaic.ValueIdx.idx2_lt0 idx))) (iblk1 V c 1 t10) (iblk1 V c 2 t10) (iblk1 V c 3 t10)
    (Idealize.ShloMosaic.ValueIdx.ix2 (⟨(idx 0).val % 1000, Nat.mod_lt _ (by omega)⟩ : Fin 1000) (⟨(idx 1).val, Idealize.ShloMosaic.ValueIdx.idx2_lt1 idx⟩ : Fin 128))

/-- The scoped buffers that are neither a staging buffer of this region nor its scratch (the first region's staging
    buffers and scratch), each at some contents. -/
def others1 (c : Dev nD) : sProp 𝕄 :=
  iprop(anyBuf (F := F) c cc0_stg0_0 ∗ anyBuf (F := F) c cc0_stg0_1 ∗ anyBuf (F := F) c cc0_stg1_0 ∗ anyBuf (F := F) c cc0_stg2_0
    ∗ anyBuf (F := F) c cc0_stg3_0 ∗ anyBuf (F := F) c cc0_stg4_0 ∗ anyBuf (F := F) c cc0_stg5_0 ∗ anyBuf (F := F) c cc0_stg5_1
    ∗ anyBuf (F := F) c cc0_stg6_0 ∗ anyBuf (F := F) c cc0_stg6_1 ∗ anyBuf (F := F) c cc0_scratch0)

/-- The region invariant before position `n`: the scratch at some contents whose rows below 1000 · min n 10 are S3's;
    the other scoped buffers and the generator register at anything. -/
def Phi1 (c : Dev nD) (n : ℕ) : sProp 𝕄 :=
  iprop(∃ f : Vec F S10000x128 .bf16, owns (c : Thread nD τ) scM1 fullShare f
    ∗ ⌜∀ idx : S10000x128.Idx, (idx 0).val < 1000 * min n 10 → f idx = S3val V c idx⌝
    ∗ others1 (F := F) c ∗ ∃ r, prngReg c r)

/-- The proof data of the second pipeline on core `c`: the arrays as the region finds them; after the body at point `t`
    each input's buffer at its block and the output window at relu(relu(block · S3 + b3) + x block) (stated at every
    point; consulted only at the phase-1 points, where the body stores it and the pipeline writes it back); nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay2 (iblk1 V c 0 t) (S3val V c) (iblk1 V c 4 t) (iblk1 V c 5 t)
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = k1_pay2 (iblk1 V c 0 t) (S3val V c) (iblk1 V c 4 t) (iblk1 V c 5 t) := by dsimp only [dat1]

theorem Phi1_eq (c : Dev nD) (t : Fin (cfg1.N + 1)) : (dat1 V c).Φ t = Phi1 V c t.val := by dsimp only [dat1]

end Region1

end Cert.Kernel.Hand

end
-- ==== Proof.KR1Body.lean ====
/-
  The body obligation of the second kernel region (grid 2 x 10), and the invariant at the region's two ends.
  The scratch buffer is filled slab by slab: phase-0 point t overwrites rows 1000 t .. 1000 t + 999 with the payload it
  computes from its block of the adjacency matrix and the whole-array blocks S2, b2, W3, and that payload is, row for row,
  what `S3val` is defined to be there; the rows below were right before and are not touched, so the invariant "right
  below row 1000 · min n 10" moves from n = t to n = t + 1. The output window is idle in phase 0 (nothing is stored into
  it, and it is not written back): its buffer goes back as it came. In phase 1 every row of the scratch is S3's, so the
  scratch IS `S3val`; the body loads all of it and stores relu(relu(block · S3 + b3) + x block) into the output window,
  leaving the scratch alone. Input windows hold their blocks at every point, fetched there or not.
  Everything is stated for any float instance.
-/
import proofs.«146167_g15126874816640_cont_week2b_32_11_alg».proof.Proof.KR1Defs
import Idealize.ShloMosaic.Lib.WritesUnit
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

-- the core's buffer contents when the region is entered
variable (V : (c : Dev nD) → (b : Ref sig .tc) → Buf (Elt F) ((c : Thread nD τ).loc b))

/-! ## The grid: which phase a point is in, and where the output window is idle -/

/-- The first conditional is taken exactly at the ten points of phase 0. -/
theorem cond1a_iff : ∀ t : Fin cfg1.N, k1_cond1 (grid1.coords t) = 1#1 ↔ t.val < 10 :=
  (by decide +kernel : ∀ t : Fin grid1.N, k1_cond1 (grid1.coords t) = 1#1 ↔ t.val < 10)

/-- The second conditional is taken exactly at the ten points of phase 1. -/
theorem cond1b_iff : ∀ t : Fin cfg1.N, k1_cond2 (grid1.coords t) = 1#1 ↔ 10 ≤ t.val :=
  (by decide +kernel : ∀ t : Fin grid1.N, k1_cond2 (grid1.coords t) = 1#1 ↔ 10 ≤ t.val)

/-- In phase 0 the second grid coordinate is the point's number. -/
theorem col1_phase0 : ∀ t : Fin cfg1.N, t.val < 10 → ((grid1.coords t) 1).val = t.val :=
  (by decide +kernel : ∀ t : Fin grid1.N, t.val < 10 → ((grid1.coords t) 1).val = t.val)

/-- In phase 0 the output window is idle: the body stores nothing into it, -/
theorem idleAt1_6 : ∀ t : Fin cfg1.N, t.val < 10 → cfg1.idle 6 (grid1.coords t) = true := by decide +kernel
/-- and the pipeline does not write its block back. -/
theorem noFlush1_6 : ∀ t : Fin cfg1.N, t.val < 10 → (cfg1.win 6).flush t = false := by decide +kernel
/-- In phase 1 the output window is live. -/
theorem liveAt1_6 : ∀ t : Fin cfg1.N, 10 ≤ t.val → cfg1.idle 6 (grid1.coords t) = false := by decide +kernel

/-- The block index of windows 1, 2 and 3 (each one whole-array block) never moves. -/
theorem index1_1_const : ∀ t : Fin cfg1.N, (cfg1.win 1).index t = (cfg1.win 1).index t10 := fun _ => rfl
theorem index1_2_const : ∀ t : Fin cfg1.N, (cfg1.win 2).index t = (cfg1.win 2).index t10 := fun _ => rfl
theorem index1_3_const : ∀ t : Fin cfg1.N, (cfg1.win 3).index t = (cfg1.win 3).index t10 := fun _ => rfl

/-! ## What the body finds in the input windows' buffers -/

/-- A fetch of an (uncut) input window fills the buffer with the window's block. -/
theorem fetched1_0 (c : Dev nD) (t : Fin cfg1.N) (d) : (dat1 V c).fetched 0 t d = iblk1 V c 0 t := by
  unfold Dat.fetched Dat.blockOf iblk1; rw [A_eq1 V c]; try rfl
theorem fetched1_1 (c : Dev nD) (t : Fin cfg1.N) (d) : (dat1 V c).fetched 1 t d = iblk1 V c 1 t := by
  unfold Dat.fetched Dat.blockOf iblk1; rw [A_eq1 V c]; try rfl
theorem fetched1_2 (c : Dev nD) (t : Fin cfg1.N) (d) : (dat1 V c).fetched 2 t d = iblk1 V c 2 t := by
  unfold Dat.fetched Dat.blockOf iblk1; rw [A_eq1 V c]; try rfl
theorem fetched1_3 (c : Dev nD) (t : Fin cfg1.N) (d) : (dat1 V c).fetched 3 t d = iblk1 V c 3 t := by
  unfold Dat.fetched Dat.blockOf iblk1; rw [A_eq1 V c]; try rfl
theorem fetched1_4 (c : Dev nD) (t : Fin cfg1.N) (d) : (dat1 V c).fetched 4 t d = iblk1 V c 4 t := by
  unfold Dat.fetched Dat.blockOf iblk1; rw [A_eq1 V c]; try rfl
theorem fetched1_5 (c : Dev nD) (t : Fin cfg1.N) (d) : (dat1 V c).fetched 5 t d = iblk1 V c 5 t := by
  unfold Dat.fetched Dat.blockOf iblk1; rw [A_eq1 V c]; try rfl

/-- Each input window's current buffer holds its block at every point, fetched there or not: where it is not
    fetched its block index has not moved, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1 V c]; try rfl) t d).trans (fetched1_0 V c t d)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1 V c]; try rfl) t d).trans (fetched1_1 V c t d)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1 V c]; try rfl) t d).trans (fetched1_2 V c t d)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1 V c]; try rfl) t d).trans (fetched1_3 V c t d)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1 V c]; try rfl) t d).trans (fetched1_4 V c t d)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1 V c]; try rfl) t d).trans (fetched1_5 V c t d)

/-- Windows 1, 2 and 3 hold one whole-array block, the same at every point. -/
theorem iblk1_1_const (c : Dev nD) (t : Fin cfg1.N) : (iblk1 V c 1 t : Vec F S10000x20 .bf16) = iblk1 V c 1 t10 :=
  (fetched1_1 V c t ((dat1 V c).after 1 t10)).symm.trans
    (((dat1 V c).fetched_congr 1 (index1_1_const t) rfl ((dat1 V c).after 1 t10)).trans (fetched1_1 V c t10 _))
theorem iblk1_2_const (c : Dev nD) (t : Fin cfg1.N) : (iblk1 V c 2 t : Vec F S1x20 .f32) = iblk1 V c 2 t10 :=
  (fetched1_2 V c t ((dat1 V c).after 2 t10)).symm.trans
    (((dat1 V c).fetched_congr 2 (index1_2_const t) rfl ((dat1 V c).after 2 t10)).trans (fetched1_2 V c t10 _))
theorem iblk1_3_const (c : Dev nD) (t : Fin cfg1.N) : (iblk1 V c 3 t : Vec F S20x128 .f32) = iblk1 V c 3 t10 :=
  (fetched1_3 V c t ((dat1 V c).after 3 t10)).symm.trans
    (((dat1 V c).fetched_congr 3 (index1_3_const t) rfl ((dat1 V c).after 3 t10)).trans (fetched1_3 V c t10 _))

/-! ## A slab of rows overwritten -/

/-- Contents `f` of the scratch with the 1000 rows from row `o` on replaced by `w`. -/
def putRows1 (o : ℕ) (f : Vec F S10000x128 .bf16) (w : Vec F S1000x128 .bf16) : Vec F S10000x128 .bf16 :=
  fun idx => if h : o ≤ (idx 0).val ∧ (idx 0).val < o + 1000 then
      w (ValueIdx.ix2 (⟨(idx 0).val - o, by omega⟩ : Fin 1000) (⟨(idx 1).val, ValueIdx.idx2_lt1 idx⟩ : Fin 128))
    else f idx

/-- A row of the slab reads `w` at the row's place in the slab; -/
theorem putRows1_in (o : ℕ) (f : Vec F S10000x128 .bf16) (w : Vec F S1000x128 .bf16) (idx : S10000x128.Idx)
    (hlo : o ≤ (idx 0).val) (hhi : (idx 0).val < o + 1000) :
    putRows1 o f w idx = w (ValueIdx.ix2 (⟨(idx 0).val - o, by omega⟩ : Fin 1000) (⟨(idx 1).val, ValueIdx.idx2_lt1 idx⟩ : Fin 128)) := by
  unfold putRows1; rw [dif_pos ⟨hlo, hhi⟩]

/-- any other row reads `f`. -/
theorem putRows1_out (o : ℕ) (f : Vec F S10000x128 .bf16) (w : Vec F S1000x128 .bf16) (idx : S10000x128.Idx)
    (h : (idx 0).val < o ∨ o + 1000 ≤ (idx 0).val) : putRows1 o f w idx = f idx := by
  unfold putRows1; rw [dif_neg (by omega)]

theorem zeroOff1 : (![0, 0] : Fin 2 → ℕ) = fun _ => 0 := by funext a; fin_cases a <;> rfl

/-- One store of a 1000-row slab at rows `o` on, over contents `g` of the scratch, reads back as `putRows1`. -/
theorem read_slab_write1 (arg9 : Memref sig .tc .vmem S10000x128 .bf16) (g : arg9.view.ty.Contents (Elt F))
    (off : Fin 2 → ℕ) (inb : ∀ a, off a + S1000x128.size a ≤ S10000x128.size a) (w : Vec F S1000x128 .bf16) (o : ℕ)
    (hoff : off = ![o, 0]) :
    arg9.view.read (Elt F) (arg9.view.writes (Elt F) g [⟨Rect.unit (s := S10000x128) off S1000x128.size inb, w⟩])
      = putRows1 o (arg9.view.read (Elt F) g) w := by
  funext idx
  by_cases h : o ≤ (idx 0).val ∧ (idx 0).val < o + 1000
  · rw [putRows1_in o _ w idx h.1 h.2]
    exact View.read_writes_cons_rows_of_mem arg9.view g inb w [] idx _ hoff
      (by show (idx 0).val = o + ((idx 0).val - o); omega) rfl
  · rw [putRows1_out o _ w idx (by omega),
      View.read_writes_cons_rows_of_not_mem arg9.view g inb w [] idx hoff (W := 1000) rfl (by omega)]
    rfl

/-! ## The body's two runs -/

set_option maxHeartbeats 1000000 in
/-- PHASE 0. On whole memrefs — the adjacency block, S2, b2, W3 at their contents, the scratch at `f` — the body
    runs to the continuation with the inputs as they were and the scratch at `f` with the slab of rows
    1000 · (second coordinate) on replaced by the payload; it touches nothing else. -/
theorem run1_phase0 (c : Dev nD) (i : grid1.Coords)
    (arg2 : Memref sig .tc .vmem S1000x10000 .bf16) (harg2 : arg2.IsWhole) (arg3 : Memref sig .tc .vmem S10000x20 .bf16) (harg3 : arg3.IsWhole)
    (arg4 : Memref sig .tc .vmem S1x20 .f32) (harg4 : arg4.IsWhole) (arg5 : Memref sig .tc .vmem S20x128 .f32) (harg5 : arg5.IsWhole)
    (arg6 : Memref sig .tc .vmem S1x128 .f32) (harg6 : arg6.IsWhole) (arg7 : Memref sig .tc .vmem S1000x128 .f32) (harg7 : arg7.IsWhole)
    (arg8 : Memref sig .tc .vmem S1000x128 .f32) (harg8 : arg8.IsWhole) (arg9 : Memref sig .tc .vmem S10000x128 .bf16) (harg9 : arg9.IsWhole)
    (hc1 : k1_cond1 i = 1#1) (hc2 : ¬k1_cond2 i = 1#1)
    (xa : Vec F S1000x10000 .bf16) (xs2 : Vec F S10000x20 .bf16) (xb2 : Vec F S1x20 .f32) (xw3 : Vec F S20x128 .f32)
    (f : Vec F S10000x128 .bf16) (E : Set ℕ) (K : PUnit → sProp 𝕄) :
    iprop(owns (c : Thread nD τ) arg2 fullShare xa ∗ owns (c : Thread nD τ) arg3 fullShare xs2 ∗ owns (c : Thread nD τ) arg4 fullShare xb2
        ∗ owns (c : Thread nD τ) arg5 fullShare xw3 ∗ owns (c : Thread nD τ) arg9 fullShare f
        ∗ (iprop(owns (c : Thread nD τ) arg2 fullShare xa ∗ owns (c : Thread nD τ) arg3 fullShare xs2 ∗ owns (c : Thread nD τ) arg4 fullShare xb2
            ∗ owns (c : Thread nD τ) arg5 fullShare xw3
            ∗ owns (c : Thread nD τ) arg9 fullShare (putRows1 (1000 * (i 1).val) f (k1_pay1 xa xs2 xb2 xw3))) -∗ K ⟨⟩))
      ⊢ wp frame (wpE (defs₀ (F := F)) Variants.none c none) E (cc1__pass23_body i arg2 harg2 arg3 harg3 arg4 harg4 arg5 harg5 arg6 harg6 arg7 harg7 arg8 harg8 arg9 harg9) K := by
  simp only [cc1__pass23_body_eq_skeleton]; unfold cc1__pass23_body_skel
  unfold owns
  iintro ⟨⟨%f2, %hf2, H2⟩, ⟨%f3, %hf3, H3⟩, ⟨%f4, %hf4, H4⟩, ⟨%f5, %hf5, H5⟩, ⟨%f9, %hf9, H9⟩, Hk⟩
  obtain rfl := harg2.eq_unread hf2; obtain rfl := harg3.eq_unread hf3; obtain rfl := harg4.eq_unread hf4
  obtain rfl := harg5.eq_unread hf5; obtain rfl := harg9.eq_unread hf9
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H9
  ipureintro
  rw [read_slab_write1 arg9 _ _ _ _ (1000 * (i 1).val) (k1_off1_eq i)]
  simp only [View.readAt_eq_ld, harg2.read_unread, harg3.read_unread, harg4.read_unread, harg5.read_unread, harg9.read_unread,
    View.ld_unit_zero (S := S1000x10000) zeroOff1, View.ld_unit_zero (S := S10000x20) zeroOff1,
    View.ld_unit_zero (S := S1x20) zeroOff1, View.ld_unit_zero (S := S20x128) zeroOff1]

set_option maxHeartbeats 1000000 in
/-- PHASE 1. On whole memrefs — the adjacency block, b3, the x block at their contents, the output buffer at
    anything, the scratch at `f` — the body runs to the continuation with the inputs and the scratch as they were
    and the output buffer at the payload computed from the WHOLE scratch. -/
theorem run1_phase1 (c : Dev nD) (i : grid1.Coords)
    (arg2 : Memref sig .tc .vmem S1000x10000 .bf16) (harg2 : arg2.IsWhole) (arg3 : Memref sig .tc .vmem S10000x20 .bf16) (harg3 : arg3.IsWhole)
    (arg4 : Memref sig .tc .vmem S1x20 .f32) (harg4 : arg4.IsWhole) (arg5 : Memref sig .tc .vmem S20x128 .f32) (harg5 : arg5.IsWhole)
    (arg6 : Memref sig .tc .vmem S1x128 .f32) (harg6 : arg6.IsWhole) (arg7 : Memref sig .tc .vmem S1000x128 .f32) (harg7 : arg7.IsWhole)
    (arg8 : Memref sig .tc .vmem S1000x128 .f32) (harg8 : arg8.IsWhole) (arg9 : Memref sig .tc .vmem S10000x128 .bf16) (harg9 : arg9.IsWhole)
    (hc1 : ¬k1_cond1 i = 1#1) (hc2 : k1_cond2 i = 1#1)
    (xa : Vec F S1000x10000 .bf16) (xb3 : Vec F S1x128 .f32) (xx : Vec F S1000x128 .f32)
    (f : Vec F S10000x128 .bf16) (E : Set ℕ) (K : PUnit → sProp 𝕄) :
    iprop(owns (c : Thread nD τ) arg2 fullShare xa ∗ owns (c : Thread nD τ) arg6 fullShare xb3 ∗ owns (c : Thread nD τ) arg7 fullShare xx
        ∗ (∃ d, owns (c : Thread nD τ) arg8 fullShare d) ∗ owns (c : Thread nD τ) arg9 fullShare f
        ∗ (iprop(owns (c : Thread nD τ) arg2 fullShare xa ∗ owns (c : Thread nD τ) arg6 fullShare xb3 ∗ owns (c : Thread nD τ) arg7 fullShare xx
            ∗ owns (c : Thread nD τ) arg8 fullShare (k1_pay2 xa f xb3 xx)
            ∗ owns (c : Thread nD τ) arg9 fullShare f) -∗ K ⟨⟩))
      ⊢ wp frame (wpE (defs₀ (F := F)) Variants.none c none) E (cc1__pass23_body i arg2 harg2 arg3 harg3 arg4 harg4 arg5 harg5 arg6 harg6 arg7 harg7 arg8 harg8 arg9 harg9) K := by
  simp only [cc1__pass23_body_eq_skeleton]; unfold cc1__pass23_body_skel
  unfold owns
  iintro ⟨⟨%f2, %hf2, H2⟩, ⟨%f6, %hf6, H6⟩, ⟨%f7, %hf7, H7⟩, ⟨%d8, %f8, -, H8⟩, ⟨%f9, %hf9, H9⟩, Hk⟩
  obtain rfl := harg2.eq_unread hf2; obtain rfl := harg6.eq_unread hf6; obtain rfl := harg7.eq_unread hf7
  obtain rfl := harg9.eq_unread hf9
  sl_exec (disch := first | exact hc1 | exact hc2)
  sl_step
  iapply Hk
  isplitl [H2]
  · iexists _; isplitr; · ipureintro; exact harg2.read_unread _
    iexact H2
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    rw [View.read_writes_eq_canon _ _ _ (fun y => ⟨_, List.mem_singleton_self _, View.mem_set_unit_zero zeroOff1 inb_S1000x128_S1000x128_0_0 y⟩),
      View.canon_unit_zero zeroOff1]
    simp only [View.readAt_eq_ld, harg2.read_unread, harg6.read_unread, harg7.read_unread, harg9.read_unread,
      View.ld_unit_zero (S := S1000x10000) zeroOff1, View.ld_unit_zero (S := S10000x128) zeroOff1,
      View.ld_unit_zero (S := S1x128) zeroOff1, View.ld_unit_zero (S := S1000x128) zeroOff1]
  iexists _; isplitr; · ipureintro; exact harg9.read_unread _
  iexact H9

/-! ## S3 on the slab a phase-0 point writes -/

/-- A row of the slab of phase-0 point `t` (rows 1000 t to 1000 t + 999) of S3 is, by S3's definition, the payload
    point `t` computes from its blocks, at the row's place in the slab: the row's point is `t`, and the
    whole-array windows hold the same block at every point. -/
theorem S3val_slab (c : Dev nD) (t : Fin cfg1.N) (idx : S10000x128.Idx)
    (hlo : 1000 * t.val ≤ (idx 0).val) (hhi : (idx 0).val < 1000 * t.val + 1000) :
    S3val V c idx = k1_pay1 (iblk1 V c 0 t) (iblk1 V c 1 t) (iblk1 V c 2 t) (iblk1 V c 3 t)
      (ValueIdx.ix2 (⟨(idx 0).val - 1000 * t.val, by omega⟩ : Fin 1000) (⟨(idx 1).val, ValueIdx.idx2_lt1 idx⟩ : Fin 128)) := by
  have hp : rowPt (idx 0).val (ValueIdx.idx2_lt0 idx) = t := Fin.ext (by show (idx 0).val / 1000 = t.val; omega)
  have hm : (idx 0).val % 1000 = (idx 0).val - 1000 * t.val := by omega
  unfold S3val
  rw [hp, ← iblk1_1_const V c t, ← iblk1_2_const V c t, ← iblk1_3_const V c t]
  congr 1
  funext a
  match a with
  | ⟨0, _⟩ => exact Fin.ext hm
  | ⟨1, _⟩ => rfl

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

/-- An input window's buffer is left at its block. -/
theorem leaves1_0 (c : Dev nD) (t : Fin cfg1.N) :
    (dat1 V c).leavesExact 0 t = owns (c : Thread nD τ) (st1_0 t) fullShare (iblk1 V c 0 t) := by
  rw [← after1_0 V c t]
theorem leaves1_1 (c : Dev nD) (t : Fin cfg1.N) :
    (dat1 V c).leavesExact 1 t = owns (c : Thread nD τ) (st1_1 t) fullShare (iblk1 V c 1 t) := by
  rw [← after1_1 V c t]
theorem leaves1_2 (c : Dev nD) (t : Fin cfg1.N) :
    (dat1 V c).leavesExact 2 t = owns (c : Thread nD τ) (st1_2 t) fullShare (iblk1 V c 2 t) := by
  rw [← after1_2 V c t]
theorem leaves1_3 (c : Dev nD) (t : Fin cfg1.N) :
    (dat1 V c).leavesExact 3 t = owns (c : Thread nD τ) (st1_3 t) fullShare (iblk1 V c 3 t) := by
  rw [← after1_3 V c t]
theorem leaves1_4 (c : Dev nD) (t : Fin cfg1.N) :
    (dat1 V c).leavesExact 4 t = owns (c : Thread nD τ) (st1_4 t) fullShare (iblk1 V c 4 t) := by
  rw [← after1_4 V c t]
theorem leaves1_5 (c : Dev nD) (t : Fin cfg1.N) :
    (dat1 V c).leavesExact 5 t = owns (c : Thread nD τ) (st1_5 t) fullShare (iblk1 V c 5 t) := by
  rw [← after1_5 V c t]
/-- In phase 1 the output window's buffer is left at the payload over the whole of S3. -/
theorem leaves1_6 (c : Dev nD) (t : Fin cfg1.N) (h : 10 ≤ t.val) :
    (dat1 V c).leavesExact 6 t = owns (c : Thread nD τ) (st1_6 t) fullShare
      (k1_pay2 (iblk1 V c 0 t) (S3val V c) (iblk1 V c 4 t) (iblk1 V c 5 t)) := by
  rw [← after1_6 V c t]; unfold Dat.leavesExact; rw [liveAt1_6 t h]

set_option maxHeartbeats 4000000 in
/-- The body at any point. The inputs' buffers hold their blocks (`before1_W`). At a phase-0 point `t` the invariant
    hands the body the scratch at contents right below row 1000 t; the run overwrites the slab of rows 1000 t on with the
    payload, which is S3 there (`S3val_slab`), so the scratch is right below row 1000 (t + 1); the output window is idle and
    its buffer goes back as it came. At a phase-1 point every row of the scratch is S3's, the run leaves the scratch alone
    and stores the payload over the whole of S3 into the output window, which is live. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V, before1_1 V, before1_2 V, before1_3 V, before1_4 V, before1_5 V]
  rw [show (dat1 V c).owesAt () t.succ = (dat1 V c).owesAt () t.castSucc from rfl]
  rw [Phi1_eq V c t.castSucc, Phi1_eq V c t.succ, Fin.coe_castSucc, Fin.val_succ]
  rw [leaves1_0 V, leaves1_1 V, leaves1_2 V, leaves1_3 V, leaves1_4 V, leaves1_5 V]
  have hN : t.val < 20 := lt_of_lt_of_eq t.isLt (show cfg1.N = 20 from N_1)
  by_cases h : t.val < 10
  · have hc1 : k1_cond1 (grid1.coords t) = 1#1 := (cond1a_iff t).mpr h
    have hc2 : ¬k1_cond2 (grid1.coords t) = 1#1 := fun e => by have := (cond1b_iff t).mp e; omega
    rw [Dat.leavesExact_idle (dat1 V c) 6 t (idleAt1_6 t h) (noFlush1_6 t h)]
    unfold Phi1
    iintro ⟨⟨%f, HS, %hf, Hoth, Hg⟩, Ho, ⟨%d0, H0⟩, ⟨%d1, H1⟩, ⟨%d2, H2⟩, ⟨%d3, H3⟩, ⟨%d4, H4⟩, ⟨%d5, H5⟩, ⟨%d6, H6⟩⟩
    iapply (run1_phase0 c (grid1.coords t) _ _ _ _ _ _ _ _ _ _ _ _ _ _ _ _ hc1 hc2
      (iblk1 V c 0 t) (iblk1 V c 1 t) (iblk1 V c 2 t) (iblk1 V c 3 t) f Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hoth Hg]
    · iexists _
      isplitl [HS]; · iexact HS
      isplitr
      · ipureintro
        intro idx hidx
        rw [col1_phase0 t h]
        rw [Nat.min_eq_left (show t.val + 1 ≤ 10 by omega)] at hidx
        by_cases hlo : 1000 * t.val ≤ (idx 0).val
        · rw [putRows1_in _ _ _ idx hlo (by omega), S3val_slab V c t idx hlo (by omega)]
        · rw [putRows1_out _ _ _ idx (by omega)]
          exact hf idx (by rw [Nat.min_eq_left (show t.val ≤ 10 by omega)]; omega)
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6; iexact H6
  · have h10 : 10 ≤ t.val := by omega
    have hc1 : ¬k1_cond1 (grid1.coords t) = 1#1 := fun e => by have := (cond1a_iff t).mp e; omega
    have hc2 : k1_cond2 (grid1.coords t) = 1#1 := (cond1b_iff t).mpr h10
    rw [leaves1_6 V c t h10]
    unfold Phi1
    iintro ⟨⟨%f, HS, %hf, Hoth, Hg⟩, Ho, ⟨%d0, H0⟩, ⟨%d1, H1⟩, ⟨%d2, H2⟩, ⟨%d3, H3⟩, ⟨%d4, H4⟩, ⟨%d5, H5⟩, ⟨%d6, H6⟩⟩
    have hfS : f = S3val V c := funext fun idx => hf idx (by
      rw [Nat.min_eq_right h10]; have := ValueIdx.idx2_lt0 idx; omega)
    subst hfS
    iapply (run1_phase1 c (grid1.coords t) _ _ _ _ _ _ _ _ _ _ _ _ _ _ _ _ hc1 hc2
      (iblk1 V c 0 t) (iblk1 V c 4 t) (iblk1 V c 5 t) (S3val V c) Set.univ _)
    isplitl [H0]; · iexact H0
    isplitl [H4]; · iexact H4
    isplitl [H5]; · iexact H5
    isplitl [H6]; · iexists _; iexact H6
    isplitl [HS]; · iexact HS
    iintro ⟨H0, H4, H5, H6, HS⟩
    isplitl [HS Hoth Hg]
    · iexists _
      isplitl [HS]; · iexact HS
      isplitr
      · ipureintro; intro idx _; rfl
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- What the launch hands the region — every scoped buffer that is no staging buffer of it at some contents, the
    generator register at some state — is the invariant before the first point: no row of the scratch is yet claimed. -/
theorem hin1 (c : Dev nD) : (Pipeline.ΦA spec1 c : sProp 𝕄) ⊢ (dat1 V c).Φ 0 := by
  rw [Phi1_eq V c 0]
  unfold Phi1 others1 Pipeline.ΦA
  rw [scopedRest1_eq]
  simp only [scM1, owns_whole]
  iintro ⟨⟨A0, A1, A2, A3, A4, A5, A6, A7, A8, A9, A10, ⟨%f, HS⟩⟩, Hg⟩
  iexists f
  isplitl [HS]; · iexact HS
  isplitr
  · ipureintro
    intro idx hidx
    exfalso
    rw [show ((0 : Fin (cfg1.N + 1)).val) = 0 from rfl, Nat.zero_min, Nat.mul_zero] at hidx
    exact Nat.not_lt_zero _ hidx
  isplitl [A0 A1 A2 A3 A4 A5 A6 A7 A8 A9 A10]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact A10
  iexact Hg

/-- After the last point the invariant gives it back: what the scratch holds is forgotten. -/
theorem hout1 (c : Dev nD) : (dat1 V c).Φ (Fin.last cfg1.N) ⊢ (Pipeline.ΦA spec1 c : sProp 𝕄) := by
  rw [Phi1_eq V c (Fin.last cfg1.N)]
  unfold Phi1 others1 Pipeline.ΦA
  rw [scopedRest1_eq]
  simp only [scM1, owns_whole]
  iintro ⟨%f, HS, -, ⟨A0, A1, A2, A3, A4, A5, A6, A7, A8, A9, A10⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexists f; iexact HS
  iexact Hg

end Region1

end Cert.Kernel.Hand

end
-- ==== Proof.KLaunch.lean ====
/-
  The run of the whole program, from the two regions' body obligations.
  @main is three reshapes of the biases on the host, then the first kernel region, then the second.  The core's
  unscoped buffers are followed through it as valuations: the launch memory; after the reshapes; after the first
  region (its arrays at what its write-backs leave, every other buffer as before); after the second region likewise.
  Each region is entered holding every unscoped buffer at the valuation before it, beside the generator register at
  some state and nothing owed, and is left holding them at the valuation after it.  The regions' scratch buffers
  travel inside the regions' invariants (`Phi0`, `Phi1`), which start from, and give back, the scoped buffers at
  anything.  The result: every weakly fair execution terminates and the final memory holds every unscoped buffer at
  the last valuation — so each argument as launched, and the result array at what the second region's write-backs
  leave.  Everything is stated for any float instance; the body obligations are hypotheses here.
-/
import proofs.«146167_g15126874816640_cont_week2b_32_11_alg».proof.Proof.KR0Defs
import proofs.«146167_g15126874816640_cont_week2b_32_11_alg».proof.Proof.KR1Defs
import proofs.«146167_g15126874816640_cont_week2b_32_11_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (RegionSeg Seg HostSeg)

variable (m : (ℓ : Loc nD τ sig) → Buf (Elt F) ℓ) (ρ : Dev nD → PrngReg)

/-! ## The buffer contents between the items of @main -/

/-- At launch. -/
abbrev Wst0 : Dev nD → Valuation τ sig (Elt F) := fun c b => m (c, b)
/-- After the host reshapes of the three biases: what the first region is entered with. -/
abbrev Wst1 : Dev nD → Valuation τ sig (Elt F) := fun c => StableHlo.after hostOps0 (Wst0 m c)
/-- The same read at the TensorCore's references. -/
abbrev Ven0 : (c : Dev nD) → (b : Ref sig .tc) → Buf (Elt F) ((c : Thread nD τ).loc b) := fun c b => Wst1 m c b
/-- After the first region: its arrays at what its write-backs leave, every other buffer as it was. -/
def Wst2 (c : Dev nD) : Valuation τ sig (Elt F) :=
  Pipeline.withArrays spec0 c (Wst1 m c) fun w => (dat0 (Ven0 m) c).arrAt w cfg0.N
/-- The same read at the TensorCore's references: what the second region is entered with. -/
abbrev Ven1 : (c : Dev nD) → (b : Ref sig .tc) → Buf (Elt F) ((c : Thread nD τ).loc b) := fun c b => Wst2 m c b
/-- After the second region. -/
def Wst3 (c : Dev nD) : Valuation τ sig (Elt F) :=
  Pipeline.withArrays spec1 c (Wst2 m c) fun w => (dat1 (Ven1 m) c).arrAt w cfg1.N

theorem Wst2_arr (c : Dev nD) (w : Fin cfg0.W) :
    Wst2 m c (Proc.devRef .tc (Pipeline.arrRef spec0 w)) = (dat0 (Ven0 m) c).arrAt w cfg0.N := by
  unfold Wst2; exact Pipeline.withArrays_arr spec0 launch0.win.arr_inj c _ _ w
theorem Wst2_of_ne (c : Dev nD) (b : Ref sig .tc) (hb : ∀ w, Pipeline.arrRef spec0 w ≠ b) :
    Wst2 m c (Proc.devRef .tc b) = Wst1 m c (Proc.devRef .tc b) := by
  unfold Wst2; exact Pipeline.withArrays_of_ne spec0 c _ _ b hb
theorem Wst3_arr (c : Dev nD) (w : Fin cfg1.W) :
    Wst3 m c (Proc.devRef .tc (Pipeline.arrRef spec1 w)) = (dat1 (Ven1 m) c).arrAt w cfg1.N := by
  unfold Wst3; exact Pipeline.withArrays_arr spec1 launch1.win.arr_inj c _ _ w
theorem Wst3_of_ne (c : Dev nD) (b : Ref sig .tc) (hb : ∀ w, Pipeline.arrRef spec1 w ≠ b) :
    Wst3 m c (Proc.devRef .tc b) = Wst2 m c (Proc.devRef .tc b) := by
  unfold Wst3; exact Pipeline.withArrays_of_ne spec1 c _ _ b hb

/-! ## The proof data family and what rides beside the buffers -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Ven0 m) c
  | ⟨1, _⟩ => fun c => dat1 (Ven1 m) c

abbrev 𝒱n : Variants := Variants.none
/-- No core owes another anything: no level is assigned. -/
abbrev Lno : GSem nD τ sig → Finset Unit := fun _ => ∅
abbrev lvno : GSem nD τ sig → Unit → ℕ := fun _ _ => 0
/-- Beside the buffers: the generator register at some state, and nothing owed. -/
abbrev Rest (c : Dev nD) : sProp 𝕄 := iprop((∃ r, prngReg c r) ∗ ∃ W, owes (c : Thread nD τ) (0 : CellTallies nD τ sig Unit) W)
/-- The last thread state without the `owes`. -/
abbrev Tend (c : Dev nD) : sProp 𝕄 := iprop(StableHlo.held (c : Thread nD τ) (Pipeline.ucRefs τ sig) (Wst3 m c) ∗ ∃ r, prngReg c r)

/-! ## The regions as segments -/

section Records

/-- What the two regions' bodies owe: at every grid point the body runs from the region's invariant and the windows'
    current buffers to the invariant at the next point and the buffers at the proof data's contents; and each region's
    invariant starts from, and gives back, the scoped buffers at anything beside the generator register. -/
structure Bodies : Prop where
  hb0 : ∀ c : Dev nD, BodyObligation (dat0 (F := F) (Ven0 m) c) (defs₀ (F := F)) Variants.none () Set.univ
  hi0 : ∀ c : Dev nD, (Pipeline.ΦA spec0 c : sProp 𝕄) ⊢ (dat0 (Ven0 m) c).Φ 0
  ho0 : ∀ c : Dev nD, (dat0 (Ven0 m) c).Φ (Fin.last cfg0.N) ⊢ (Pipeline.ΦA spec0 c : sProp 𝕄)
  hb1 : ∀ c : Dev nD, BodyObligation (dat1 (F := F) (Ven1 m) c) (defs₀ (F := F)) Variants.none () Set.univ
  hi1 : ∀ c : Dev nD, (Pipeline.ΦA spec1 c : sProp 𝕄) ⊢ (dat1 (Ven1 m) c).Φ 0
  ho1 : ∀ c : Dev nD, (dat1 (Ven1 m) c).Φ (Fin.last cfg1.N) ⊢ (Pipeline.ΦA spec1 c : sProp 𝕄)

variable (H : Bodies m)

set_option backward.isDefEq.respectTransparency.types false in
/-- The first region: entered from every unscoped buffer at `Wst1`, left at `Wst2`. Its arrays are split out of the
    unscoped buffers and put back at what the write-backs leave; the generator register and the scoped buffers pass
    through the region's invariant. -/
def reg0 : RegionSeg (pcfgs (F := F)) adm (pdats m) () defs₀ 𝒱n Lno lvno 0 where
  win := launch0.win.to₀
  block_pos := launch0.block_pos
  stage_whole := launch0.stage_whole
  K := PEmpty
  osem k := k.elim
  ho := Pipeline.OwnSemFacts.none _
  hbody c := (H.hb0 c).loose
  hwaits := Pipeline.hwaits_of_owed_zero _ _ _ _ Lno lvno 0 fun _ _ => rfl
  pre c := iprop(StableHlo.held (c : Thread nD τ) (Pipeline.ucRefs τ sig) (Wst1 m c) ∗ Rest c)
  post c := iprop(StableHlo.held (c : Thread nD τ) (Pipeline.ucRefs τ sig) (Wst2 m c) ∗ Rest c)
  X c := iprop(∃ r, prngReg c r)
  Y c := iprop(∃ r, prngReg c r)
  Z c := Pipeline.unscopedRest (Ix := Unit) (Name := ℕ) (U := UR sig nD τ) (Lvl := ℕ) spec0 c (Ven0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ven0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (H.hi0 c)
    unfold Pipeline.ΦA
    iintro ⟨Hp, -, Hr⟩
    isplitl [Hr]; · iexact Hr
    iexact Hp
  hout c := by
    rw [Pipeline.ownSems0_none]
    refine BIBase.Entails.trans (H.ho0 c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ven0 m c) (Ven1 m c) ((pdats m 0 c).arrAt · cfg0.N) (fun w => (Wst2_arr m c w).symm)
      (fun b hb => Wst2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `Wst2`, left at `Wst3`, in the same way. -/
def reg1 : RegionSeg (pcfgs (F := F)) adm (pdats m) () defs₀ 𝒱n Lno lvno 1 where
  win := launch1.win.to₀
  block_pos := launch1.block_pos
  stage_whole := launch1.stage_whole
  K := PEmpty
  osem k := k.elim
  ho := Pipeline.OwnSemFacts.none _
  hbody c := (H.hb1 c).loose
  hwaits := Pipeline.hwaits_of_owed_zero _ _ _ _ Lno lvno 1 fun _ _ => rfl
  pre c := iprop(StableHlo.held (c : Thread nD τ) (Pipeline.ucRefs τ sig) (Wst2 m c) ∗ Rest c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ven1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ven1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (H.hi1 c)
    unfold Pipeline.ΦA
    iintro ⟨Hp, -, Hr⟩
    isplitl [Hr]; · iexact Hr
    iexact Hp
  hout c := by
    rw [Pipeline.ownSems0_none]
    refine BIBase.Entails.trans (H.ho1 c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ven1 m c) (fun b => Wst3 m c b) ((pdats m 1 c).arrAt · cfg1.N) (fun w => (Wst3_arr m c w).symm)
      (fun b hb => Wst3_of_ne m c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- The host reshapes as a segment over the unscoped references from the launch contents, `Rest` riding along. -/
abbrev hseg0 : HostSeg (Name := ℕ) (U := UR sig nD τ) (pcfgs (F := F)) defs₀ 𝒱n Lno lvno :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (Wst0 m) Rest

/-- @main's three segments in order. -/
abbrev segsM : List (Seg (pcfgs (F := F)) adm (pdats m) () defs₀ 𝒱n Lno lvno) :=
  [ .host (hseg0 m), .region (reg0 m H), .region (reg1 m H) ]

theorem main_runM (c : Dev nD) : main (F := F) c = Seg.run (segsM m H) :=
  (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include H in
set_option backward.isDefEq.respectTransparency.types false in
/-- THE RUN. From any memory with zero counters every weakly fair execution of @main terminates, nothing faulting,
    and the final memory holds every unscoped buffer at the last valuation. -/
theorem run_full : θ_run defs (onTc (τ := τ) (main (F := F))) ⟨m, fun _ => 0, ρ⟩ (fun r => ∀ c : Dev nD,
      ∀ b ∈ Pipeline.ucRefs τ sig, r.2.mem (((c : Thread nD τ)).1, b) = Wst3 m c b) :=
  Pipeline.θ_run_regions_kit (pcfgs (F := F)) adm (pdats m) () cellOf_inj emb₁ defs₀ 𝒱n Lno lvno m ρ main (segsM m H)
    (fun c Q => by rw [main_runM m H c])
    (by simp only [segsM, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wst0 m c) ∗ Rest c)) (Tₙ := Tend m)
    (hch := ⟨fun _ => .rfl, fun _ => .rfl, fun _ => .rfl, fun _ => .rfl⟩)
    (hinit := by
      refine Pipeline.initEach Lno lvno fun c => ?_
      rw [show unscopedBufs c (fun b => m ((c : Thread nD τ).loc b)) = StableHlo.held (c : Thread nD τ) (Pipeline.ucRefs τ sig) (Wst0 m c)
        from Pipeline.unscopedBufs_held c (Wst0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wst3 m c b)
    (hfin := fun c s' => by
      iintro ⟨⟨Hh, -⟩, HSI⟩
      unfold StableHlo.held
      imodintro
      iapply (pointsTo_read_all (Pipeline.ucRefs τ sig) (fun b => (((c : Thread nD τ)).1, b)) (Wst3 m c) s')
      isplitl [Hh] <;> iassumption)
    (hQ := fun s h c => h c)

end Records

end Cert.Kernel.Hand

end
-- ==== Proof.KEnds.lean ====
/-
  The ends of the run: what the last valuation holds at each argument and at the result.
  No item of @main writes an argument — the host reshapes write their own three buffers, and a region changes only
  its output windows' arrays — so the fold of valuations at an argument walks back to the launch memory; at the result
  array it is what the second region's write-backs leave.  Hence the frame (termination, no fault, arguments
  unchanged) and the run with the result named, for any float instance, from the two regions' body obligations.
-/
import proofs.«146167_g15126874816640_cont_week2b_32_11_alg».proof.Proof.KLaunch

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer the host reshapes do not write holds its launch contents after them. -/
theorem Wst1_keep (c : Dev nD) (r : Ref sig .tc) (h : r ∉ hostOps0_W) :
    Wst1 m c (Proc.devRef .tc r) = m ((c : Thread nD τ).loc r) :=
  (V1_of m c r h).trans rfl

/-- An input window's array is not changed by the first region. -/
theorem Wst2_in (c : Dev nD) (w : Fin cfg0.W) (hin : (cfg0.win w).isOut = false) :
    Wst2 m c (Proc.devRef .tc (Pipeline.arrRef spec0 w)) = Wst1 m c (Proc.devRef .tc (Pipeline.arrRef spec0 w)) :=
  (Wst2_arr m c w).trans (((dat0 (Ven0 m) c).arrAt_in w hin _).trans (A_eq0 (Ven0 m) c w))

/-- An input window's array is not changed by the second region. -/
theorem Wst3_in (c : Dev nD) (w : Fin cfg1.W) (hin : (cfg1.win w).isOut = false) :
    Wst3 m c (Proc.devRef .tc (Pipeline.arrRef spec1 w)) = Wst2 m c (Proc.devRef .tc (Pipeline.arrRef spec1 w)) :=
  (Wst3_arr m c w).trans (((dat1 (Ven1 m) c).arrAt_in w hin _).trans (A_eq1 (Ven1 m) c w))

/-! ## Each argument ends as launched -/

theorem Wst3_arg0 (c : Dev nD) : Wst3 m c (Proc.devRef .tc main_arg0) = m ((c : Thread nD τ).loc main_arg0) :=
  (Wst3_in m c 5 rfl).trans ((Wst2_in m c 1 rfl).trans (Wst1_keep m c main_arg0 (by decide)))
theorem Wst3_arg1 (c : Dev nD) : Wst3 m c (Proc.devRef .tc main_arg1) = m ((c : Thread nD τ).loc main_arg1) :=
  (Wst3_of_ne m c main_arg1 (by decide)).trans ((Wst2_in m c 0 rfl).trans (Wst1_keep m c main_arg1 (by decide)))
theorem Wst3_arg2 (c : Dev nD) : Wst3 m c (Proc.devRef .tc main_arg2) = m ((c : Thread nD τ).loc main_arg2) :=
  (Wst3_of_ne m c main_arg2 (by decide)).trans ((Wst2_in m c 2 rfl).trans (Wst1_keep m c main_arg2 (by decide)))
theorem Wst3_arg3 (c : Dev nD) : Wst3 m c (Proc.devRef .tc main_arg3) = m ((c : Thread nD τ).loc main_arg3) :=
  (Wst3_of_ne m c main_arg3 (by decide)).trans ((Wst2_of_ne m c main_arg3 (by decide)).trans (Wst1_keep m c main_arg3 (by decide)))
theorem Wst3_arg4 (c : Dev nD) : Wst3 m c (Proc.devRef .tc main_arg4) = m ((c : Thread nD τ).loc main_arg4) :=
  (Wst3_of_ne m c main_arg4 (by decide)).trans ((Wst2_in m c 4 rfl).trans (Wst1_keep m c main_arg4 (by decide)))
theorem Wst3_arg5 (c : Dev nD) : Wst3 m c (Proc.devRef .tc main_arg5) = m ((c : Thread nD τ).loc main_arg5) :=
  (Wst3_of_ne m c main_arg5 (by decide)).trans ((Wst2_of_ne m c main_arg5 (by decide)).trans (Wst1_keep m c main_arg5 (by decide)))
theorem Wst3_arg6 (c : Dev nD) : Wst3 m c (Proc.devRef .tc main_arg6) = m ((c : Thread nD τ).loc main_arg6) :=
  (Wst3_in m c 3 rfl).trans ((Wst2_of_ne m c main_arg6 (by decide)).trans (Wst1_keep m c main_arg6 (by decide)))
theorem Wst3_arg7 (c : Dev nD) : Wst3 m c (Proc.devRef .tc main_arg7) = m ((c : Thread nD τ).loc main_arg7) :=
  (Wst3_of_ne m c main_arg7 (by decide)).trans ((Wst2_of_ne m c main_arg7 (by decide)).trans (Wst1_keep m c main_arg7 (by decide)))

/-- The result array ends at what the second region's write-backs leave. -/
theorem Wst3_out (c : Dev nD) : Wst3 m c (Proc.devRef .tc main_v0) = (dat1 (Ven1 m) c).arrAt 6 cfg1.N :=
  Wst3_arr m c 6

/-! ## The frame, and the run with the result named -/

/-- Every weakly fair execution terminates, nothing faulting, with the argument arrays as launched. -/
theorem frame_of (H : Bodies m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      (h c _ (mem_uc main_arg0 (by decide))).trans (Wst3_arg0 m c),
      (h c _ (mem_uc main_arg1 (by decide))).trans (Wst3_arg1 m c),
      (h c _ (mem_uc main_arg2 (by decide))).trans (Wst3_arg2 m c),
      (h c _ (mem_uc main_arg3 (by decide))).trans (Wst3_arg3 m c),
      (h c _ (mem_uc main_arg4 (by decide))).trans (Wst3_arg4 m c),
      (h c _ (mem_uc main_arg5 (by decide))).trans (Wst3_arg5 m c),
      (h c _ (mem_uc main_arg6 (by decide))).trans (Wst3_arg6 m c),
      (h c _ (mem_uc main_arg7 (by decide))).trans (Wst3_arg7 m c)⟩)
    (run_full m ρ H)

/-- The same with the result array named: it ends at what the second region's write-backs leave. -/
theorem value_of (H : Bodies m) :
    θ_run defs (onTc (τ := τ) (main (F := F))) ⟨m, fun _ => 0, ρ⟩ (fun r => ∀ c : Dev nD,
      r.2.mem ((c.tc : Thread nD τ).loc main_v0) = (dat1 (Ven1 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c _ (mem_uc main_v0 (by decide))).trans (Wst3_out m c),
      (h c _ (mem_uc main_arg0 (by decide))).trans (Wst3_arg0 m c),
      (h c _ (mem_uc main_arg1 (by decide))).trans (Wst3_arg1 m c),
      (h c _ (mem_uc main_arg2 (by decide))).trans (Wst3_arg2 m c),
      (h c _ (mem_uc main_arg3 (by decide))).trans (Wst3_arg3 m c),
      (h c _ (mem_uc main_arg4 (by decide))).trans (Wst3_arg4 m c),
      (h c _ (mem_uc main_arg5 (by decide))).trans (Wst3_arg5 m c),
      (h c _ (mem_uc main_arg6 (by decide))).trans (Wst3_arg6 m c),
      (h c _ (mem_uc main_arg7 (by decide))).trans (Wst3_arg7 m c)⟩)
    (run_full m ρ H)

end Cert.Kernel.Hand

end
-- ==== Proof.lean ====
/-
  Three stacked graph-convolution layers, out = relu(relu(adj · S3 + b3) + x) with S3 = relu(adj · S2 + b2) · W3,
  S2 = relu(adj · S1 + b1) · W2, S1 = x · W1, as a kernel of two grid regions against the plain reference.

  The kernel.  Region one walks 25 blocks of 400 rows of the adjacency matrix: the first point computes S1 into a
  scratch buffer that every point then reads; each point writes a narrow-format copy of its block and its 400 rows of
  S2.  Region two walks a 2 x 10 grid over 1000-row blocks of that copy: phase 0 fills a second scratch buffer with S3,
  1000 rows per point, leaving the result window alone; phase 1 reads the whole scratch and writes its 1000 rows of
  the result.  At the ideal instance a change of float format is the identity and a matrix product is the plain sum over
  the inner index whatever the tiling, so both programs compute the same sums of the same products, in the same
  grouping: no law of the extended reals beyond re-indexing a finite sum is used, and the precondition is never opened.

  The proof.  Each region's body is run once per control case against an invariant that carries its scratch buffer
  (region one: the scratch holds S1 once a point has run; region two: the scratch's rows below 1000 · min n 10 hold
  S3's), which gives the pipeline library's body obligation; the two regions are then composed with the host reshapes
  of the biases into one run whose post reads every unscoped buffer at a valuation folded through the program — hence
  the frames, at the word-level instance for the kernel as printed and at the ideal instance for its idealization (the
  two printed programs are one text, so the modules are written once for any instance).  For the value, the arrays the
  regions leave are read block by block against one specification (matrix products as sums over `Fin k`), the
  reference's stages are read against the same specification, and the two meet index by index.  The ideal pass rewrote
  nothing, so there is nothing to preserve.
-/
import proofs.«146167_g15126874816640_cont_week2b_32_11_alg».proof.Defs
import proofs.«146167_g15126874816640_cont_week2b_32_11_alg».proof.Proof.Gen.Kernel
import proofs.«146167_g15126874816640_cont_week2b_32_11_alg».proof.Proof.Gen.KernelIdeal
import proofs.«146167_g15126874816640_cont_week2b_32_11_alg».proof.Proof.Gen.ReferenceIdeal
import proofs.«146167_g15126874816640_cont_week2b_32_11_alg».proof.Proof.Gen.Pre_finite_inputs
import proofs.«146167_g15126874816640_cont_week2b_32_11_alg».proof.Proof.Gen.ReferenceIdeal.Run
import proofs.«146167_g15126874816640_cont_week2b_32_11_alg».proof.Proof.Gen.ReferenceIdeal.Read
import proofs.«146167_g15126874816640_cont_week2b_32_11_alg».proof.Proof.R0Body
import proofs.«146167_g15126874816640_cont_week2b_32_11_alg».proof.Proof.R1Body
import proofs.«146167_g15126874816640_cont_week2b_32_11_alg».proof.Proof.Ends
import proofs.«146167_g15126874816640_cont_week2b_32_11_alg».proof.Proof.Bridge
import proofs.«146167_g15126874816640_cont_week2b_32_11_alg».proof.Proof.RefSpec
import proofs.«146167_g15126874816640_cont_week2b_32_11_alg».proof.Proof.KR0Body
import proofs.«146167_g15126874816640_cont_week2b_32_11_alg».proof.Proof.KR1Body
import proofs.«146167_g15126874816640_cont_week2b_32_11_alg».proof.Proof.KEnds
import Idealize.ShloMosaic.Adequacy
import Idealize.ShloMosaic.Init

noncomputable section

namespace Cert.Proof

open Idealize.ShloMosaic Idealize.ShloMosaic.TcCoe Idealize.SL.Sem

/-- Both regions' body obligations for the kernel as printed, at any float instance and from any launch memory. -/
theorem bodiesK {F : FTy → Type} [FloatOps F] (m : (ℓ : Loc Cert.Kernel.nD Cert.Kernel.τ Cert.Kernel.sig) → Buf (Elt F) ℓ) :
    Cert.Kernel.Hand.Bodies m :=
  ⟨Cert.Kernel.Hand.body_obligation0 _, Cert.Kernel.Hand.hin0 _, Cert.Kernel.Hand.hout0 _,
    Cert.Kernel.Hand.body_obligation1 _, Cert.Kernel.Hand.hin1 _, Cert.Kernel.Hand.hout1 _⟩

/-- The same for the idealized kernel. -/
theorem bodiesI {F : FTy → Type} [FloatOps F] (m : (ℓ : Loc Cert.KernelIdeal.nD Cert.KernelIdeal.τ Cert.KernelIdeal.sig) → Buf (Elt F) ℓ) :
    Cert.KernelIdeal.Hand.Bodies m :=
  ⟨Cert.KernelIdeal.Hand.body_obligation0 _, Cert.KernelIdeal.Hand.hin0 _, Cert.KernelIdeal.Hand.hout0 _,
    Cert.KernelIdeal.Hand.body_obligation1 _, Cert.KernelIdeal.Hand.hin1 _, Cert.KernelIdeal.Hand.hout1 _⟩

theorem frame_k : Cert.frame_Kernel := fun m ρ _ => Cert.Kernel.Hand.frame_of m ρ (bodiesK m)
theorem frame_ki : Cert.frame_KernelIdeal := fun m ρ _ => Cert.KernelIdeal.Hand.frame_of m ρ (bodiesI m)
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result array at the three stacked layers of the arguments: the kernel's by the two
    regions' write-backs read against the specification, the reference's by its stages read against the same. -/
theorem algebraic : Cert.algebraic_KernelIdeal_ReferenceIdeal := by
  intro m ρ m' ρ' _ hagree
  refine ⟨fun c => Cert.KernelIdeal.Hand.specOut m c, ?_, ?_⟩
  · exact (θ_run Cert.KernelIdeal.defs _ _).mono
      (fun _ h c => ⟨(h c).1.trans (Cert.KernelIdeal.Hand.result_is_spec m c), (h c).2⟩)
      (Cert.KernelIdeal.Hand.value_of m ρ (bodiesI m))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v19_eq, (hagree c).1, (hagree c).2.1, (hagree c).2.2.1, (hagree c).2.2.2.1, (hagree c).2.2.2.2.1, (hagree c).2.2.2.2.2.1, (hagree c).2.2.2.2.2.2.1, (hagree c).2.2.2.2.2.2.2]
    funext j
    exact Cert.ReferenceIdeal.RefValue.ref_is_spec _ _ _ _ _ _ _ _ j

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
